-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S1024x512 : Shape := ⟨2, ![1024, 512]⟩
abbrev S1x512 : Shape := ⟨2, ![1, 512]⟩
abbrev S8x512 : Shape := ⟨2, ![8, 512]⟩
abbrev S8 : Shape := ⟨1, ![8]⟩
abbrev S_ : Shape := ⟨0, ![]⟩
abbrev S512 : Shape := ⟨1, ![512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S8x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_53 : BitVec 32 := 0#32
  let c0_i32_51 : BitVec 32 := 0#32
  let c1_i32_52 : BitVec 32 := 1#32
  let v90 : BitVec 32 := Scalar.muli c0_i32_51 c1_i32_52
  let v91 : BitVec 32 := Scalar.addi c0_i32_53 v90
  v91.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_53 : BitVec 32 := 0#32
  let c1_i32_51 : BitVec 32 := 1#32
  let c1_i32_52 : BitVec 32 := 1#32
  let v90 : BitVec 32 := Scalar.muli c1_i32_51 c1_i32_52
  let v91 : BitVec 32 := Scalar.addi c0_i32_53 v90
  v91.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_53 : BitVec 32 := 0#32
  let c2_i32_51 : BitVec 32 := 2#32
  let c1_i32_52 : BitVec 32 := 1#32
  let v90 : BitVec 32 := Scalar.muli c2_i32_51 c1_i32_52
  let v91 : BitVec 32 := Scalar.addi c0_i32_53 v90
  v91.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_53 : BitVec 32 := 0#32
  let c3_i32_51 : BitVec 32 := 3#32
  let c1_i32_52 : BitVec 32 := 1#32
  let v90 : BitVec 32 := Scalar.muli c3_i32_51 c1_i32_52
  let v91 : BitVec 32 := Scalar.addi c0_i32_53 v90
  v91.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_53 : BitVec 32 := 0#32
  let c4_i32_51 : BitVec 32 := 4#32
  let c1_i32_52 : BitVec 32 := 1#32
  let v90 : BitVec 32 := Scalar.muli c4_i32_51 c1_i32_52
  let v91 : BitVec 32 := Scalar.addi c0_i32_53 v90
  v91.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_53 : BitVec 32 := 0#32
  let c5_i32_51 : BitVec 32 := 5#32
  let c1_i32_52 : BitVec 32 := 1#32
  let v90 : BitVec 32 := Scalar.muli c5_i32_51 c1_i32_52
  let v91 : BitVec 32 := Scalar.addi c0_i32_53 v90
  v91.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_53 : BitVec 32 := 0#32
  let c6_i32_51 : BitVec 32 := 6#32
  let c1_i32_52 : BitVec 32 := 1#32
  let v90 : BitVec 32 := Scalar.muli c6_i32_51 c1_i32_52
  let v91 : BitVec 32 := Scalar.addi c0_i32_53 v90
  v91.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_53 : BitVec 32 := 0#32
  let c7_i32_51 : BitVec 32 := 7#32
  let c1_i32_52 : BitVec 32 := 1#32
  let v90 : BitVec 32 := Scalar.muli c7_i32_51 c1_i32_52
  let v91 : BitVec 32 := Scalar.addi c0_i32_53 v90
  v91.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_10 : Index := 0#32
  ![v32.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_12 : BitVec 32 := 0#32
  let v36 : BitVec 1 := Scalar.cmpi .ne v2 c0_i32_12
  let v37 : BitVec 32 := Scalar.extui v36
  let c0_i32_13 : BitVec 32 := 0#32
  let v38 : BitVec 1 := Scalar.cmpi .ne v37 c0_i32_13
  v38

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev9 : Nat :=
  let c0_i32_53 : BitVec 32 := 0#32
  let c0_i32_51 : BitVec 32 := 0#32
  let c1_i32_52 : BitVec 32 := 1#32
  let v90 : BitVec 32 := Scalar.muli c0_i32_51 c1_i32_52
  let v91 : BitVec 32 := Scalar.addi c0_i32_53 v90
  v91.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v39 : BitVec 1 := Scalar.cmpi .ne v2 c1_i32_14
  let v40 : BitVec 32 := Scalar.extui v39
  let c0_i32_15 : BitVec 32 := 0#32
  let v41 : BitVec 1 := Scalar.cmpi .ne v40 c0_i32_15
  v41

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev10 : Nat :=
  let c0_i32_53 : BitVec 32 := 0#32
  let c1_i32_51 : BitVec 32 := 1#32
  let c1_i32_52 : BitVec 32 := 1#32
  let v90 : BitVec 32 := Scalar.muli c1_i32_51 c1_i32_52
  let v91 : BitVec 32 := Scalar.addi c0_i32_53 v90
  v91.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_16 : BitVec 32 := 2#32
  let v42 : BitVec 1 := Scalar.cmpi .ne v2 c2_i32_16
  let v43 : BitVec 32 := Scalar.extui v42
  let c0_i32_17 : BitVec 32 := 0#32
  let v44 : BitVec 1 := Scalar.cmpi .ne v43 c0_i32_17
  v44

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev11 : Nat :=
  let c0_i32_53 : BitVec 32 := 0#32
  let c2_i32_51 : BitVec 32 := 2#32
  let c1_i32_52 : BitVec 32 := 1#32
  let v90 : BitVec 32 := Scalar.muli c2_i32_51 c1_i32_52
  let v91 : BitVec 32 := Scalar.addi c0_i32_53 v90
  v91.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v45 : BitVec 1 := Scalar.cmpi .ne v2 c3_i32_18
  let v46 : BitVec 32 := Scalar.extui v45
  let c0_i32_19 : BitVec 32 := 0#32
  let v47 : BitVec 1 := Scalar.cmpi .ne v46 c0_i32_19
  v47

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev12 : Nat :=
  let c0_i32_53 : BitVec 32 := 0#32
  let c3_i32_51 : BitVec 32 := 3#32
  let c1_i32_52 : BitVec 32 := 1#32
  let v90 : BitVec 32 := Scalar.muli c3_i32_51 c1_i32_52
  let v91 : BitVec 32 := Scalar.addi c0_i32_53 v90
  v91.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v48 : BitVec 1 := Scalar.cmpi .ne v2 c4_i32_20
  let v49 : BitVec 32 := Scalar.extui v48
  let c0_i32_21 : BitVec 32 := 0#32
  let v50 : BitVec 1 := Scalar.cmpi .ne v49 c0_i32_21
  v50

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev13 : Nat :=
  let c0_i32_53 : BitVec 32 := 0#32
  let c4_i32_51 : BitVec 32 := 4#32
  let c1_i32_52 : BitVec 32 := 1#32
  let v90 : BitVec 32 := Scalar.muli c4_i32_51 c1_i32_52
  let v91 : BitVec 32 := Scalar.addi c0_i32_53 v90
  v91.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_22 : BitVec 32 := 5#32
  let v51 : BitVec 1 := Scalar.cmpi .ne v2 c5_i32_22
  let v52 : BitVec 32 := Scalar.extui v51
  let c0_i32_23 : BitVec 32 := 0#32
  let v53 : BitVec 1 := Scalar.cmpi .ne v52 c0_i32_23
  v53

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev14 : Nat :=
  let c0_i32_53 : BitVec 32 := 0#32
  let c5_i32_51 : BitVec 32 := 5#32
  let c1_i32_52 : BitVec 32 := 1#32
  let v90 : BitVec 32 := Scalar.muli c5_i32_51 c1_i32_52
  let v91 : BitVec 32 := Scalar.addi c0_i32_53 v90
  v91.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_24 : BitVec 32 := 6#32
  let v54 : BitVec 1 := Scalar.cmpi .ne v2 c6_i32_24
  let v55 : BitVec 32 := Scalar.extui v54
  let c0_i32_25 : BitVec 32 := 0#32
  let v56 : BitVec 1 := Scalar.cmpi .ne v55 c0_i32_25
  v56

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev15 : Nat :=
  let c0_i32_53 : BitVec 32 := 0#32
  let c6_i32_51 : BitVec 32 := 6#32
  let c1_i32_52 : BitVec 32 := 1#32
  let v90 : BitVec 32 := Scalar.muli c6_i32_51 c1_i32_52
  let v91 : BitVec 32 := Scalar.addi c0_i32_53 v90
  v91.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_26 : BitVec 32 := 7#32
  let v57 : BitVec 1 := Scalar.cmpi .ne v2 c7_i32_26
  let v58 : BitVec 32 := Scalar.extui v57
  let c0_i32_27 : BitVec 32 := 0#32
  let v59 : BitVec 1 := Scalar.cmpi .ne v58 c0_i32_27
  v59

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev16 : Nat :=
  let c0_i32_53 : BitVec 32 := 0#32
  let c7_i32_51 : BitVec 32 := 7#32
  let c1_i32_52 : BitVec 32 := 1#32
  let v90 : BitVec 32 := Scalar.muli c7_i32_51 c1_i32_52
  let v91 : BitVec 32 := Scalar.addi c0_i32_53 v90
  v91.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  h_S1x512 : 0 < S1x512.numel
  shapeCasts_S1x512_S1x512 : S1x512.ShapeCasts S1x512
  hamt_7 : (7#32 : BitVec 32).msb = false
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S8x512_S1x512_0_0 : ∀ a, (![0, 0] : Fin 2 → Nat) a + S1x512.size a ≤ S8x512.size a
  inb_S8x512_S1x512_1_0 : ∀ a, (![1, 0] : Fin 2 → Nat) a + S1x512.size a ≤ S8x512.size a
  inb_S8x512_S1x512_2_0 : ∀ a, (![2, 0] : Fin 2 → Nat) a + S1x512.size a ≤ S8x512.size a
  inb_S8x512_S1x512_3_0 : ∀ a, (![3, 0] : Fin 2 → Nat) a + S1x512.size a ≤ S8x512.size a
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  inb_S8x512_S8x512_0_0 : ∀ a, (![0, 0] : Fin 2 → Nat) a + S8x512.size a ≤ S8x512.size a
  h_S8x512 : 0 < S8x512.numel
  reduces_S8x512_S512 : S8x512.Reduces [0] S512
  inb_S1x512_S1x512_0_0 : ∀ a, (![0, 0] : Fin 2 → Nat) a + S1x512.size a ≤ S1x512.size a
  hcc0_scratch1 : 2 + S8.numel ≤ 18
  hcc0_scratch2 : 10 + S8.numel ≤ 18
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_off1_inb : ∀ d0 : Dev nD, ∀ a, (k0_off1 d0) a + S1x512.size a ≤ S8x512.size a
  k0_off2_inb : ∀ d0 : Dev nD, ∀ (k0_h9 : k0_cond9 d0 = 1#1), ∀ a, (k0_off2 d0) a + S1.size a ≤ S8.size a
  k0_off3_inb : ∀ d0 : Dev nD, ∀ (k0_h9 : k0_cond9 d0 = 1#1), ∀ a, (k0_off3 d0) a + S1x512.size a ≤ S8x512.size a
  k0_dev9_lt : ∀ d0 : Dev nD, ∀ (k0_h9 : k0_cond9 d0 = 1#1), k0_dev9 < nD
  k0_off4_inb : ∀ d0 : Dev nD, ∀ (k0_h10 : k0_cond10 d0 = 1#1), ∀ a, (k0_off4 d0) a + S1.size a ≤ S8.size a
  k0_off5_inb : ∀ d0 : Dev nD, ∀ (k0_h10 : k0_cond10 d0 = 1#1), ∀ a, (k0_off5 d0) a + S1x512.size a ≤ S8x512.size a
  k0_dev10_lt : ∀ d0 : Dev nD, ∀ (k0_h10 : k0_cond10 d0 = 1#1), k0_dev10 < nD
  k0_off6_inb : ∀ d0 : Dev nD, ∀ (k0_h11 : k0_cond11 d0 = 1#1), ∀ a, (k0_off6 d0) a + S1.size a ≤ S8.size a
  k0_off7_inb : ∀ d0 : Dev nD, ∀ (k0_h11 : k0_cond11 d0 = 1#1), ∀ a, (k0_off7 d0) a + S1x512.size a ≤ S8x512.size a
  k0_dev11_lt : ∀ d0 : Dev nD, ∀ (k0_h11 : k0_cond11 d0 = 1#1), k0_dev11 < nD
  k0_off8_inb : ∀ d0 : Dev nD, ∀ (k0_h12 : k0_cond12 d0 = 1#1), ∀ a, (k0_off8 d0) a + S1.size a ≤ S8.size a
  k0_off9_inb : ∀ d0 : Dev nD, ∀ (k0_h12 : k0_cond12 d0 = 1#1), ∀ a, (k0_off9 d0) a + S1x512.size a ≤ S8x512.size a
  k0_dev12_lt : ∀ d0 : Dev nD, ∀ (k0_h12 : k0_cond12 d0 = 1#1), k0_dev12 < nD
  k0_off10_inb : ∀ d0 : Dev nD, ∀ (k0_h13 : k0_cond13 d0 = 1#1), ∀ a, (k0_off10 d0) a + S1.size a ≤ S8.size a
  k0_off11_inb : ∀ d0 : Dev nD, ∀ (k0_h13 : k0_cond13 d0 = 1#1), ∀ a, (k0_off11 d0) a + S1x512.size a ≤ S8x512.size a
  k0_dev13_lt : ∀ d0 : Dev nD, ∀ (k0_h13 : k0_cond13 d0 = 1#1), k0_dev13 < nD
  k0_off12_inb : ∀ d0 : Dev nD, ∀ (k0_h14 : k0_cond14 d0 = 1#1), ∀ a, (k0_off12 d0) a + S1.size a ≤ S8.size a
  k0_off13_inb : ∀ d0 : Dev nD, ∀ (k0_h14 : k0_cond14 d0 = 1#1), ∀ a, (k0_off13 d0) a + S1x512.size a ≤ S8x512.size a
  k0_dev14_lt : ∀ d0 : Dev nD, ∀ (k0_h14 : k0_cond14 d0 = 1#1), k0_dev14 < nD
  k0_off14_inb : ∀ d0 : Dev nD, ∀ (k0_h15 : k0_cond15 d0 = 1#1), ∀ a, (k0_off14 d0) a + S1.size a ≤ S8.size a
  k0_off15_inb : ∀ d0 : Dev nD, ∀ (k0_h15 : k0_cond15 d0 = 1#1), ∀ a, (k0_off15 d0) a + S1x512.size a ≤ S8x512.size a
  k0_dev15_lt : ∀ d0 : Dev nD, ∀ (k0_h15 : k0_cond15 d0 = 1#1), k0_dev15 < nD
  k0_off16_inb : ∀ d0 : Dev nD, ∀ (k0_h16 : k0_cond16 d0 = 1#1), ∀ a, (k0_off16 d0) a + S1.size a ≤ S8.size a
  k0_off17_inb : ∀ d0 : Dev nD, ∀ (k0_h16 : k0_cond16 d0 = 1#1), ∀ a, (k0_off17 d0) a + S1x512.size a ≤ S8x512.size a
  k0_dev16_lt : ∀ d0 : Dev nD, ∀ (k0_h16 : k0_cond16 d0 = 1#1), k0_dev16 < nD
  hstage0_0 : ∀ j, (stage0_0 j).IsWhole
  hstage0_1 : ∀ j, (stage0_1 j).IsWhole

variable [Facts₀]

abbrev cc0_scratch1 : DmaSems sig S8 := SemArray.consecutive 2 S8 hcc0_scratch1
abbrev cc0_scratch2 : DmaSems sig S8 := SemArray.consecutive 10 S8 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Spec.lean ====
/-
  What the kernel computes, as pure functions of the devices' blocks of the argument array.
  Device `j` reduces its 1024 × 512 block over the row axis to one row of 512 sums; the eight rows are
  exchanged so that every device holds all eight in an 8 × 512 buffer, row `j` being device `j`'s;
  each device then reduces that buffer over its row axis and scales by 2⁻¹³ = 1 / 8192.
-/
import proofs.«900941_g7700000000000942_dist_mean_ax0_shard0_i_m1024_n512_v7x_i8_f32_1_alg».proof.Proof.Gen.KernelIdeal.Skeleton
import Idealize.ShloMosaic.Lib.ValueIdx

noncomputable section

namespace Cert.KernelIdeal.Spec

open Cert.KernelIdeal Cert.KernelIdeal.Gen
open Idealize.ShloMosaic Idealize.SL.Sem

variable {F : FTy → Type} [FloatOps F]

/-- One device's partial result: the sums of its block's 512 columns, as a 1 × 512 row. -/
def psum (x : Vec F S1024x512 .f32) : FVec F S1x512 .f32 := k0_pay2 (k0_pay1 x)

/-- The row of an index of the 8 × 512 buffer, as a device. -/
def rowOf (i : S8x512.Idx) : Dev nD := ⟨(i 0).val, (i 0).isLt⟩

/-- The column of an index of the 8 × 512 buffer, as an index of a 1 × 512 row. -/
def colOf (i : S8x512.Idx) : S1x512.Idx := ValueIdx.ix2 (0 : Fin 1) (⟨(i 1).val, (i 1).isLt⟩ : Fin 512)

/-- The gathered buffer: row `j` holds device `j`'s partial result. -/
def acc (xs : Dev nD → Vec F S1024x512 .f32) : Vec F S8x512 .f32 := fun i => psum (xs (rowOf i)) (colOf i)

/-- Every device's result: the column sums of the gathered buffer, scaled by 2⁻¹³. -/
def outV (xs : Dev nD → Vec F S1024x512 .f32) : FVec F S1x512 .f32 := k0_pay3 (acc xs)

end Cert.KernelIdeal.Spec

end
-- ==== Proof.Sched.lean ====
/-
  The exchange protocol of the eight-device column mean, as a schedule of semaphore rounds.

  Device `c` tells every other device `j` that it is inside the kernel by one unit on `j`'s barrier
  semaphore; with that unit goes row `j` of `c`'s own 8 × 512 gather buffer, the row device `j` will fill.
  After seven such units device `c` owns row `c` of every other device's buffer and copies its partial
  sums there: the copy to `j` completes on `c`'s send semaphore `j` (giving back the share of the source
  row it read through) and on `j`'s receive semaphore `c` (giving `j` its row `c`, filled).
-/
import proofs.«900941_g7700000000000942_dist_mean_ax0_shard0_i_m1024_n512_v7x_i8_f32_1_alg».proof.Proof.Spec
import proofs.«900941_g7700000000000942_dist_mean_ax0_shard0_i_m1024_n512_v7x_i8_f32_1_alg».proof.Proof.Gen.KernelIdeal.Launch
import proofs.«900941_g7700000000000942_dist_mean_ax0_shard0_i_m1024_n512_v7x_i8_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Memrefs, semaphores and cells -/

abbrev xM : Memref sig .tc .vmem S1024x512 .f32 := Memref.whole cc0_stg0_0
abbrev oM : Memref sig .tc .vmem S1x512 .f32 := Memref.whole cc0_stg1_0
abbrev aM : Memref sig .tc .vmem S8x512 .f32 := Memref.whole cc0_scratch0

theorem row_inb (k : Dev nD) : ∀ a, (![k.val, 0] : Fin 2 → Nat) a + S1x512.size a ≤ S8x512.size a := by
  revert k; decide

/-- Row `k` of the gather buffer. -/
abbrev rowM (k : Dev nD) : Memref sig .tc .vmem S1x512 .f32 :=
  aM.slice (Rect.unit (s := S8x512) ![k.val, 0] S1x512.size (row_inb k)) (fun _ => rfl)

theorem sem_inb (k : Dev nD) : ∀ a, (![k.val] : Fin 1 → Nat) a + S1.size a ≤ S8.size a := by
  revert k; decide

/-- The barrier semaphore, and the send and receive semaphores by the index of the other device. -/
abbrev barS : Sem sig := (SemArray.scalar (sig.barrier 0 rfl) : Sems sig S_).sem
abbrev sendS (k : Dev nD) : DmaSem sig := ((cc0_scratch1.slice (Rect.unit (s := S8) ![k.val] S1.size (sem_inb k))).squeeze S_ squeezes_S1_S_).sem
abbrev recvS (k : Dev nD) : DmaSem sig := ((cc0_scratch2.slice (Rect.unit (s := S8) ![k.val] S1.size (sem_inb k))).squeeze S_ squeezes_S1_S_).sem

theorem sendS_val (k : Dev nD) : (sendS k).val = 2 + k.val := by revert k; decide
theorem recvS_val (k : Dev nD) : (recvS k).val = 10 + k.val := by revert k; decide

abbrev barCell (c : Dev nD) : GSem nD τ sig := ((c : Thread nD τ), .reg barS)
abbrev sendCell (c k : Dev nD) : GSem nD τ sig := ((c : Thread nD τ), .dma (sendS k))
abbrev recvCell (c k : Dev nD) : GSem nD τ sig := ((c : Thread nD τ), .dma (recvS k))

abbrev N : ℕ := (rowM 0 : Memref sig .tc .vmem S1x512 .f32).view.dmaCredit
theorem N_pos : 0 < N := View.dmaCredit_pos _ (by decide)
theorem N_row (k : Dev nD) : (rowM k : Memref sig .tc .vmem S1x512 .f32).view.dmaCredit = N := rfl

/-! ## The gather buffer by rows -/

/-- The elements of row `k`, as elements of the whole buffer. -/
abbrev rowSet (k : Dev nD) : Finset S8x512.Idx := (Rect.unit (s := S8x512) ![k.val, 0] S1x512.size (row_inb k)).set

theorem mem_rowSet {k : Dev nD} {i : S8x512.Idx} : i ∈ rowSet k ↔ (i 0).val = k.val := by
  unfold rowSet
  rw [Rect.mem_set_unit]
  constructor
  · intro h; have : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 512; have : (i 1).val < 512 := (i 1).isLt; omega

theorem rowM_set (k : Dev nD) : (rowM k : Memref sig .tc .vmem S1x512 .f32).view.set = rowSet k :=
  View.set_slice_whole cc0_scratch0 _

theorem rowSet_disjoint {k k' : Dev nD} (h : k ≠ k') : Disjoint (rowSet k) (rowSet k') :=
  Finset.disjoint_left.mpr fun i hi hi' => h (Fin.ext ((mem_rowSet.mp hi).symm.trans (mem_rowSet.mp hi')))

theorem rowSet_cover : (Finset.univ : Finset (Dev nD)).biUnion rowSet = Finset.univ := by
  ext i
  simp only [Finset.mem_biUnion, Finset.mem_univ, true_and, iff_true]
  exact ⟨⟨(i 0).val, (i 0).isLt⟩, mem_rowSet.mpr rfl⟩

/-! ## Contents -/

/-- Device `c`'s block of the argument array, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What every device's gather buffer holds once the exchange is over: row `j` is device `j`'s partial sums. -/
def accAll : (cc0_scratch0 : Ref sig .tc).ty.Contents (Elt F) := Spec.acc (fun j => xstg m ρ j)

/-- What every device's result buffer holds in the end. -/
def outAll : (cc0_stg1_0 : Ref sig .tc).ty.Contents (Elt F) := Spec.outV (fun j => xstg m ρ j)

/-! ## Ownership of a row; the shares of a source row read by seven copies at once -/

def rowPts (c k : Dev nD) (q : PosShare TreeShare) (f : Buf (Elt F) ((rowM k : Memref sig .tc .vmem S1x512 .f32).view.loc (c : Thread nD τ))) : sProp 𝕄 :=
  (rowM k : Memref sig .tc .vmem S1x512 .f32).view.loc (c : Thread nD τ) ↦[(rowM k : Memref sig .tc .vmem S1x512 .f32).view.set]{q} f

omit [FloatOps F] in
instance rowPts_storable (c k : Dev nD) (q) (f) : BI.Storable (upEmb : UEmb _ 𝕄) (rowPts (F := F) c k q f) := by unfold rowPts; infer_instance

/-- What is left of the full share after `n` halvings, and the half taken off at the `n`-th. -/
def restShare : ℕ → PosShare TreeShare
  | 0 => fullShare
  | n + 1 => (restShare n).right
def pieceShare (n : ℕ) : PosShare TreeShare := (restShare n).left

example (c k : Dev nD) : (rowM k : Memref sig .tc .vmem S1x512 .f32).view.loc (c : Thread nD τ) = (c : Thread nD τ).loc cc0_scratch0 := rfl

/-! ## The schedule -/

/-- With the unit device `d` puts on device `c`'s barrier semaphore: row `c` of `d`'s gather buffer, and that `d` has
    opened the receive cell the copy into that row completes on. -/
def barPay (c d : Dev nD) : sProp 𝕄 := iprop((∃ f, rowPts d c fullShare f) ∗ reached ER (recvCell d c) 0)
/-- With the completion of the copy to `k` on the sender's side: the share of the source row it read through. -/
def sendPay (c k : Dev nD) : sProp 𝕄 := rowPts c c (pieceShare k.val) (accAll m ρ)
/-- With the completion of the copy from `k`: row `k`, filled. -/
def recvPay (c k : Dev nD) : sProp 𝕄 := rowPts c k fullShare (accAll m ρ)

/-- One round. A barrier cell has one duty of one unit for every other device, named by it; send cell `k` and receive
    cell `k` of a device other than `k` have the one duty `k` of a row's credit. -/
def Rd : Rounds.Schedule (GSem nD τ sig) (Dev nD) 𝕄 where
  duties g r := if r = 0 ∧ g.1.2 = .tc then
      (if g.2 = .reg barS then Finset.univ.erase g.1.1
       else Finset.univ.filter fun k : Dev nD => k ≠ g.1.1 ∧ (g.2 = .dma (sendS k) ∨ g.2 = .dma (recvS k)))
    else ∅
  unitless _ := False
  amount g _ _ := if g.2 = .reg barS then 1 else N
  payload g _ d :=
    if g.2 = .reg barS then barPay g.1.1 d
    else if g.2 = .dma (sendS d) then sendPay m ρ g.1.1 d
    else if g.2 = .dma (recvS d) then recvPay m ρ g.1.1 d
    else iprop(emp)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m ρ).payload g r d) := by
  show BI.Storable upEmb (if g.2 = .reg barS then barPay g.1.1 d
    else if g.2 = .dma (sendS d) then sendPay m ρ g.1.1 d
    else if g.2 = .dma (recvS d) then recvPay m ρ g.1.1 d
    else iprop(emp))
  unfold barPay sendPay recvPay
  (repeat' split) <;> infer_instance

section Sched
variable (c k : Dev nD)

theorem sendS_inj {k k' : Dev nD} (h : sendS k = sendS k') : k = k' :=
  Fin.ext (by have := congrArg Fin.val h; rw [sendS_val, sendS_val] at this; omega)
theorem recvS_inj {k k' : Dev nD} (h : recvS k = recvS k') : k = k' :=
  Fin.ext (by have := congrArg Fin.val h; rw [recvS_val, recvS_val] at this; omega)
theorem sendS_ne_recvS (k k' : Dev nD) : sendS k ≠ recvS k' := fun h => by
  have := congrArg Fin.val h; rw [sendS_val, recvS_val] at this; have hk : k.val < 8 := k.isLt; omega
theorem dma_ne_bar (q : DmaSem sig) : (SemLoc.dma q : SemLoc sig) ≠ .reg barS := fun h => by cases h
theorem send_ne_recv (k k' : Dev nD) : (SemLoc.dma (sendS k) : SemLoc sig) ≠ .dma (recvS k') :=
  fun h => sendS_ne_recvS k k' (SemLoc.dma.inj h)

theorem duties_bar : (Rd (F := F) m ρ).duties (barCell c) 0 = Finset.univ.erase c := by
  dsimp only [Rd]; rw [if_pos ⟨rfl, rfl⟩, if_pos rfl]
theorem duties_send (hk : k ≠ c) : (Rd (F := F) m ρ).duties (sendCell c k) 0 = {k} := by
  dsimp only [Rd]; rw [if_pos ⟨rfl, rfl⟩, if_neg (dma_ne_bar _)]
  ext k'
  simp only [Finset.mem_filter, Finset.mem_univ, true_and, Finset.mem_singleton]
  constructor
  · rintro ⟨_, h | h⟩
    · exact (sendS_inj (SemLoc.dma.inj h)).symm
    · exact absurd h (send_ne_recv _ _)
  · rintro rfl; exact ⟨hk, .inl rfl⟩
theorem duties_recv (hk : k ≠ c) : (Rd (F := F) m ρ).duties (recvCell c k) 0 = {k} := by
  dsimp only [Rd]; rw [if_pos ⟨rfl, rfl⟩, if_neg (dma_ne_bar _)]
  ext k'
  simp only [Finset.mem_filter, Finset.mem_univ, true_and, Finset.mem_singleton]
  constructor
  · rintro ⟨_, h | h⟩
    · exact absurd h.symm (send_ne_recv _ _)
    · exact (recvS_inj (SemLoc.dma.inj h)).symm
  · rintro rfl; exact ⟨hk, .inr rfl⟩
theorem duties_send_self (r : ℕ) : (Rd (F := F) m ρ).duties (sendCell c c) r = ∅ := by
  dsimp only [Rd]; split
  · rw [if_neg (dma_ne_bar _)]
    ext k'
    simp only [Finset.mem_filter, Finset.mem_univ, true_and, Finset.notMem_empty, iff_false, not_and]
    rintro hk (h | h)
    · exact hk (sendS_inj (SemLoc.dma.inj h)).symm
    · exact absurd h (send_ne_recv _ _)
  · rfl
theorem duties_recv_self (r : ℕ) : (Rd (F := F) m ρ).duties (recvCell c c) r = ∅ := by
  dsimp only [Rd]; split
  · rw [if_neg (dma_ne_bar _)]
    ext k'
    simp only [Finset.mem_filter, Finset.mem_univ, true_and, Finset.notMem_empty, iff_false, not_and]
    rintro hk (h | h)
    · exact absurd h.symm (send_ne_recv _ _)
    · exact hk (recvS_inj (SemLoc.dma.inj h)).symm
  · rfl
theorem duties_later (g : GSem nD τ sig) : ∀ r, 1 ≤ r → (Rd (F := F) m ρ).duties g r = ∅ :=
  fun r hr => by dsimp only [Rd]; rw [if_neg fun h => by omega]

theorem amount_bar (d : Dev nD) : (Rd (F := F) m ρ).amount (barCell c) 0 d = 1 := by dsimp only [Rd]; exact if_pos rfl
theorem amount_send (d : Dev nD) : (Rd (F := F) m ρ).amount (sendCell c k) 0 d = N := by dsimp only [Rd]; exact if_neg (dma_ne_bar _)
theorem amount_recv (d : Dev nD) : (Rd (F := F) m ρ).amount (recvCell c k) 0 d = N := by dsimp only [Rd]; exact if_neg (dma_ne_bar _)

theorem expect_bar : (Rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin]
  rfl
theorem expect_send (hk : k ≠ c) : (Rd (F := F) m ρ).expect (sendCell c k) 0 = N := by
  unfold Schedule.expect Schedule.amountOf; rw [duties_send m ρ c k hk, Finset.sum_singleton, amount_send]
theorem expect_recv (hk : k ≠ c) : (Rd (F := F) m ρ).expect (recvCell c k) 0 = N := by
  unfold Schedule.expect Schedule.amountOf; rw [duties_recv m ρ c k hk, Finset.sum_singleton, amount_recv]

theorem payload_bar (d : Dev nD) : (Rd (F := F) m ρ).payload (barCell c) 0 d = barPay c d := by dsimp only [Rd]; rw [if_pos rfl]
theorem payload_send : (Rd (F := F) m ρ).payload (sendCell c k) 0 k = sendPay m ρ c k := by
  dsimp only [Rd]; rw [if_neg (dma_ne_bar _), if_pos rfl]
theorem payload_recv : (Rd (F := F) m ρ).payload (recvCell c k) 0 k = recvPay m ρ c k := by
  dsimp only [Rd]; rw [if_neg (dma_ne_bar _), if_neg (fun h => send_ne_recv k k h.symm), if_pos rfl]

/-- The whole of a barrier cell's round: every other device's row `c` and opened receive cell. -/
theorem rest_bar : bigSep ((Rd (F := F) m ρ).duties (barCell c) 0 \ ∅) (fun d => (Rd (F := F) m ρ).payload (barCell c) 0 d)
    = bigSep (Finset.univ.erase c) (fun d => barPay (F := F) c d) := by
  rw [Finset.sdiff_empty, duties_bar]
  exact bigSep_congr fun d _ => payload_bar m ρ c d
theorem rest_send (hk : k ≠ c) : bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send]
theorem rest_recv (hk : k ≠ c) : bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv]

end Sched

/-! ## What each device owes at launch; the levels -/

/-- The other seven devices. -/
abbrev others (c : Dev nD) : Finset (Dev nD) := Finset.univ.erase c

/-- The receive credit device `c` owes the devices of `R` (its copy into each), and the barrier units. -/
def Orecv (c : Dev nD) (R : Finset (Dev nD)) : CellTallies nD τ sig Unit := ∑ k ∈ R, tallyAt (recvCell k c) () N
def Obar (R : Finset (Dev nD)) : CellTallies nD τ sig Unit := ∑ k ∈ R, tallyAt (barCell k) () 1
def O₀ (c : Dev nD) : CellTallies nD τ sig Unit := Orecv c (others c) + Obar (others c)

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ k : Dev nD, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c k : Dev nD) (u : Unit) : lv (recvCell c k) u = 2 := by
  unfold lv; rw [if_neg (dma_ne_bar _), if_pos ⟨k, rfl⟩]

theorem Orecv_pos {c : Dev nD} {R : Finset (Dev nD)} {g : GSem nD τ sig} {u : Unit} (h : 0 < Orecv c R g u) : ∃ k ∈ R, g = recvCell k c := by
  obtain ⟨k, hk, hp⟩ := Pipeline.sum_pos_exists h
  refine ⟨k, hk, ?_⟩
  rw [tallyAt_apply] at hp
  by_contra hn
  rw [if_neg (fun h' => hn h'.1)] at hp
  exact Nat.lt_irrefl 0 hp
theorem Obar_pos {R : Finset (Dev nD)} {g : GSem nD τ sig} {u : Unit} (h : 0 < Obar R g u) : ∃ k ∈ R, g = barCell k := by
  obtain ⟨k, hk, hp⟩ := Pipeline.sum_pos_exists h
  refine ⟨k, hk, ?_⟩
  rw [tallyAt_apply] at hp
  by_contra hn
  rw [if_neg (fun h' => hn h'.1)] at hp
  exact Nat.lt_irrefl 0 hp

omit [FloatOps F] in
/-- A wait on a semaphore that is neither the barrier nor a receive semaphore sits below everything a device may owe. -/
theorem mayWait_low (c : Dev nD) (q : DmaSem sig) (hq : ∀ k : Dev nD, q ≠ recvS k) (R R' : Finset (Dev nD)) :
    (levAts L lv : sProp 𝕄) ⊢ MayWait (c : Thread nD τ) (.dma q) () (Orecv c R + Obar R') :=
  Pipeline.mayWait_of_levAts (by rw [L_tc]; exact Finset.mem_singleton_self _) fun g i hg => by
    have h0 : lv ((c : Thread nD τ), SemLoc.dma q) () = 0 := by
      unfold lv; rw [if_neg (dma_ne_bar _), if_neg (fun ⟨k, hk⟩ => hq k (SemLoc.dma.inj hk))]
    rcases Pipeline.add_pos_cases hg with h | h
    · obtain ⟨k, -, rfl⟩ := Orecv_pos h
      exact ⟨by rw [L_tc]; exact Finset.mem_singleton_self _, by rw [h0, lv_recv]; decide⟩
    · obtain ⟨k, -, rfl⟩ := Obar_pos h
      exact ⟨by rw [L_tc]; exact Finset.mem_singleton_self _, by rw [h0, lv_bar]; decide⟩

omit [FloatOps F] in
/-- At its barrier wait a device owes receive credit only: receive cells sit above barrier cells. -/
theorem mayWait_bar (c : Dev nD) (R : Finset (Dev nD)) :
    (levAts L lv : sProp 𝕄) ⊢ MayWait (c : Thread nD τ) (.reg barS) () (Orecv c R) :=
  Pipeline.mayWait_of_levAts (by rw [L_tc]; exact Finset.mem_singleton_self _) fun g i hg => by
    obtain ⟨k, -, rfl⟩ := Orecv_pos hg
    exact ⟨by rw [L_tc]; exact Finset.mem_singleton_self _, by rw [lv_bar, lv_recv]; decide⟩

/-! ## The cells by index; what a device starts from -/

/-- A device's cells: its barrier cell, its eight send cells, its eight receive cells. -/
abbrev CI : Type := Option (Bool × Dev nD)
abbrev csem : CI → SemLoc sig
  | none => .reg barS
  | some (false, k) => .dma (sendS k)
  | some (true, k) => .dma (recvS k)
abbrev kcell (ck : Dev nD × CI) : GSem nD τ sig := ((ck.1 : Thread nD τ), csem ck.2)

/-- The kernel's own semaphores: the sixteen of its two arrays. -/
abbrev osem : Bool × Dev nD → SemLoc sig := fun bk => csem (some bk)

/-- Every cell's invariant, under the names the launch allocated them at, and that every cell has been opened. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

/-- The tokens device `c` pays with: for every other device `k`, the unit on `k`'s barrier cell, the arrival of its copy
    on `k`'s receive cell `c`, and the departure of that copy on its own send cell `k`. -/
def payToks (c : Dev nD) : sProp 𝕄 :=
  bigSep (others c) fun k => iprop(dutyTok ER (barCell k) 0 c ∗ dutyTok ER (recvCell k c) 0 c ∗ dutyTok ER (sendCell c k) 0 k)
/-- Device `c` at the start of every one of its cells. -/
def positions (c : Dev nD) : sProp 𝕄 := bigSep Finset.univ fun i : CI => atPos ER (kcell (c, i)) 0 ∅ 0

def ghost (K : Dev nD × CI → ℕ) (c : Dev nD) : sProp 𝕄 := iprop(records m ρ K ∗ positions (F := F) c ∗ payToks (F := F) c)

/-- The whole gather buffer. -/
def scrPts (c : Dev nD) (f : Buf (Elt F) ((aM : Memref sig .tc .vmem S8x512 .f32).view.loc (c : Thread nD τ))) : sProp 𝕄 :=
  (aM : Memref sig .tc .vmem S8x512 .f32).view.loc (c : Thread nD τ) ↦[(aM : Memref sig .tc .vmem S8x512 .f32).view.set]{fullShare} f

/-- The credit device `c` is dealt at launch: seven barrier units, a row's credit on each of seven receive cells. -/
def launchCreds (c : Dev nD) : sProp 𝕄 :=
  iprop(cred (tallyAt (barCell c) () 7) ∗ bigSep (others c) fun k => cred (tallyAt (recvCell c k) () N))

def start (c : Dev nD) : sProp 𝕄 := iprop((∃ K, ghost m ρ K c) ∗ launchCreds (F := F) c ∗ levAts L lv)

def Φ₀ (c : Dev nD) : sProp 𝕄 := iprop(start m ρ c ∗ ∃ f, scrPts c f)
/-- After the point: the gather buffer complete, the sixteen own semaphores back at zero. -/
def Φ₁ (c : Dev nD) : sProp 𝕄 :=
  iprop(scrPts c (accAll m ρ) ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop((ghost m ρ K c ∗ launchCreds (F := F) c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAll m ρ))

end Cert.KernelIdeal.Xchg

end
-- ==== Proof.Value.lean ====
/-
  The kernel's result and the reference's are one function of the whole argument array.

  At a column l both are the sum of the 8192 entries of that column, scaled by 1 / 8192. The kernel takes the
  sum as eight runs of 1024 rows, run j being rows 1024 j .. 1024 j + 1023, and multiplies by 2⁻¹³; the reference
  takes it in one run from zero and divides by 8192. On the extended reals sums re-associate freely, and the
  quotient by a nonzero real is the product with its reciprocal.
-/
import proofs.«900941_g7700000000000942_dist_mean_ax0_shard0_i_m1024_n512_v7x_i8_f32_1_alg».proof.Proof.Spec
import proofs.«900941_g7700000000000942_dist_mean_ax0_shard0_i_m1024_n512_v7x_i8_f32_1_alg».proof.Proof.Gen.ReferenceIdeal.Run
import proofs.«900941_g7700000000000942_dist_mean_ax0_shard0_i_m1024_n512_v7x_i8_f32_1_alg».proof.Proof.Gen.ReferenceIdeal.Read
import Idealize.ShloMosaic.Lib.ValueIdx
import Idealize.ShloMosaic.Lib.ValueLayout
import Idealize.ShloMosaic.Lib.Layout
import Idealize.ShloMosaic.PureOps.Ideal.Laws
import Mathlib.Algebra.BigOperators.Group.Finset.Defs
import Mathlib.Data.Fintype.BigOperators
import Mathlib.Logic.Equiv.Fin.Basic

noncomputable section

namespace Cert.Bridge

open Idealize.ShloMosaic Idealize.SL.Sem Idealize.ShloMosaic.ValueIdx

/-! ## The two scale constants -/

/-- The word 0x39000000 denotes 2⁻¹³ = 1 / 8192. -/
theorem ofBits_inv8192 : Ideal.ofBits .f32 0x39000000#32 = ((1 / 8192 : ℝ) : EReal) := by
  simp [Ideal.ofBits, Ideal.ieee, -EReal.coe_mul]; norm_num

/-- The word 0x46000000 denotes 2¹³ = 8192. -/
theorem ofBits_8192 : Ideal.ofBits .f32 0x46000000#32 = ((8192 : ℝ) : EReal) := by
  simp [Ideal.ofBits, Ideal.ieee, -EReal.coe_mul]; norm_num

/-! ## The sum over the rows, block by block -/

/-- A sum over 8192 rows is the sum over eight blocks of the sums over each block's 1024 rows, row r of block j
    being row 1024 j + r: the bijection (j, r) ↦ 1024 j + r from pairs to rows. -/
theorem sum_rows {M : Type*} [AddCommMonoid M] (f : Fin 8192 → M) :
    ∑ k : Fin 8192, f k = ∑ j : Fin 8, ∑ r : Fin 1024, f ⟨j.val * 1024 + r.val, by omega⟩ := by
  rw [← (finProdFinEquiv : Fin 8 × Fin 1024 ≃ Fin 8192).sum_comp, Fintype.sum_prod_type]
  refine Finset.sum_congr rfl fun j _ => Finset.sum_congr rfl fun r _ => congrArg f (Fin.ext ?_)
  show r.val + 1024 * j.val = j.val * 1024 + r.val
  omega

/-! ## The kernel's side at a column -/

/-- A device's partial result at column l is the plain sum of column l of its block: the reduction starts from the
    neutral element, and the casts around it move no entry. -/
theorem psum_apply (x : Vec Ideal Cert.KernelIdeal.S1024x512 .f32) (u : Fin 1) (l : Fin 512) :
    Cert.KernelIdeal.Spec.psum (F := Ideal) x (ix2 u l) = ∑ r : Fin 1024, x (ix2 r l) := by
  unfold Cert.KernelIdeal.Spec.psum Cert.KernelIdeal.Gen.k0_pay2 Cert.KernelIdeal.Gen.k0_pay1
  rw [shapeCast_self, shapeCast_self, shapeCast_a_1a_apply]
  refine (Ideal.multiReduction_add_single (s := Cert.KernelIdeal.S1024x512) (t := Cert.KernelIdeal.S512) (a := 0)
    x 0x00000000#32 Cert.KernelIdeal.Gen.reduces_S1024x512_S512 (.inl rfl) rfl (ix1 l)).trans ?_
  refine Finset.sum_congr rfl fun r _ => congrArg x (funext fun a => Fin.ext ?_)
  match a with
  | ⟨0, _⟩ => rfl
  | ⟨1, _⟩ => rfl

/-- The final result at column l: the sum over the eight rows of the gathered buffer, row j being device j's
    partial sum of that column, times the word 0x39000000. -/
theorem outV_apply (xs : Dev Cert.KernelIdeal.nD → Vec Ideal Cert.KernelIdeal.S1024x512 .f32) (u : Fin 1) (l : Fin 512) :
    Cert.KernelIdeal.Spec.outV (F := Ideal) xs (ix2 u l)
      = (∑ j : Fin 8, ∑ r : Fin 1024, xs j (ix2 r l)) * Ideal.ofBits .f32 0x39000000#32 := by
  unfold Cert.KernelIdeal.Spec.outV Cert.KernelIdeal.Gen.k0_pay3
  rw [mulf_apply, broadcast_apply, shapeCast_a_1a_apply]
  refine congrArg (· * _) ?_
  refine (Ideal.multiReduction_add_single (s := Cert.KernelIdeal.S8x512) (t := Cert.KernelIdeal.S512) (a := 0)
    (Cert.KernelIdeal.Spec.acc (F := Ideal) xs) 0x00000000#32 Cert.KernelIdeal.Gen.reduces_S8x512_S512 (.inl rfl) rfl
    (ix1 l)).trans ?_
  refine Finset.sum_congr rfl fun j _ => ?_
  exact psum_apply (xs j) 0 l

/-! ## The reference's side at a column -/

/-- The reference at column l: the zero word plus the sum of column l of the whole array, divided by the word
    0x46000000. -/
theorem ref_apply (X : (⟨Cert.ReferenceIdeal.S8192x512, .f32⟩ : BufTy).Contents (Elt Ideal)) (u : Fin 1) (l : Fin 512) :
    Cert.ReferenceIdeal.Read.val_main_v3 (F := Ideal) X (ix2 u l)
      = Ideal.div (Ideal.ofBits .f32 0x00000000#32 + ∑ k : Fin 8192, X (ix2 k l)) (Ideal.ofBits .f32 0x46000000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  show Ideal.div (Ideal.ofBits .f32 0x00000000#32 + _) _ = _
  refine congrArg (fun s => Ideal.div (Ideal.ofBits .f32 0x00000000#32 + s) _) ?_
  refine Finset.sum_congr rfl fun k _ => congrArg X (funext fun a => Fin.ext ?_)
  match a with
  | ⟨0, _⟩ => rfl
  | ⟨1, _⟩ => rfl

/-! ## The two sides are one function -/

/-- With device c holding block c of the whole array, the kernel's result is the reference's: at each column the
    sum of all 8192 rows, taken by the kernel as eight runs of 1024, times 1 / 8192. -/
theorem outV_eq_ref (X : (⟨Cert.ReferenceIdeal.S8192x512, .f32⟩ : BufTy).Contents (Elt Ideal)) :
    Cert.KernelIdeal.Spec.outV (F := Ideal)
        (fun c => Layout.block ⟨2, ![1024, 512]⟩ ⟨2, ![8192, 512]⟩ 0 8 c X)
      = Cert.ReferenceIdeal.Read.val_main_v3 (F := Ideal) X := by
  funext i
  obtain ⟨u, l, rfl⟩ : ∃ (u : Fin 1) (l : Fin 512), i = ix2 u l := ⟨i 0, i 1, eq_ix2 i⟩
  rw [outV_apply, ref_apply, sum_rows, ofBits_inv8192, ofBits_8192, Ideal.ofBits_zero_f32, zero_add,
    Ideal.div_coe (by norm_num : (8192 : ℝ) ≠ 0)]
  refine congrArg (· * _) ?_
  refine Finset.sum_congr rfl fun j _ => Finset.sum_congr rfl fun r _ => ?_
  refine congrArg X (funext fun a => Fin.ext ?_)
  match a with
  | ⟨0, _⟩ => rfl
  | ⟨1, _⟩ => rfl

end Cert.Bridge

end
-- ==== Proof.Claims.lean ====
/-
  The certificate's conjuncts, assembled from the kernel's run.

  The run of the eight-device program is taken as a hypothesis: every fair execution ends with each device's two
  windowed arrays at what the write-backs leave, the argument array untouched and the result array holding the
  scaled column sums of the eight devices' blocks. The kernel's frame is that run with the result dropped. For the
  comparison with the one-device reference, device `c` holds block `c` of the reference's whole array, so the
  kernel's result is one function of that array, and that function is the reference's; the reference's own run
  and frame come from its operations one by one.
-/
import proofs.«900941_g7700000000000942_dist_mean_ax0_shard0_i_m1024_n512_v7x_i8_f32_1_alg».proof.Defs
import proofs.«900941_g7700000000000942_dist_mean_ax0_shard0_i_m1024_n512_v7x_i8_f32_1_alg».proof.Proof.Sched
import proofs.«900941_g7700000000000942_dist_mean_ax0_shard0_i_m1024_n512_v7x_i8_f32_1_alg».proof.Proof.Value
import proofs.«900941_g7700000000000942_dist_mean_ax0_shard0_i_m1024_n512_v7x_i8_f32_1_alg».proof.Proof.Gen.ReferenceIdeal.Run
import proofs.«900941_g7700000000000942_dist_mean_ax0_shard0_i_m1024_n512_v7x_i8_f32_1_alg».proof.Proof.Gen.ReferenceIdeal.Read
import proofs.«900941_g7700000000000942_dist_mean_ax0_shard0_i_m1024_n512_v7x_i8_f32_1_alg».proof.Proof.Gen.Pre_finite_inputs_Kernel
import proofs.«900941_g7700000000000942_dist_mean_ax0_shard0_i_m1024_n512_v7x_i8_f32_1_alg».proof.Proof.Gen.Pre_finite_inputs_ReferenceIdeal
import Idealize.ShloMosaic.Lib.Pipeline.Value

noncomputable section

open Idealize.ShloMosaic Idealize.ShloMosaic.TcCoe Idealize.SL.Sem

/-! ## A device's staged block is its argument array -/

namespace Cert.KernelIdeal.Xchg

open Cert.KernelIdeal Cert.KernelIdeal.Gen
open Idealize.ShloMosaic.Pipeline (Window)

variable {F : FTy → Type} [FloatOps F]
variable (m : (ℓ : Loc nD τ sig) → Buf (Elt F) ℓ) (ρ : Dev nD → PrngReg)

omit [FloatOps F] in
/-- The first window's one block is its whole array, at block index zero on both axes: read through it, the
    launch contents of device `c`'s argument array are those contents. -/
theorem xstg_eq (c : Dev nD) : xstg m ρ c = m ((c : Thread nD τ).loc main_arg0) := by
  funext x
  unfold xstg
  rw [View.read_apply]
  show m ((c : Thread nD τ).loc main_arg0) ((win0_0.blk (0 : Fin 1)).view.emb x) = m ((c : Thread nD τ).loc main_arg0) x
  refine congrArg (m ((c : Thread nD τ).loc main_arg0)) (funext fun a => Fin.ext ?_)
  exact Window.rect_emb_val_of_index_zero win0_0 (0 : Fin 1) a rfl x

end Cert.KernelIdeal.Xchg

/-! ## The claims -/

namespace Cert.Proof.Claims

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's frame, from its run: the first window's array is the argument array, and the
    write-backs leave it at its launch contents. -/
theorem frame_ki_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ w : Fin Cert.KernelIdeal.cfg0.W,
          r.2.mem ((Cert.KernelIdeal.cfg0.win w).arr.view.loc (c : Thread Cert.KernelIdeal.nD Cert.KernelIdeal.τ))
            = (Cert.KernelIdeal.Xchg.dats m ρ 0 c).arrAt w Cert.KernelIdeal.cfg0.N))
    (hx : ∀ (m : (ℓ : Loc Cert.KernelIdeal.nD Cert.KernelIdeal.τ Cert.KernelIdeal.sig) → Buf (Elt Ideal) ℓ) (ρ : Dev Cert.KernelIdeal.nD → PrngReg)
        (c : Dev Cert.KernelIdeal.nD),
      (Cert.KernelIdeal.Xchg.dats (F := Ideal) m ρ 0 c).arrAt (0 : Fin 2) Cert.KernelIdeal.cfg0.N
        = (Cert.KernelIdeal.Xchg.s₀ m ρ).mem (Cert.KernelIdeal.win0_0.arr.view.loc (c : Thread Cert.KernelIdeal.nD Cert.KernelIdeal.τ))) :
    Cert.frame_KernelIdeal := fun m ρ _ =>
  (θ_run Cert.KernelIdeal.defs _ _).mono (fun _ h c => (h c (0 : Fin 2)).trans (hx m ρ c)) (hrun m ρ)

/-- The idealization rewrote no operation. -/
theorem preserves : Cert.preserves_Kernel_KernelIdeal := trivial

/-- The kernel against the reference. The value both end with is the reference's stage of its whole argument
    array. The kernel's result array ends at the scaled column sums of the devices' staged blocks; each staged
    block is the device's argument array, which is its block of the whole array; and of those blocks the scaled
    column sums are the reference's stage. No finiteness is used: only the order of a sum changes. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD, ∀ w : Fin Cert.KernelIdeal.cfg0.W,
          r.2.mem ((Cert.KernelIdeal.cfg0.win w).arr.view.loc (c : Thread Cert.KernelIdeal.nD Cert.KernelIdeal.τ))
            = (Cert.KernelIdeal.Xchg.dats m ρ 0 c).arrAt w Cert.KernelIdeal.cfg0.N))
    (hx : ∀ (m : (ℓ : Loc Cert.KernelIdeal.nD Cert.KernelIdeal.τ Cert.KernelIdeal.sig) → Buf (Elt Ideal) ℓ) (ρ : Dev Cert.KernelIdeal.nD → PrngReg)
        (c : Dev Cert.KernelIdeal.nD),
      (Cert.KernelIdeal.Xchg.dats (F := Ideal) m ρ 0 c).arrAt (0 : Fin 2) Cert.KernelIdeal.cfg0.N
        = (Cert.KernelIdeal.Xchg.s₀ m ρ).mem (Cert.KernelIdeal.win0_0.arr.view.loc (c : Thread Cert.KernelIdeal.nD Cert.KernelIdeal.τ)))
    (hout : ∀ (m : (ℓ : Loc Cert.KernelIdeal.nD Cert.KernelIdeal.τ Cert.KernelIdeal.sig) → Buf (Elt Ideal) ℓ) (ρ : Dev Cert.KernelIdeal.nD → PrngReg)
        (c : Dev Cert.KernelIdeal.nD),
      (Cert.KernelIdeal.Xchg.dats (F := Ideal) m ρ 0 c).arrAt (1 : Fin 2) Cert.KernelIdeal.cfg0.N = Cert.KernelIdeal.Xchg.outAll m ρ) :
    Cert.algebraic_KernelIdeal_ReferenceIdeal := by
  intro m ρ m' ρ' _ hblk
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨((h c (1 : Fin 2)).trans (hout m ρ c)).trans ?_, (h c (0 : Fin 2)).trans (hx m ρ c)⟩) (hrun m ρ)
    have hxs : (fun j => Cert.KernelIdeal.Xchg.xstg m ρ j)
        = fun j : Dev Cert.KernelIdeal.nD => Layout.block ⟨2, ![1024, 512]⟩ ⟨2, ![8192, 512]⟩ 0 8 j
            (m' (((0 : Dev Cert.ReferenceIdeal.nD).tc : Thread Cert.ReferenceIdeal.nD Cert.ReferenceIdeal.τ).loc Cert.ReferenceIdeal.main_arg0)) :=
      funext fun j => (Cert.KernelIdeal.Xchg.xstg_eq m ρ j).trans (hblk j)
    show Cert.KernelIdeal.Spec.outV (fun j => Cert.KernelIdeal.Xchg.xstg m ρ j) = _
    rw [hxs]
    exact Cert.Bridge.outV_eq_ref _
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

end Cert.Proof.Claims

end
-- ==== Proof.SpecK.lean ====
/-
  What the kernel computes, as pure functions of the devices' blocks of the argument array.
  Device `j` reduces its 1024 × 512 block over the row axis to one row of 512 sums; the eight rows are
  exchanged so that every device holds all eight in an 8 × 512 buffer, row `j` being device `j`'s;
  each device then reduces that buffer over its row axis and scales by 2⁻¹³ = 1 / 8192.
-/
import proofs.«900941_g7700000000000942_dist_mean_ax0_shard0_i_m1024_n512_v7x_i8_f32_1_alg».proof.Proof.Gen.Kernel.Skeleton
import Idealize.ShloMosaic.Lib.ValueIdx

noncomputable section

namespace Cert.Kernel.Spec

open Cert.Kernel Cert.Kernel.Gen
open Idealize.ShloMosaic Idealize.SL.Sem

variable {F : FTy → Type} [FloatOps F]

/-- One device's partial result: the sums of its block's 512 columns, as a 1 × 512 row. -/
def psum (x : Vec F S1024x512 .f32) : FVec F S1x512 .f32 := k0_pay2 (k0_pay1 x)

/-- The row of an index of the 8 × 512 buffer, as a device. -/
def rowOf (i : S8x512.Idx) : Dev nD := ⟨(i 0).val, (i 0).isLt⟩

/-- The column of an index of the 8 × 512 buffer, as an index of a 1 × 512 row. -/
def colOf (i : S8x512.Idx) : S1x512.Idx := ValueIdx.ix2 (0 : Fin 1) (⟨(i 1).val, (i 1).isLt⟩ : Fin 512)

/-- The gathered buffer: row `j` holds device `j`'s partial result. -/
def acc (xs : Dev nD → Vec F S1024x512 .f32) : Vec F S8x512 .f32 := fun i => psum (xs (rowOf i)) (colOf i)

/-- Every device's result: the column sums of the gathered buffer, scaled by 2⁻¹³. -/
def outV (xs : Dev nD → Vec F S1024x512 .f32) : FVec F S1x512 .f32 := k0_pay3 (acc xs)

end Cert.Kernel.Spec

end
-- ==== Proof.SchedK.lean ====
/-
  The exchange protocol of the eight-device column mean, as a schedule of semaphore rounds.

  Device `c` tells every other device `j` that it is inside the kernel by one unit on `j`'s barrier
  semaphore; with that unit goes row `j` of `c`'s own 8 × 512 gather buffer, the row device `j` will fill.
  After seven such units device `c` owns row `c` of every other device's buffer and copies its partial
  sums there: the copy to `j` completes on `c`'s send semaphore `j` (giving back the share of the source
  row it read through) and on `j`'s receive semaphore `c` (giving `j` its row `c`, filled).
-/
import proofs.«900941_g7700000000000942_dist_mean_ax0_shard0_i_m1024_n512_v7x_i8_f32_1_alg».proof.Proof.SpecK
import proofs.«900941_g7700000000000942_dist_mean_ax0_shard0_i_m1024_n512_v7x_i8_f32_1_alg».proof.Proof.Gen.Kernel.Launch
import proofs.«900941_g7700000000000942_dist_mean_ax0_shard0_i_m1024_n512_v7x_i8_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Memrefs, semaphores and cells -/

abbrev xM : Memref sig .tc .vmem S1024x512 .f32 := Memref.whole cc0_stg0_0
abbrev oM : Memref sig .tc .vmem S1x512 .f32 := Memref.whole cc0_stg1_0
abbrev aM : Memref sig .tc .vmem S8x512 .f32 := Memref.whole cc0_scratch0

theorem row_inb (k : Dev nD) : ∀ a, (![k.val, 0] : Fin 2 → Nat) a + S1x512.size a ≤ S8x512.size a := by
  revert k; decide

/-- Row `k` of the gather buffer. -/
abbrev rowM (k : Dev nD) : Memref sig .tc .vmem S1x512 .f32 :=
  aM.slice (Rect.unit (s := S8x512) ![k.val, 0] S1x512.size (row_inb k)) (fun _ => rfl)

theorem sem_inb (k : Dev nD) : ∀ a, (![k.val] : Fin 1 → Nat) a + S1.size a ≤ S8.size a := by
  revert k; decide

/-- The barrier semaphore, and the send and receive semaphores by the index of the other device. -/
abbrev barS : Sem sig := (SemArray.scalar (sig.barrier 0 rfl) : Sems sig S_).sem
abbrev sendS (k : Dev nD) : DmaSem sig := ((cc0_scratch1.slice (Rect.unit (s := S8) ![k.val] S1.size (sem_inb k))).squeeze S_ squeezes_S1_S_).sem
abbrev recvS (k : Dev nD) : DmaSem sig := ((cc0_scratch2.slice (Rect.unit (s := S8) ![k.val] S1.size (sem_inb k))).squeeze S_ squeezes_S1_S_).sem

theorem sendS_val (k : Dev nD) : (sendS k).val = 2 + k.val := by revert k; decide
theorem recvS_val (k : Dev nD) : (recvS k).val = 10 + k.val := by revert k; decide

abbrev barCell (c : Dev nD) : GSem nD τ sig := ((c : Thread nD τ), .reg barS)
abbrev sendCell (c k : Dev nD) : GSem nD τ sig := ((c : Thread nD τ), .dma (sendS k))
abbrev recvCell (c k : Dev nD) : GSem nD τ sig := ((c : Thread nD τ), .dma (recvS k))

abbrev N : ℕ := (rowM 0 : Memref sig .tc .vmem S1x512 .f32).view.dmaCredit
theorem N_pos : 0 < N := View.dmaCredit_pos _ (by decide)
theorem N_row (k : Dev nD) : (rowM k : Memref sig .tc .vmem S1x512 .f32).view.dmaCredit = N := rfl

/-! ## The gather buffer by rows -/

/-- The elements of row `k`, as elements of the whole buffer. -/
abbrev rowSet (k : Dev nD) : Finset S8x512.Idx := (Rect.unit (s := S8x512) ![k.val, 0] S1x512.size (row_inb k)).set

theorem mem_rowSet {k : Dev nD} {i : S8x512.Idx} : i ∈ rowSet k ↔ (i 0).val = k.val := by
  unfold rowSet
  rw [Rect.mem_set_unit]
  constructor
  · intro h; have : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 512; have : (i 1).val < 512 := (i 1).isLt; omega

theorem rowM_set (k : Dev nD) : (rowM k : Memref sig .tc .vmem S1x512 .f32).view.set = rowSet k :=
  View.set_slice_whole cc0_scratch0 _

theorem rowSet_disjoint {k k' : Dev nD} (h : k ≠ k') : Disjoint (rowSet k) (rowSet k') :=
  Finset.disjoint_left.mpr fun i hi hi' => h (Fin.ext ((mem_rowSet.mp hi).symm.trans (mem_rowSet.mp hi')))

theorem rowSet_cover : (Finset.univ : Finset (Dev nD)).biUnion rowSet = Finset.univ := by
  ext i
  simp only [Finset.mem_biUnion, Finset.mem_univ, true_and, iff_true]
  exact ⟨⟨(i 0).val, (i 0).isLt⟩, mem_rowSet.mpr rfl⟩

/-! ## Contents -/

/-- Device `c`'s block of the argument array, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What every device's gather buffer holds once the exchange is over: row `j` is device `j`'s partial sums. -/
def accAll : (cc0_scratch0 : Ref sig .tc).ty.Contents (Elt F) := Spec.acc (fun j => xstg m ρ j)

/-- What every device's result buffer holds in the end. -/
def outAll : (cc0_stg1_0 : Ref sig .tc).ty.Contents (Elt F) := Spec.outV (fun j => xstg m ρ j)

/-! ## Ownership of a row; the shares of a source row read by seven copies at once -/

def rowPts (c k : Dev nD) (q : PosShare TreeShare) (f : Buf (Elt F) ((rowM k : Memref sig .tc .vmem S1x512 .f32).view.loc (c : Thread nD τ))) : sProp 𝕄 :=
  (rowM k : Memref sig .tc .vmem S1x512 .f32).view.loc (c : Thread nD τ) ↦[(rowM k : Memref sig .tc .vmem S1x512 .f32).view.set]{q} f

omit [FloatOps F] in
instance rowPts_storable (c k : Dev nD) (q) (f) : BI.Storable (upEmb : UEmb _ 𝕄) (rowPts (F := F) c k q f) := by unfold rowPts; infer_instance

/-- What is left of the full share after `n` halvings, and the half taken off at the `n`-th. -/
def restShare : ℕ → PosShare TreeShare
  | 0 => fullShare
  | n + 1 => (restShare n).right
def pieceShare (n : ℕ) : PosShare TreeShare := (restShare n).left

example (c k : Dev nD) : (rowM k : Memref sig .tc .vmem S1x512 .f32).view.loc (c : Thread nD τ) = (c : Thread nD τ).loc cc0_scratch0 := rfl

/-! ## The schedule -/

/-- With the unit device `d` puts on device `c`'s barrier semaphore: row `c` of `d`'s gather buffer, and that `d` has
    opened the receive cell the copy into that row completes on. -/
def barPay (c d : Dev nD) : sProp 𝕄 := iprop((∃ f, rowPts d c fullShare f) ∗ reached ER (recvCell d c) 0)
/-- With the completion of the copy to `k` on the sender's side: the share of the source row it read through. -/
def sendPay (c k : Dev nD) : sProp 𝕄 := rowPts c c (pieceShare k.val) (accAll m ρ)
/-- With the completion of the copy from `k`: row `k`, filled. -/
def recvPay (c k : Dev nD) : sProp 𝕄 := rowPts c k fullShare (accAll m ρ)

/-- One round. A barrier cell has one duty of one unit for every other device, named by it; send cell `k` and receive
    cell `k` of a device other than `k` have the one duty `k` of a row's credit. -/
def Rd : Rounds.Schedule (GSem nD τ sig) (Dev nD) 𝕄 where
  duties g r := if r = 0 ∧ g.1.2 = .tc then
      (if g.2 = .reg barS then Finset.univ.erase g.1.1
       else Finset.univ.filter fun k : Dev nD => k ≠ g.1.1 ∧ (g.2 = .dma (sendS k) ∨ g.2 = .dma (recvS k)))
    else ∅
  unitless _ := False
  amount g _ _ := if g.2 = .reg barS then 1 else N
  payload g _ d :=
    if g.2 = .reg barS then barPay g.1.1 d
    else if g.2 = .dma (sendS d) then sendPay m ρ g.1.1 d
    else if g.2 = .dma (recvS d) then recvPay m ρ g.1.1 d
    else iprop(emp)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m ρ).payload g r d) := by
  show BI.Storable upEmb (if g.2 = .reg barS then barPay g.1.1 d
    else if g.2 = .dma (sendS d) then sendPay m ρ g.1.1 d
    else if g.2 = .dma (recvS d) then recvPay m ρ g.1.1 d
    else iprop(emp))
  unfold barPay sendPay recvPay
  (repeat' split) <;> infer_instance

section Sched
variable (c k : Dev nD)

theorem sendS_inj {k k' : Dev nD} (h : sendS k = sendS k') : k = k' :=
  Fin.ext (by have := congrArg Fin.val h; rw [sendS_val, sendS_val] at this; omega)
theorem recvS_inj {k k' : Dev nD} (h : recvS k = recvS k') : k = k' :=
  Fin.ext (by have := congrArg Fin.val h; rw [recvS_val, recvS_val] at this; omega)
theorem sendS_ne_recvS (k k' : Dev nD) : sendS k ≠ recvS k' := fun h => by
  have := congrArg Fin.val h; rw [sendS_val, recvS_val] at this; have hk : k.val < 8 := k.isLt; omega
theorem dma_ne_bar (q : DmaSem sig) : (SemLoc.dma q : SemLoc sig) ≠ .reg barS := fun h => by cases h
theorem send_ne_recv (k k' : Dev nD) : (SemLoc.dma (sendS k) : SemLoc sig) ≠ .dma (recvS k') :=
  fun h => sendS_ne_recvS k k' (SemLoc.dma.inj h)

theorem duties_bar : (Rd (F := F) m ρ).duties (barCell c) 0 = Finset.univ.erase c := by
  dsimp only [Rd]; rw [if_pos ⟨rfl, rfl⟩, if_pos rfl]
theorem duties_send (hk : k ≠ c) : (Rd (F := F) m ρ).duties (sendCell c k) 0 = {k} := by
  dsimp only [Rd]; rw [if_pos ⟨rfl, rfl⟩, if_neg (dma_ne_bar _)]
  ext k'
  simp only [Finset.mem_filter, Finset.mem_univ, true_and, Finset.mem_singleton]
  constructor
  · rintro ⟨_, h | h⟩
    · exact (sendS_inj (SemLoc.dma.inj h)).symm
    · exact absurd h (send_ne_recv _ _)
  · rintro rfl; exact ⟨hk, .inl rfl⟩
theorem duties_recv (hk : k ≠ c) : (Rd (F := F) m ρ).duties (recvCell c k) 0 = {k} := by
  dsimp only [Rd]; rw [if_pos ⟨rfl, rfl⟩, if_neg (dma_ne_bar _)]
  ext k'
  simp only [Finset.mem_filter, Finset.mem_univ, true_and, Finset.mem_singleton]
  constructor
  · rintro ⟨_, h | h⟩
    · exact absurd h.symm (send_ne_recv _ _)
    · exact (recvS_inj (SemLoc.dma.inj h)).symm
  · rintro rfl; exact ⟨hk, .inr rfl⟩
theorem duties_send_self (r : ℕ) : (Rd (F := F) m ρ).duties (sendCell c c) r = ∅ := by
  dsimp only [Rd]; split
  · rw [if_neg (dma_ne_bar _)]
    ext k'
    simp only [Finset.mem_filter, Finset.mem_univ, true_and, Finset.notMem_empty, iff_false, not_and]
    rintro hk (h | h)
    · exact hk (sendS_inj (SemLoc.dma.inj h)).symm
    · exact absurd h (send_ne_recv _ _)
  · rfl
theorem duties_recv_self (r : ℕ) : (Rd (F := F) m ρ).duties (recvCell c c) r = ∅ := by
  dsimp only [Rd]; split
  · rw [if_neg (dma_ne_bar _)]
    ext k'
    simp only [Finset.mem_filter, Finset.mem_univ, true_and, Finset.notMem_empty, iff_false, not_and]
    rintro hk (h | h)
    · exact absurd h.symm (send_ne_recv _ _)
    · exact hk (recvS_inj (SemLoc.dma.inj h)).symm
  · rfl
theorem duties_later (g : GSem nD τ sig) : ∀ r, 1 ≤ r → (Rd (F := F) m ρ).duties g r = ∅ :=
  fun r hr => by dsimp only [Rd]; rw [if_neg fun h => by omega]

theorem amount_bar (d : Dev nD) : (Rd (F := F) m ρ).amount (barCell c) 0 d = 1 := by dsimp only [Rd]; exact if_pos rfl
theorem amount_send (d : Dev nD) : (Rd (F := F) m ρ).amount (sendCell c k) 0 d = N := by dsimp only [Rd]; exact if_neg (dma_ne_bar _)
theorem amount_recv (d : Dev nD) : (Rd (F := F) m ρ).amount (recvCell c k) 0 d = N := by dsimp only [Rd]; exact if_neg (dma_ne_bar _)

theorem expect_bar : (Rd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, Fintype.card_fin]
  rfl
theorem expect_send (hk : k ≠ c) : (Rd (F := F) m ρ).expect (sendCell c k) 0 = N := by
  unfold Schedule.expect Schedule.amountOf; rw [duties_send m ρ c k hk, Finset.sum_singleton, amount_send]
theorem expect_recv (hk : k ≠ c) : (Rd (F := F) m ρ).expect (recvCell c k) 0 = N := by
  unfold Schedule.expect Schedule.amountOf; rw [duties_recv m ρ c k hk, Finset.sum_singleton, amount_recv]

theorem payload_bar (d : Dev nD) : (Rd (F := F) m ρ).payload (barCell c) 0 d = barPay c d := by dsimp only [Rd]; rw [if_pos rfl]
theorem payload_send : (Rd (F := F) m ρ).payload (sendCell c k) 0 k = sendPay m ρ c k := by
  dsimp only [Rd]; rw [if_neg (dma_ne_bar _), if_pos rfl]
theorem payload_recv : (Rd (F := F) m ρ).payload (recvCell c k) 0 k = recvPay m ρ c k := by
  dsimp only [Rd]; rw [if_neg (dma_ne_bar _), if_neg (fun h => send_ne_recv k k h.symm), if_pos rfl]

/-- The whole of a barrier cell's round: every other device's row `c` and opened receive cell. -/
theorem rest_bar : bigSep ((Rd (F := F) m ρ).duties (barCell c) 0 \ ∅) (fun d => (Rd (F := F) m ρ).payload (barCell c) 0 d)
    = bigSep (Finset.univ.erase c) (fun d => barPay (F := F) c d) := by
  rw [Finset.sdiff_empty, duties_bar]
  exact bigSep_congr fun d _ => payload_bar m ρ c d
theorem rest_send (hk : k ≠ c) : bigSep ((Rd (F := F) m ρ).duties (sendCell c k) 0 \ ∅) (fun d => (Rd (F := F) m ρ).payload (sendCell c k) 0 d) = sendPay m ρ c k := by
  rw [Finset.sdiff_empty, duties_send m ρ c k hk, bigSep_singleton, payload_send]
theorem rest_recv (hk : k ≠ c) : bigSep ((Rd (F := F) m ρ).duties (recvCell c k) 0 \ ∅) (fun d => (Rd (F := F) m ρ).payload (recvCell c k) 0 d) = recvPay m ρ c k := by
  rw [Finset.sdiff_empty, duties_recv m ρ c k hk, bigSep_singleton, payload_recv]

end Sched

/-! ## What each device owes at launch; the levels -/

/-- The other seven devices. -/
abbrev others (c : Dev nD) : Finset (Dev nD) := Finset.univ.erase c

/-- The receive credit device `c` owes the devices of `R` (its copy into each), and the barrier units. -/
def Orecv (c : Dev nD) (R : Finset (Dev nD)) : CellTallies nD τ sig Unit := ∑ k ∈ R, tallyAt (recvCell k c) () N
def Obar (R : Finset (Dev nD)) : CellTallies nD τ sig Unit := ∑ k ∈ R, tallyAt (barCell k) () 1
def O₀ (c : Dev nD) : CellTallies nD τ sig Unit := Orecv c (others c) + Obar (others c)

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ k : Dev nD, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c k : Dev nD) (u : Unit) : lv (recvCell c k) u = 2 := by
  unfold lv; rw [if_neg (dma_ne_bar _), if_pos ⟨k, rfl⟩]

theorem Orecv_pos {c : Dev nD} {R : Finset (Dev nD)} {g : GSem nD τ sig} {u : Unit} (h : 0 < Orecv c R g u) : ∃ k ∈ R, g = recvCell k c := by
  obtain ⟨k, hk, hp⟩ := Pipeline.sum_pos_exists h
  refine ⟨k, hk, ?_⟩
  rw [tallyAt_apply] at hp
  by_contra hn
  rw [if_neg (fun h' => hn h'.1)] at hp
  exact Nat.lt_irrefl 0 hp
theorem Obar_pos {R : Finset (Dev nD)} {g : GSem nD τ sig} {u : Unit} (h : 0 < Obar R g u) : ∃ k ∈ R, g = barCell k := by
  obtain ⟨k, hk, hp⟩ := Pipeline.sum_pos_exists h
  refine ⟨k, hk, ?_⟩
  rw [tallyAt_apply] at hp
  by_contra hn
  rw [if_neg (fun h' => hn h'.1)] at hp
  exact Nat.lt_irrefl 0 hp

omit [FloatOps F] in
/-- A wait on a semaphore that is neither the barrier nor a receive semaphore sits below everything a device may owe. -/
theorem mayWait_low (c : Dev nD) (q : DmaSem sig) (hq : ∀ k : Dev nD, q ≠ recvS k) (R R' : Finset (Dev nD)) :
    (levAts L lv : sProp 𝕄) ⊢ MayWait (c : Thread nD τ) (.dma q) () (Orecv c R + Obar R') :=
  Pipeline.mayWait_of_levAts (by rw [L_tc]; exact Finset.mem_singleton_self _) fun g i hg => by
    have h0 : lv ((c : Thread nD τ), SemLoc.dma q) () = 0 := by
      unfold lv; rw [if_neg (dma_ne_bar _), if_neg (fun ⟨k, hk⟩ => hq k (SemLoc.dma.inj hk))]
    rcases Pipeline.add_pos_cases hg with h | h
    · obtain ⟨k, -, rfl⟩ := Orecv_pos h
      exact ⟨by rw [L_tc]; exact Finset.mem_singleton_self _, by rw [h0, lv_recv]; decide⟩
    · obtain ⟨k, -, rfl⟩ := Obar_pos h
      exact ⟨by rw [L_tc]; exact Finset.mem_singleton_self _, by rw [h0, lv_bar]; decide⟩

omit [FloatOps F] in
/-- At its barrier wait a device owes receive credit only: receive cells sit above barrier cells. -/
theorem mayWait_bar (c : Dev nD) (R : Finset (Dev nD)) :
    (levAts L lv : sProp 𝕄) ⊢ MayWait (c : Thread nD τ) (.reg barS) () (Orecv c R) :=
  Pipeline.mayWait_of_levAts (by rw [L_tc]; exact Finset.mem_singleton_self _) fun g i hg => by
    obtain ⟨k, -, rfl⟩ := Orecv_pos hg
    exact ⟨by rw [L_tc]; exact Finset.mem_singleton_self _, by rw [lv_bar, lv_recv]; decide⟩

/-! ## The cells by index; what a device starts from -/

/-- A device's cells: its barrier cell, its eight send cells, its eight receive cells. -/
abbrev CI : Type := Option (Bool × Dev nD)
abbrev csem : CI → SemLoc sig
  | none => .reg barS
  | some (false, k) => .dma (sendS k)
  | some (true, k) => .dma (recvS k)
abbrev kcell (ck : Dev nD × CI) : GSem nD τ sig := ((ck.1 : Thread nD τ), csem ck.2)

/-- The kernel's own semaphores: the sixteen of its two arrays. -/
abbrev osem : Bool × Dev nD → SemLoc sig := fun bk => csem (some bk)

/-- Every cell's invariant, under the names the launch allocated them at, and that every cell has been opened. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)

instance records_persistent (K : Dev nD × CI → ℕ) : BI.Persistent (records m ρ K) := by unfold records; infer_instance

/-- The tokens device `c` pays with: for every other device `k`, the unit on `k`'s barrier cell, the arrival of its copy
    on `k`'s receive cell `c`, and the departure of that copy on its own send cell `k`. -/
def payToks (c : Dev nD) : sProp 𝕄 :=
  bigSep (others c) fun k => iprop(dutyTok ER (barCell k) 0 c ∗ dutyTok ER (recvCell k c) 0 c ∗ dutyTok ER (sendCell c k) 0 k)
/-- Device `c` at the start of every one of its cells. -/
def positions (c : Dev nD) : sProp 𝕄 := bigSep Finset.univ fun i : CI => atPos ER (kcell (c, i)) 0 ∅ 0

def ghost (K : Dev nD × CI → ℕ) (c : Dev nD) : sProp 𝕄 := iprop(records m ρ K ∗ positions (F := F) c ∗ payToks (F := F) c)

/-- The whole gather buffer. -/
def scrPts (c : Dev nD) (f : Buf (Elt F) ((aM : Memref sig .tc .vmem S8x512 .f32).view.loc (c : Thread nD τ))) : sProp 𝕄 :=
  (aM : Memref sig .tc .vmem S8x512 .f32).view.loc (c : Thread nD τ) ↦[(aM : Memref sig .tc .vmem S8x512 .f32).view.set]{fullShare} f

/-- The credit device `c` is dealt at launch: seven barrier units, a row's credit on each of seven receive cells. -/
def launchCreds (c : Dev nD) : sProp 𝕄 :=
  iprop(cred (tallyAt (barCell c) () 7) ∗ bigSep (others c) fun k => cred (tallyAt (recvCell c k) () N))

def start (c : Dev nD) : sProp 𝕄 := iprop((∃ K, ghost m ρ K c) ∗ launchCreds (F := F) c ∗ levAts L lv)

def Φ₀ (c : Dev nD) : sProp 𝕄 := iprop(start m ρ c ∗ ∃ f, scrPts c f)
/-- After the point: the gather buffer complete, the sixteen own semaphores back at zero. -/
def Φ₁ (c : Dev nD) : sProp 𝕄 :=
  iprop(scrPts c (accAll m ρ) ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAll m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CI → ℕ) (c : Dev nD) : sProp 𝕄 :=
  iprop((ghost m ρ K c ∗ launchCreds (F := F) c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAll m ρ))

end Cert.Kernel.Xchg

end
-- ==== Proof.ClaimsK.lean ====
/-
  The word-level program's frame, from its run.

  The run of the eight-device program, read at the bit-exact instance, is taken as a hypothesis: every fair
  execution ends with each device's two windowed arrays at what the write-backs leave. The first window's array is
  the argument array and the write-backs leave it at its launch contents: that is the frame.
-/
import proofs.«900941_g7700000000000942_dist_mean_ax0_shard0_i_m1024_n512_v7x_i8_f32_1_alg».proof.Defs
import proofs.«900941_g7700000000000942_dist_mean_ax0_shard0_i_m1024_n512_v7x_i8_f32_1_alg».proof.Proof.SchedK
import proofs.«900941_g7700000000000942_dist_mean_ax0_shard0_i_m1024_n512_v7x_i8_f32_1_alg».proof.Proof.Gen.Pre_finite_inputs_Kernel

noncomputable section

open Idealize.ShloMosaic Idealize.ShloMosaic.TcCoe Idealize.SL.Sem

namespace Cert.Proof.ClaimsK

/-- The word-level kernel's frame, from its run: the first window's array is the argument array, and the
    write-backs leave it at its launch contents. -/
theorem frame_k_of
    (hrun : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD, ∀ w : Fin Cert.Kernel.cfg0.W,
          r.2.mem ((Cert.Kernel.cfg0.win w).arr.view.loc (c : Thread Cert.Kernel.nD Cert.Kernel.τ))
            = (Cert.Kernel.Xchg.dats m ρ 0 c).arrAt w Cert.Kernel.cfg0.N))
    (hx : ∀ (m : (ℓ : Loc Cert.Kernel.nD Cert.Kernel.τ Cert.Kernel.sig) → Buf (Elt Bits) ℓ) (ρ : Dev Cert.Kernel.nD → PrngReg)
        (c : Dev Cert.Kernel.nD),
      (Cert.Kernel.Xchg.dats (F := Bits) m ρ 0 c).arrAt (0 : Fin 2) Cert.Kernel.cfg0.N
        = (Cert.Kernel.Xchg.s₀ m ρ).mem (Cert.Kernel.win0_0.arr.view.loc (c : Thread Cert.Kernel.nD Cert.Kernel.τ))) :
    Cert.frame_Kernel := fun m ρ _ =>
  (θ_run Cert.Kernel.defs _ _).mono (fun _ h c => (h c (0 : Fin 2)).trans (hx m ρ c)) (hrun m ρ)

end Cert.Proof.ClaimsK

end
-- ==== Proof.Launch.lean ====
/-
  The launch of the eight-device column mean: the ghost state every device starts from, the credit it is dealt,
  and the run of the whole program from the body's obligation.
-/
import proofs.«900941_g7700000000000942_dist_mean_ax0_shard0_i_m1024_n512_v7x_i8_f32_1_alg».proof.Proof.Sched

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the other devices and over a device's cells -/

omit [FloatOps F] in
/-- A conjunction over the other devices is one over all devices with nothing at the device itself. -/
theorem bigSep_others (c : Dev nD) (Φ : Dev nD → sProp 𝕄) :
    bigSep (others c) Φ = bigSep Finset.univ fun k => if k = c then (BI.emp : sProp 𝕄) else Φ k := by
  rw [bigSep_univ_at (fun k => if k = c then (BI.emp : sProp 𝕄) else Φ k) c, if_pos rfl,
    bigSep_congr (s := Finset.univ.erase c) (Φ := fun k => if k = c then (BI.emp : sProp 𝕄) else Φ k) (Ψ := Φ)
      fun k hk => if_neg (Finset.mem_erase.mp hk).1]
  exact (equiv_iff.mp emp_sep).symm

omit [FloatOps F] in
/-- Over pairs of distinct devices the two orders of conjunction agree. -/
theorem bigSep_others_swap (Ψ : Dev nD → Dev nD → sProp 𝕄) :
    (bigSep Finset.univ fun c => bigSep (others c) fun k => Ψ c k)
      = bigSep Finset.univ fun k => bigSep (others k) fun c => Ψ c k := by
  rw [bigSep_congr (s := Finset.univ) fun c _ => bigSep_others c (Ψ c),
    bigSep_congr (s := Finset.univ) fun k _ => bigSep_others k (fun c => Ψ c k),
    Pipeline.bigSep_univ_comm]
  refine bigSep_congr fun k _ => bigSep_congr fun c _ => ?_
  by_cases h : k = c
  · rw [if_pos h, if_pos h.symm]
  · rw [if_neg h, if_neg fun h' => h h'.symm]

omit [FloatOps F] in
/-- A conjunction over a filtered set is one over the set with nothing where the filter fails. -/
theorem bigSep_filter_ite {I : Type} [DecidableEq I] (s : Finset I) (p : I → Prop) [DecidablePred p] (Φ : I → sProp 𝕄) :
    bigSep (s.filter p) Φ = bigSep s fun i => if p i then Φ i else (BI.emp : sProp 𝕄) := by
  rw [bigSep_filter_split s p (Φ := fun i => if p i then Φ i else (BI.emp : sProp 𝕄)),
    bigSep_congr (s := s.filter p) (Φ := fun i => if p i then Φ i else (BI.emp : sProp 𝕄)) (Ψ := Φ)
      fun i hi => if_pos (Finset.mem_filter.mp hi).2,
    bigSep_congr (s := s.filter fun i => ¬ p i) (Φ := fun i => if p i then Φ i else (BI.emp : sProp 𝕄)) (Ψ := fun _ => (BI.emp : sProp 𝕄))
      fun i hi => if_neg (Finset.mem_filter.mp hi).2,
    bigSep_emp_const]
  exact (equiv_iff.mp sep_emp).symm

omit [FloatOps F] in
/-- A conjunction over a device's cells: the barrier cell's part, then the sixteen others'. -/
theorem bigSep_CI (Φ : CI → sProp 𝕄) :
    bigSep Finset.univ Φ = iprop(Φ none ∗ bigSep Finset.univ fun bk : Bool × Dev nD => Φ (some bk)) := by
  have h : (Finset.univ : Finset CI).erase none = Finset.univ.map Function.Embedding.some := by
    ext x; cases x <;> simp
  rw [bigSep_univ_at Φ none, h, bigSep_map]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## The cells and the duty tokens of the exchange -/

omit [FloatOps F] in
theorem csem_injective : Function.Injective (csem : CI → SemLoc sig) := fun i j h => by
  match i, j, h with
  | none, none, _ => rfl
  | none, some (false, _), h => exact absurd h.symm (dma_ne_bar _)
  | none, some (true, _), h => exact absurd h.symm (dma_ne_bar _)
  | some (false, _), none, h => exact absurd h (dma_ne_bar _)
  | some (true, _), none, h => exact absurd h (dma_ne_bar _)
  | some (false, k), some (false, k'), h => rw [sendS_inj (SemLoc.dma.inj h)]
  | some (false, k), some (true, k'), h => exact absurd h (send_ne_recv k k')
  | some (true, k), some (false, k'), h => exact absurd h.symm (send_ne_recv k' k)
  | some (true, k), some (true, k'), h => rw [recvS_inj (SemLoc.dma.inj h)]

omit [FloatOps F] in
theorem kcell_injective : Function.Injective (kcell : Dev nD × CI → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

/-- Every device's seventeen cells. -/
def xCells : Finset (GSem nD τ sig) := Finset.univ.map ⟨kcell, kcell_injective⟩

/-- The duty tokens as minted: for device c and another device k, duty k of c's barrier cell, of its send cell k and
    of its receive cell k. -/
abbrev tokOf (x : Dev nD × Dev nD × Fin 3) : GSem nD τ sig × ℕ × Dev nD := match x.2.2 with
  | 0 => (barCell x.1, 0, x.2.1) | 1 => (sendCell x.1 x.2.1, 0, x.2.1) | 2 => (recvCell x.1 x.2.1, 0, x.2.1)

omit [FloatOps F] in
theorem tokOf_injective : Function.Injective tokOf := by
  rintro ⟨c, k, j⟩ ⟨c', k', j'⟩ h
  have h1 : c = c' := by
    have := congrArg (fun x : GSem nD τ sig × ℕ × Dev nD => x.1.1.1) h
    fin_cases j <;> fin_cases j' <;> exact this
  subst h1
  have h2 : k = k' := by
    have := congrArg (fun x : GSem nD τ sig × ℕ × Dev nD => x.2.2) h
    fin_cases j <;> fin_cases j' <;> exact this
  subst h2
  have h3 : j = j' := by
    have h' := congrArg (fun x : GSem nD τ sig × ℕ × Dev nD => x.1.2) h
    fin_cases j <;> fin_cases j' <;>
      first | rfl | exact absurd h' (dma_ne_bar _) | exact absurd h'.symm (dma_ne_bar _) | exact absurd h' (send_ne_recv _ _) | exact absurd h'.symm (send_ne_recv _ _)
  subst h3; rfl

def xToks : Finset (GSem nD τ sig × ℕ × Dev nD) :=
  (Finset.univ.filter fun x : Dev nD × Dev nD × Fin 3 => x.2.1 ≠ x.1).map ⟨tokOf, tokOf_injective⟩

/-- The launch element: the pipeline's copy for the staging cells, the exchange's for its cells and tokens. -/
def u₀ : UU :=
  (initOf (Pipeline.cells cfgs cellOf_inj) (Pipeline.launchToks cfgs cellOf_inj), initOf xCells xToks)

/-- The duty tokens of device c's own cells. -/
def toks (c : Dev nD) : sProp 𝕄 :=
  bigSep (others c) fun k => iprop(dutyTok ER (barCell c) 0 k ∗ dutyTok ER (sendCell c k) 0 k ∗ dutyTok ER (recvCell c k) 0 k)

/-- What the launch element deals device c. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks (F := F) c)

/-- What the global step makes of it. -/
def G' (c : Dev nD) : sProp 𝕄 := iprop(∃ K, ghost m ρ K c)

omit [FloatOps F] in
theorem bigSep_xCells (Φ : GSem nD τ sig → sProp 𝕄) :
    bigSep xCells Φ = bigSep Finset.univ fun c : Dev nD => bigSep Finset.univ fun i : CI => Φ (kcell (c, i)) := by
  unfold xCells; rw [bigSep_map, bigSep_univ_prod]; rfl

omit [FloatOps F] in
theorem bigSep_xToks :
    bigSep xToks (fun x => (dutyTok ER x.1 x.2.1 x.2.2 : sProp 𝕄)) = bigSep Finset.univ fun c : Dev nD => toks (F := F) c := by
  unfold xToks
  rw [bigSep_map, bigSep_filter_ite, bigSep_univ_prod]
  simp only [Function.Embedding.coeFn_mk]
  refine bigSep_congr fun c _ => ?_
  unfold toks
  rw [bigSep_others, bigSep_univ_prod]
  refine bigSep_congr fun k _ => ?_
  dsimp only
  by_cases h : k = c
  · rw [if_pos h, bigSep_congr (s := Finset.univ) (Ψ := fun _ : Fin 3 => (BI.emp : sProp 𝕄)) fun j _ => if_neg (not_not.mpr h)]
    exact bigSep_emp_const _
  · rw [if_neg h, bigSep_congr (s := Finset.univ)
      (Ψ := fun j : Fin 3 => (dutyTok ER (tokOf (c, k, j)).1 (tokOf (c, k, j)).2.1 (tokOf (c, k, j)).2.2 : sProp 𝕄)) fun j _ => if_pos (show k ≠ c from h),
      bigSep_fin3]

theorem fund_x : BI.own (ER (initOf xCells xToks)) ⊢ (|==> bigSep Finset.univ (G m ρ) : sProp 𝕄) := by
  iintro HX
  imod (Rounds.fund ER (Rd m ρ) xCells xToks) $$ HX with ⟨Hst, Hr, Hat, Htok⟩
  imodintro
  ihave Hst' := (Entails.of_eq (bigSep_xCells fun g => roundState ER (Rd m ρ) g 0)) $$ Hst
  ihave Hat' := (Entails.of_eq (bigSep_xCells (F := F) fun g => atPos ER g 0 ∅ 0)) $$ Hat
  ihave Hr' := (Entails.of_eq (bigSep_xCells (F := F) fun g => reached ER g 0)) $$ Hr
  ihave Htok' := (Entails.of_eq (bigSep_xToks (F := F))) $$ Htok
  unfold G; simp only [bigSep_sep']
  isplitl [Hst']; · iexact Hst'
  isplitl [Hat' Hr']
  · isplitl [Hat'] <;> iassumption
  iexact Htok'

/-! ## The semaphores at launch -/

omit [FloatOps F] in
theorem ownSemFacts : Pipeline.OwnSemFacts cfg0.spec osem := by decide

theorem share_eq (c : Dev nD) (w : Fin cfg0.W) : (dats m ρ 0 c).share w = fullShare := by unfold Dat.share; split <;> rfl

omit [FloatOps F] in
/-- The barrier semaphore is the one semaphore of a device that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's seventeen counters at zero: the barrier's and its own sixteen. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, bigSep_CI]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) :
    iprop(records m ρ K ∗ positions (F := F) c ∗ payToks (F := F) c) ⊢ G' m ρ c := by
  unfold G' ghost
  iintro H
  iexists K
  iexact H

omit [FloatOps F] in
/-- The tokens dealt to the devices that pay them: of device c's cells, duty k of the barrier cell and of receive
    cell k go to device k; duty k of send cell k stays. -/
theorem toks_around : (bigSep Finset.univ fun c : Dev nD => (toks c : sProp 𝕄)) ⊢ bigSep Finset.univ fun c : Dev nD => payToks c := by
  unfold toks payToks
  simp only [bigSep_sep']
  rw [bigSep_others_swap (fun c k => (dutyTok ER (barCell c) 0 k : sProp 𝕄)),
    bigSep_others_swap (fun c k => (dutyTok ER (recvCell c k) 0 k : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Over pairs of distinct devices the two orders of summation agree. -/
theorem sum_others_swap {M : Type} [AddCommMonoid M] (f : Dev nD → Dev nD → M) :
    ∑ c, ∑ k ∈ others c, f c k = ∑ k, ∑ c ∈ others k, f c k :=
  Finset.sum_comm' fun c k => by
    simp only [Finset.mem_univ, Finset.mem_erase, ne_eq, and_true, true_and]
    exact ⟨fun h h' => h h'.symm, fun h h' => h h'.symm⟩

omit [FloatOps F] in
/-- Units on one cell add up. -/
theorem sum_tallyAt_one (g : GSem nD τ sig) (s : Finset (Dev nD)) :
    ∑ _k ∈ s, (tallyAt g () 1 : CellTallies nD τ sig Unit) = tallyAt g () s.card := by
  classical
  induction s using Finset.induction_on with
  | empty => rw [Finset.sum_empty, Finset.card_empty, tallyAt_zero]
  | insert a s ha ih => rw [Finset.sum_insert ha, ih, tallyAt_add, Finset.card_insert_of_notMem ha, Nat.add_comm]

omit [FloatOps F] in
theorem card_others (c : Dev nD) : (others c).card = 7 := by
  rw [Finset.card_erase_of_mem (Finset.mem_univ _), Finset.card_univ, Fintype.card_fin]
  rfl

/-- What the other devices owe device c's cells: a row's credit on each of its seven receive cells, seven units on its
    barrier cell. -/
def owedTo (c : Dev nD) : CellTallies nD τ sig Unit :=
  (∑ k ∈ others c, tallyAt (recvCell c k) () N) + ∑ _k ∈ others c, tallyAt (barCell c) () 1

omit [FloatOps F] in
theorem sum_O₀ : ∑ d, O₀ d = ∑ d, owedTo d := by
  unfold O₀ owedTo Orecv Obar
  rw [Finset.sum_add_distrib, Finset.sum_add_distrib,
    sum_others_swap (fun d k => (tallyAt (recvCell k d) () N : CellTallies nD τ sig Unit)),
    sum_others_swap (fun d k => (tallyAt (barCell k) () 1 : CellTallies nD τ sig Unit))]

omit [FloatOps F] in
theorem owedTo_own (d : Dev nD) (g : GSem nD τ sig) (h : owedTo d g ≠ 0) : g.1 = (d : Thread nD τ) := by
  by_contra hne
  refine h ?_
  unfold owedTo
  rw [Pi.add_apply, Finset.sum_apply, Finset.sum_apply,
    Finset.sum_eq_zero fun k _ => tallyAt_ne_cell (fun hg => hne (congrArg Prod.fst hg)) () N,
    Finset.sum_eq_zero fun k _ => tallyAt_ne_cell (fun hg => hne (congrArg Prod.fst hg)) () 1, add_zero]

omit [FloatOps F] in
theorem creds (c : Dev nD) : (Pipeline.launchCred O₀ c : sProp 𝕄) ⊢ launchCreds c := by
  rw [Pipeline.launchCred_of_sum O₀ owedTo sum_O₀ owedTo_own c]
  unfold owedTo launchCreds
  rw [sum_tallyAt_one, card_others]
  refine (cred_add _ _).1.trans ?_
  rw [Pipeline.cred_finsetSum]
  iintro ⟨HR, HB⟩
  isplitl [HB]; · iexact HB
  iexact HR

/-! ## The launch theorem's side conditions -/

omit [FloatOps F] in
theorem scrPts_eq (c : Dev nD) (f : Buf (Elt F) ((c : Thread nD τ).loc cc0_scratch0)) :
    scrPts c f = (((c : Thread nD τ).loc cc0_scratch0) ↦{fullShare} f : sProp 𝕄) := by
  unfold scrPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁
  iintro ⟨Hr, Hz⟩
  isplitr; · iempintro
  isplitl [Hz]; · iexact Hz
  iexists (accAll m ρ); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) _ _
    · show _ ⊢ MayWait _ _ _ 0
      rw [MayWait_zero]; iintro -; iempintro

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On eight devices, for any float values, from any memory with zero counters: if every device's body meets its
    obligation, every weakly fair execution of the program terminates, and in every final state each device's arrays
    hold what the pipeline's data says they hold after the last point. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array ends as it began. -/
theorem finalA_x (c : Dev nD) :
    (dats (F := F) m ρ 0 c).arrAt (0 : Fin 2) cfg0.N = (s₀ m ρ).mem (win0_0.arr.view.loc (c : Thread nD τ)) :=
  (dats (F := F) m ρ 0 c).arrAt_in (0 : Fin 2) rfl _

/-- The result array ends at what the body left in the result's staging buffer: the one point writes the whole
    buffer back over the whole array. -/
theorem finalA_out (c : Dev nD) :
    (dats (F := F) m ρ 0 c).arrAt (1 : Fin 2) cfg0.N = outAll m ρ := by
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from
    congrArg _ cfg0_N).trans (h.trans ?_)
  exact Memref.write_access_unit_zero_univ (Elt F) main_v1 (funext fun a => Nat.zero_mul _) _ _ _

/-- info: 'Cert.KernelIdeal.Xchg.run_main' depends on axioms: [propext, Classical.choice, Quot.sound] -/
#guard_msgs in #print axioms run_main

end Cert.KernelIdeal.Xchg

end
-- ==== Proof.LaunchK.lean ====
/-
  The launch of the eight-device column mean: the ghost state every device starts from, the credit it is dealt,
  and the run of the whole program from the body's obligation.
-/
import proofs.«900941_g7700000000000942_dist_mean_ax0_shard0_i_m1024_n512_v7x_i8_f32_1_alg».proof.Proof.SchedK

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the other devices and over a device's cells -/

omit [FloatOps F] in
/-- A conjunction over the other devices is one over all devices with nothing at the device itself. -/
theorem bigSep_others (c : Dev nD) (Φ : Dev nD → sProp 𝕄) :
    bigSep (others c) Φ = bigSep Finset.univ fun k => if k = c then (BI.emp : sProp 𝕄) else Φ k := by
  rw [bigSep_univ_at (fun k => if k = c then (BI.emp : sProp 𝕄) else Φ k) c, if_pos rfl,
    bigSep_congr (s := Finset.univ.erase c) (Φ := fun k => if k = c then (BI.emp : sProp 𝕄) else Φ k) (Ψ := Φ)
      fun k hk => if_neg (Finset.mem_erase.mp hk).1]
  exact (equiv_iff.mp emp_sep).symm

omit [FloatOps F] in
/-- Over pairs of distinct devices the two orders of conjunction agree. -/
theorem bigSep_others_swap (Ψ : Dev nD → Dev nD → sProp 𝕄) :
    (bigSep Finset.univ fun c => bigSep (others c) fun k => Ψ c k)
      = bigSep Finset.univ fun k => bigSep (others k) fun c => Ψ c k := by
  rw [bigSep_congr (s := Finset.univ) fun c _ => bigSep_others c (Ψ c),
    bigSep_congr (s := Finset.univ) fun k _ => bigSep_others k (fun c => Ψ c k),
    Pipeline.bigSep_univ_comm]
  refine bigSep_congr fun k _ => bigSep_congr fun c _ => ?_
  by_cases h : k = c
  · rw [if_pos h, if_pos h.symm]
  · rw [if_neg h, if_neg fun h' => h h'.symm]

omit [FloatOps F] in
/-- A conjunction over a filtered set is one over the set with nothing where the filter fails. -/
theorem bigSep_filter_ite {I : Type} [DecidableEq I] (s : Finset I) (p : I → Prop) [DecidablePred p] (Φ : I → sProp 𝕄) :
    bigSep (s.filter p) Φ = bigSep s fun i => if p i then Φ i else (BI.emp : sProp 𝕄) := by
  rw [bigSep_filter_split s p (Φ := fun i => if p i then Φ i else (BI.emp : sProp 𝕄)),
    bigSep_congr (s := s.filter p) (Φ := fun i => if p i then Φ i else (BI.emp : sProp 𝕄)) (Ψ := Φ)
      fun i hi => if_pos (Finset.mem_filter.mp hi).2,
    bigSep_congr (s := s.filter fun i => ¬ p i) (Φ := fun i => if p i then Φ i else (BI.emp : sProp 𝕄)) (Ψ := fun _ => (BI.emp : sProp 𝕄))
      fun i hi => if_neg (Finset.mem_filter.mp hi).2,
    bigSep_emp_const]
  exact (equiv_iff.mp sep_emp).symm

omit [FloatOps F] in
/-- A conjunction over a device's cells: the barrier cell's part, then the sixteen others'. -/
theorem bigSep_CI (Φ : CI → sProp 𝕄) :
    bigSep Finset.univ Φ = iprop(Φ none ∗ bigSep Finset.univ fun bk : Bool × Dev nD => Φ (some bk)) := by
  have h : (Finset.univ : Finset CI).erase none = Finset.univ.map Function.Embedding.some := by
    ext x; cases x <;> simp
  rw [bigSep_univ_at Φ none, h, bigSep_map]
  rfl

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-! ## The cells and the duty tokens of the exchange -/

omit [FloatOps F] in
theorem csem_injective : Function.Injective (csem : CI → SemLoc sig) := fun i j h => by
  match i, j, h with
  | none, none, _ => rfl
  | none, some (false, _), h => exact absurd h.symm (dma_ne_bar _)
  | none, some (true, _), h => exact absurd h.symm (dma_ne_bar _)
  | some (false, _), none, h => exact absurd h (dma_ne_bar _)
  | some (true, _), none, h => exact absurd h (dma_ne_bar _)
  | some (false, k), some (false, k'), h => rw [sendS_inj (SemLoc.dma.inj h)]
  | some (false, k), some (true, k'), h => exact absurd h (send_ne_recv k k')
  | some (true, k), some (false, k'), h => exact absurd h.symm (send_ne_recv k' k)
  | some (true, k), some (true, k'), h => rw [recvS_inj (SemLoc.dma.inj h)]

omit [FloatOps F] in
theorem kcell_injective : Function.Injective (kcell : Dev nD × CI → GSem nD τ sig) := by
  rintro ⟨c, i⟩ ⟨c', i'⟩ h
  have h1 : c = c' := congrArg (fun g : GSem nD τ sig => g.1.1) h
  subst h1
  have h2 : i = i' := csem_injective (congrArg Prod.snd h)
  subst h2; rfl

/-- Every device's seventeen cells. -/
def xCells : Finset (GSem nD τ sig) := Finset.univ.map ⟨kcell, kcell_injective⟩

/-- The duty tokens as minted: for device c and another device k, duty k of c's barrier cell, of its send cell k and
    of its receive cell k. -/
abbrev tokOf (x : Dev nD × Dev nD × Fin 3) : GSem nD τ sig × ℕ × Dev nD := match x.2.2 with
  | 0 => (barCell x.1, 0, x.2.1) | 1 => (sendCell x.1 x.2.1, 0, x.2.1) | 2 => (recvCell x.1 x.2.1, 0, x.2.1)

omit [FloatOps F] in
theorem tokOf_injective : Function.Injective tokOf := by
  rintro ⟨c, k, j⟩ ⟨c', k', j'⟩ h
  have h1 : c = c' := by
    have := congrArg (fun x : GSem nD τ sig × ℕ × Dev nD => x.1.1.1) h
    fin_cases j <;> fin_cases j' <;> exact this
  subst h1
  have h2 : k = k' := by
    have := congrArg (fun x : GSem nD τ sig × ℕ × Dev nD => x.2.2) h
    fin_cases j <;> fin_cases j' <;> exact this
  subst h2
  have h3 : j = j' := by
    have h' := congrArg (fun x : GSem nD τ sig × ℕ × Dev nD => x.1.2) h
    fin_cases j <;> fin_cases j' <;>
      first | rfl | exact absurd h' (dma_ne_bar _) | exact absurd h'.symm (dma_ne_bar _) | exact absurd h' (send_ne_recv _ _) | exact absurd h'.symm (send_ne_recv _ _)
  subst h3; rfl

def xToks : Finset (GSem nD τ sig × ℕ × Dev nD) :=
  (Finset.univ.filter fun x : Dev nD × Dev nD × Fin 3 => x.2.1 ≠ x.1).map ⟨tokOf, tokOf_injective⟩

/-- The launch element: the pipeline's copy for the staging cells, the exchange's for its cells and tokens. -/
def u₀ : UU :=
  (initOf (Pipeline.cells cfgs cellOf_inj) (Pipeline.launchToks cfgs cellOf_inj), initOf xCells xToks)

/-- The duty tokens of device c's own cells. -/
def toks (c : Dev nD) : sProp 𝕄 :=
  bigSep (others c) fun k => iprop(dutyTok ER (barCell c) 0 k ∗ dutyTok ER (sendCell c k) 0 k ∗ dutyTok ER (recvCell c k) 0 k)

/-- What the launch element deals device c. -/
def G (c : Dev nD) : sProp 𝕄 :=
  iprop((bigSep Finset.univ fun i : CI => roundState ER (Rd m ρ) (kcell (c, i)) 0)
    ∗ (bigSep Finset.univ fun i : CI => iprop(atPos ER (kcell (c, i)) 0 ∅ 0 ∗ reached ER (kcell (c, i)) 0)) ∗ toks (F := F) c)

/-- What the global step makes of it. -/
def G' (c : Dev nD) : sProp 𝕄 := iprop(∃ K, ghost m ρ K c)

omit [FloatOps F] in
theorem bigSep_xCells (Φ : GSem nD τ sig → sProp 𝕄) :
    bigSep xCells Φ = bigSep Finset.univ fun c : Dev nD => bigSep Finset.univ fun i : CI => Φ (kcell (c, i)) := by
  unfold xCells; rw [bigSep_map, bigSep_univ_prod]; rfl

omit [FloatOps F] in
theorem bigSep_xToks :
    bigSep xToks (fun x => (dutyTok ER x.1 x.2.1 x.2.2 : sProp 𝕄)) = bigSep Finset.univ fun c : Dev nD => toks (F := F) c := by
  unfold xToks
  rw [bigSep_map, bigSep_filter_ite, bigSep_univ_prod]
  simp only [Function.Embedding.coeFn_mk]
  refine bigSep_congr fun c _ => ?_
  unfold toks
  rw [bigSep_others, bigSep_univ_prod]
  refine bigSep_congr fun k _ => ?_
  dsimp only
  by_cases h : k = c
  · rw [if_pos h, bigSep_congr (s := Finset.univ) (Ψ := fun _ : Fin 3 => (BI.emp : sProp 𝕄)) fun j _ => if_neg (not_not.mpr h)]
    exact bigSep_emp_const _
  · rw [if_neg h, bigSep_congr (s := Finset.univ)
      (Ψ := fun j : Fin 3 => (dutyTok ER (tokOf (c, k, j)).1 (tokOf (c, k, j)).2.1 (tokOf (c, k, j)).2.2 : sProp 𝕄)) fun j _ => if_pos (show k ≠ c from h),
      bigSep_fin3]

theorem fund_x : BI.own (ER (initOf xCells xToks)) ⊢ (|==> bigSep Finset.univ (G m ρ) : sProp 𝕄) := by
  iintro HX
  imod (Rounds.fund ER (Rd m ρ) xCells xToks) $$ HX with ⟨Hst, Hr, Hat, Htok⟩
  imodintro
  ihave Hst' := (Entails.of_eq (bigSep_xCells fun g => roundState ER (Rd m ρ) g 0)) $$ Hst
  ihave Hat' := (Entails.of_eq (bigSep_xCells (F := F) fun g => atPos ER g 0 ∅ 0)) $$ Hat
  ihave Hr' := (Entails.of_eq (bigSep_xCells (F := F) fun g => reached ER g 0)) $$ Hr
  ihave Htok' := (Entails.of_eq (bigSep_xToks (F := F))) $$ Htok
  unfold G; simp only [bigSep_sep']
  isplitl [Hst']; · iexact Hst'
  isplitl [Hat' Hr']
  · isplitl [Hat'] <;> iassumption
  iexact Htok'

/-! ## The semaphores at launch -/

omit [FloatOps F] in
theorem ownSemFacts : Pipeline.OwnSemFacts cfg0.spec osem := by decide

theorem share_eq (c : Dev nD) (w : Fin cfg0.W) : (dats m ρ 0 c).share w = fullShare := by unfold Dat.share; split <;> rfl

omit [FloatOps F] in
/-- The barrier semaphore is the one semaphore of a device that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's seventeen counters at zero: the barrier's and its own sixteen. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, bigSep_CI]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (Rd m ρ) (kcell (c, i)) 0)
      ⊢ (|={Set.univ}=> bigSep Finset.univ fun i : CI => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CI → ℕ) (c : Dev nD) :
    iprop(records m ρ K ∗ positions (F := F) c ∗ payToks (F := F) c) ⊢ G' m ρ c := by
  unfold G' ghost
  iintro H
  iexists K
  iexact H

omit [FloatOps F] in
/-- The tokens dealt to the devices that pay them: of device c's cells, duty k of the barrier cell and of receive
    cell k go to device k; duty k of send cell k stays. -/
theorem toks_around : (bigSep Finset.univ fun c : Dev nD => (toks c : sProp 𝕄)) ⊢ bigSep Finset.univ fun c : Dev nD => payToks c := by
  unfold toks payToks
  simp only [bigSep_sep']
  rw [bigSep_others_swap (fun c k => (dutyTok ER (barCell c) 0 k : sProp 𝕄)),
    bigSep_others_swap (fun c k => (dutyTok ER (recvCell c k) 0 k : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m ρ) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Over pairs of distinct devices the two orders of summation agree. -/
theorem sum_others_swap {M : Type} [AddCommMonoid M] (f : Dev nD → Dev nD → M) :
    ∑ c, ∑ k ∈ others c, f c k = ∑ k, ∑ c ∈ others k, f c k :=
  Finset.sum_comm' fun c k => by
    simp only [Finset.mem_univ, Finset.mem_erase, ne_eq, and_true, true_and]
    exact ⟨fun h h' => h h'.symm, fun h h' => h h'.symm⟩

omit [FloatOps F] in
/-- Units on one cell add up. -/
theorem sum_tallyAt_one (g : GSem nD τ sig) (s : Finset (Dev nD)) :
    ∑ _k ∈ s, (tallyAt g () 1 : CellTallies nD τ sig Unit) = tallyAt g () s.card := by
  classical
  induction s using Finset.induction_on with
  | empty => rw [Finset.sum_empty, Finset.card_empty, tallyAt_zero]
  | insert a s ha ih => rw [Finset.sum_insert ha, ih, tallyAt_add, Finset.card_insert_of_notMem ha, Nat.add_comm]

omit [FloatOps F] in
theorem card_others (c : Dev nD) : (others c).card = 7 := by
  rw [Finset.card_erase_of_mem (Finset.mem_univ _), Finset.card_univ, Fintype.card_fin]
  rfl

/-- What the other devices owe device c's cells: a row's credit on each of its seven receive cells, seven units on its
    barrier cell. -/
def owedTo (c : Dev nD) : CellTallies nD τ sig Unit :=
  (∑ k ∈ others c, tallyAt (recvCell c k) () N) + ∑ _k ∈ others c, tallyAt (barCell c) () 1

omit [FloatOps F] in
theorem sum_O₀ : ∑ d, O₀ d = ∑ d, owedTo d := by
  unfold O₀ owedTo Orecv Obar
  rw [Finset.sum_add_distrib, Finset.sum_add_distrib,
    sum_others_swap (fun d k => (tallyAt (recvCell k d) () N : CellTallies nD τ sig Unit)),
    sum_others_swap (fun d k => (tallyAt (barCell k) () 1 : CellTallies nD τ sig Unit))]

omit [FloatOps F] in
theorem owedTo_own (d : Dev nD) (g : GSem nD τ sig) (h : owedTo d g ≠ 0) : g.1 = (d : Thread nD τ) := by
  by_contra hne
  refine h ?_
  unfold owedTo
  rw [Pi.add_apply, Finset.sum_apply, Finset.sum_apply,
    Finset.sum_eq_zero fun k _ => tallyAt_ne_cell (fun hg => hne (congrArg Prod.fst hg)) () N,
    Finset.sum_eq_zero fun k _ => tallyAt_ne_cell (fun hg => hne (congrArg Prod.fst hg)) () 1, add_zero]

omit [FloatOps F] in
theorem creds (c : Dev nD) : (Pipeline.launchCred O₀ c : sProp 𝕄) ⊢ launchCreds c := by
  rw [Pipeline.launchCred_of_sum O₀ owedTo sum_O₀ owedTo_own c]
  unfold owedTo launchCreds
  rw [sum_tallyAt_one, card_others]
  refine (cred_add _ _).1.trans ?_
  rw [Pipeline.cred_finsetSum]
  iintro ⟨HR, HB⟩
  isplitl [HB]; · iexact HB
  iexact HR

/-! ## The launch theorem's side conditions -/

omit [FloatOps F] in
theorem scrPts_eq (c : Dev nD) (f : Buf (Elt F) ((c : Thread nD τ).loc cc0_scratch0)) :
    scrPts c f = (((c : Thread nD τ).loc cc0_scratch0) ↦{fullShare} f : sProp 𝕄) := by
  unfold scrPts; rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁
  iintro ⟨Hr, Hz⟩
  isplitr; · iempintro
  isplitl [Hz]; · iexact Hz
  iexists (accAll m ρ); rw [← scrPts_eq]; iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) _ _
    · show _ ⊢ MayWait _ _ _ 0
      rw [MayWait_zero]; iintro -; iempintro

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On eight devices, for any float values, from any memory with zero counters: if every device's body meets its
    obligation, every weakly fair execution of the program terminates, and in every final state each device's arrays
    hold what the pipeline's data says they hold after the last point. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array ends as it began. -/
theorem finalA_x (c : Dev nD) :
    (dats (F := F) m ρ 0 c).arrAt (0 : Fin 2) cfg0.N = (s₀ m ρ).mem (win0_0.arr.view.loc (c : Thread nD τ)) :=
  (dats (F := F) m ρ 0 c).arrAt_in (0 : Fin 2) rfl _

/-- The result array ends at what the body left in the result's staging buffer: the one point writes the whole
    buffer back over the whole array. -/
theorem finalA_out (c : Dev nD) :
    (dats (F := F) m ρ 0 c).arrAt (1 : Fin 2) cfg0.N = outAll m ρ := by
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from
    congrArg _ cfg0_N).trans (h.trans ?_)
  exact Memref.write_access_unit_zero_univ (Elt F) main_v1 (funext fun a => Nat.zero_mul _) _ _ _

/-- info: 'Cert.Kernel.Xchg.run_main' depends on axioms: [propext, Classical.choice, Quot.sound] -/
#guard_msgs in #print axioms run_main

end Cert.Kernel.Xchg

end
-- ==== Proof.Oblig.lean ====
/-
  The body's proof in the form the launch asks for.

  The grid has one point. There the launch hands a device its invariant before the point, what it owes, and its two
  staging buffers whole: the argument's at the device's block, the result's at some contents. It asks back the
  invariant after the point, what is owed then, and the two staging buffers at the block and at the scaled column
  sums. The invariant before the point is the ghost state under some names, the launch credit, the levels and the
  gather buffer at some contents; with the names opened this is the precondition the body is proved from.
-/
import proofs.«900941_g7700000000000942_dist_mean_ax0_shard0_i_m1024_n512_v7x_i8_f32_1_alg».proof.Proof.Sched
import proofs.«900941_g7700000000000942_dist_mean_ax0_shard0_i_m1024_n512_v7x_i8_f32_1_alg».proof.Proof.Gen.KernelIdeal.Launch

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

omit [FloatOps F] in
/-- Owning a whole buffer at contents `X`: the buffer at the full share, at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands a device at the point, the names of its ghost state still hidden. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The launch's body obligation on device `c`, from the body proved under any names `K` of the ghost state and for
    any continuation. -/
theorem body_obligation_of
    (hsound : ∀ (K : Dev nD × CI → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlv⟩, Hscr⟩, Ho, Hx, Hout⟩
  iapply (hsound K c fun _ => bodyPost m ρ c)
  unfold bodyPre
  isplitr []
  · isplitl [Hg Hcr Hlv Hscr]
    · isplitl [Hg]; · iexact Hg
      isplitl [Hcr]; · iexact Hcr
      isplitl [Hlv]; · iexact Hlv
      iexact Hscr
    isplitl [Ho]; · iexact Ho
    isplitl [Hx]; · iexact Hx
    iexact Hout
  · iintro H; iexact H

end Cert.KernelIdeal.Xchg

end
-- ==== Proof.ObligK.lean ====
/-
  The body's proof in the form the launch asks for.

  The grid has one point. There the launch hands a device its invariant before the point, what it owes, and its two
  staging buffers whole: the argument's at the device's block, the result's at some contents. It asks back the
  invariant after the point, what is owed then, and the two staging buffers at the block and at the scaled column
  sums. The invariant before the point is the ghost state under some names, the launch credit, the levels and the
  gather buffer at some contents; with the names opened this is the precondition the body is proved from.
-/
import proofs.«900941_g7700000000000942_dist_mean_ax0_shard0_i_m1024_n512_v7x_i8_f32_1_alg».proof.Proof.SchedK
import proofs.«900941_g7700000000000942_dist_mean_ax0_shard0_i_m1024_n512_v7x_i8_f32_1_alg».proof.Proof.Gen.Kernel.Launch

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

omit [FloatOps F] in
/-- Owning a whole buffer at contents `X`: the buffer at the full share, at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands a device at the point, the names of its ghost state still hidden. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The launch's body obligation on device `c`, from the body proved under any names `K` of the ghost state and for
    any continuation. -/
theorem body_obligation_of
    (hsound : ∀ (K : Dev nD × CI → ℕ) (c : Dev nD) (Kt : PUnit → sProp 𝕄),
      iprop(bodyPre m ρ K c ∗ (bodyPost m ρ c -∗ Kt ⟨⟩)) ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2) Kt)
    (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlv⟩, Hscr⟩, Ho, Hx, Hout⟩
  iapply (hsound K c fun _ => bodyPost m ρ c)
  unfold bodyPre
  isplitr []
  · isplitl [Hg Hcr Hlv Hscr]
    · isplitl [Hg]; · iexact Hg
      isplitl [Hcr]; · iexact Hcr
      isplitl [Hlv]; · iexact Hlv
      iexact Hscr
    isplitl [Ho]; · iexact Ho
    isplitl [Hx]; · iexact Hx
    iexact Hout
  · iintro H; iexact H

end Cert.Kernel.Xchg

end
-- ==== Proof.Rows.lean ====
/-
  The gather buffer by rows and by shares.

  The 8 × 512 buffer is the disjoint union of its eight rows, so owning it whole is owning the eight rows.
  A row held at the full share is held, after eight successive halvings, as eight pieces and a remainder:
  the pieces are what the seven copies reading one source row at once take with them.
  Copying row `k` of contents `f` over row `k` of any contents gives `f` on row `k`; storing device `c`'s
  partial sums through the rectangle of row `c` gives, on row `c`, the final contents.
-/
import proofs.«900941_g7700000000000942_dist_mean_ax0_shard0_i_m1024_n512_v7x_i8_f32_1_alg».proof.Proof.Sched
import Idealize.ShloMosaic.Lib.Pipeline.Value
import Idealize.ShloMosaic.Lib.ValueIdx
import Idealize.ShloMosaic.Rules.PointsTo

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffer is its eight rows -/

omit [FloatOps F] in
/-- Owning the whole buffer at the full share is owning each of its eight rows at the full share. -/
theorem scr_rows (c : Dev nD) (f : Buf (Elt F) ((aM : Memref sig .tc .vmem S8x512 .f32).view.loc (c : Thread nD τ))) :
    scrPts (F := F) c f = bigSep Finset.univ (fun k : Dev nD => rowPts (F := F) c k fullShare f) := by
  unfold scrPts rowPts
  have hs : (aM : Memref sig .tc .vmem S8x512 .f32).view.set = (Finset.univ : Finset (Dev nD)).biUnion rowSet := by
    rw [rowSet_cover]; exact View.set_whole _
  rw [hs, pointsTo_biUnion _ _ (fun t _ t' _ h => rowSet_disjoint h)]
  exact bigSep_congr fun k _ => by rw [rowM_set]

/-! ## A full share as successive halvings -/

omit [FloatOps F] in
/-- After `n` halvings the full share of a set of elements is the `n` halves taken off and what is left. -/
theorem pointsTo_halvings (ℓ : Loc nD τ sig) (I : Finset (Idx ℓ)) (f : Buf (Elt F) ℓ) (n : ℕ) :
    (ℓ ↦[I]{fullShare} f : sProp 𝕄)
      = iprop((bigSep (Finset.range n) fun j => ℓ ↦[I]{pieceShare j} f) ∗ ℓ ↦[I]{restShare n} f) := by
  induction n with
  | zero =>
    rw [Finset.range_zero, bigSep_empty]
    exact (equiv_iff.mp emp_sep).symm
  | succ n ih =>
    have hs : (ℓ ↦[I]{restShare n} f : sProp 𝕄) = iprop((ℓ ↦[I]{pieceShare n} f) ∗ ℓ ↦[I]{restShare (n + 1)} f) :=
      by
      have h : (ℓ ↦[I]{restShare n} f : sProp 𝕄) ⊣⊢ iprop((ℓ ↦[I]{(restShare n).left} f) ∗ ℓ ↦[I]{(restShare n).right} f) :=
        pointsTo_share (PosShare.mem_left_op_right (restShare n))
      exact equiv_iff.mp ⟨h.1, h.2⟩
    rw [Finset.range_add_one, bigSep_insert Finset.notMem_range_self]
    refine ih.trans ?_
    rw [hs]
    have h : iprop((bigSep (Finset.range n) fun j => ℓ ↦[I]{pieceShare j} f) ∗ (ℓ ↦[I]{pieceShare n} f) ∗ ℓ ↦[I]{restShare (n + 1)} f)
        ⊣⊢ (iprop(((ℓ ↦[I]{pieceShare n} f) ∗ bigSep (Finset.range n) fun j => ℓ ↦[I]{pieceShare j} f) ∗ ℓ ↦[I]{restShare (n + 1)} f) : sProp 𝕄) :=
      sep_left_comm.trans sep_assoc.symm
    exact equiv_iff.mp ⟨h.1, h.2⟩

omit [FloatOps F] in
/-- The naturals below eight, as the eight devices. -/
theorem bigSep_range_dev (Φ : ℕ → sProp 𝕄) :
    bigSep (Finset.range 8) Φ = bigSep Finset.univ (fun j : Dev nD => Φ j.val) := by
  have h : (Finset.univ : Finset (Dev nD)).map Fin.valEmbedding = Finset.range 8 := by decide
  rw [← h, bigSep_map]
  rfl

omit [FloatOps F] in
/-- A row at the full share is its eight pieces and the remainder after eight halvings. -/
theorem row_shares (c k : Dev nD) (f : Buf (Elt F) ((rowM k : Memref sig .tc .vmem S1x512 .f32).view.loc (c : Thread nD τ))) :
    rowPts (F := F) c k fullShare f
      = iprop((bigSep Finset.univ fun j : Dev nD => rowPts (F := F) c k (pieceShare j.val) f) ∗ rowPts (F := F) c k (restShare 8) f) := by
  unfold rowPts
  rw [pointsTo_halvings _ _ f 8, bigSep_range_dev]

/-! ## One device and the other seven -/

omit [FloatOps F] in
theorem bigSep_univ_others (c : Dev nD) (Φ : Dev nD → sProp 𝕄) :
    bigSep Finset.univ Φ = iprop(Φ c ∗ bigSep (others c) Φ) :=
  bigSep_univ_split c

/-! ## Contents of a row after a copy and after a store -/

omit [FloatOps F] in
/-- Row `k` of `f`, copied over row `k` of any contents `fd`, gives `f` on row `k`. The contents are those of the
    buffer, whichever device's; the source may be another device's buffer than the destination. -/
theorem row_copy (k : Dev nD) (fd f : (rowM k : Memref sig .tc .vmem S1x512 .f32).view.ty.Contents (Elt F)) :
    ∀ i ∈ (rowM k : Memref sig .tc .vmem S1x512 .f32).view.set,
      (rowM k : Memref sig .tc .vmem S1x512 .f32).view.write (Elt F) fd
        ((rowM k : Memref sig .tc .vmem S1x512 .f32).view.read (Elt F) f) Finset.univ i = f i := by
  intro i hi
  obtain ⟨x, rfl⟩ := View.exists_emb_of_mem_set _ hi
  rw [View.write_emb_of_mem _ _ (Finset.mem_univ x), View.read_apply]
  rfl

omit [FloatOps F] in
/-- The same, source and destination in one device's buffer. -/
theorem row_copy_congr (k : Dev nD) (c' : Dev nD)
    (fd f : Buf (Elt F) ((rowM k : Memref sig .tc .vmem S1x512 .f32).view.loc (c' : Thread nD τ))) :
    ∀ i ∈ (rowM k : Memref sig .tc .vmem S1x512 .f32).view.set,
      (rowM k : Memref sig .tc .vmem S1x512 .f32).view.write (Elt F) fd
        ((rowM k : Memref sig .tc .vmem S1x512 .f32).view.read (Elt F) f) Finset.univ i = f i :=
  row_copy k fd f

omit [FloatOps F] in
/-- The same, the source row read off device `c''`'s buffer and written into device `c'`'s. -/
theorem row_copy_congr_from (k : Dev nD) (c' c'' : Dev nD)
    (fd : Buf (Elt F) ((rowM k : Memref sig .tc .vmem S1x512 .f32).view.loc (c' : Thread nD τ)))
    (f' : Buf (Elt F) ((rowM k : Memref sig .tc .vmem S1x512 .f32).view.loc (c'' : Thread nD τ))) :
    ∀ i ∈ (rowM k : Memref sig .tc .vmem S1x512 .f32).view.set,
      (rowM k : Memref sig .tc .vmem S1x512 .f32).view.write (Elt F) fd
        ((rowM k : Memref sig .tc .vmem S1x512 .f32).view.read (Elt F) f') Finset.univ i = f' i :=
  row_copy k fd f'

/-- Device `c`'s partial sums, stored through the rectangle of row `c`, make row `c` what the final contents say:
    the element at column `x` of that rectangle sits at row `c`, column `x` of the buffer. -/
theorem row_store_acc (c : Dev nD) (f0 : Buf (Elt F) ((c : Thread nD τ).loc cc0_scratch0)) :
    ∀ i ∈ rowSet c,
      ((aM : Memref sig .tc .vmem S8x512 .f32).access (Rect.unit (s := S8x512) ![c.val, 0] S1x512.size (row_inb c))).write (Elt F) f0
        (Spec.psum (xstg m ρ c)) Finset.univ i = accAll m ρ i := by
  intro i hi
  have hi' : i ∈ ((aM : Memref sig .tc .vmem S8x512 .f32).access (Rect.unit (s := S8x512) ![c.val, 0] S1x512.size (row_inb c))).set := by
    rw [View.set_slice_whole]; exact hi
  obtain ⟨x, rfl⟩ := View.exists_emb_of_mem_set _ hi'
  rw [View.write_emb_of_mem _ _ (Finset.mem_univ x)]
  have hr : Spec.rowOf (((aM : Memref sig .tc .vmem S8x512 .f32).access (Rect.unit (s := S8x512) ![c.val, 0] S1x512.size (row_inb c))).emb x) = c := by
    apply Fin.ext
    show c.val + 1 * (x 0).val = c.val
    have : (x 0).val < 1 := (x 0).isLt
    omega
  have hc : Spec.colOf (((aM : Memref sig .tc .vmem S8x512 .f32).access (Rect.unit (s := S8x512) ![c.val, 0] S1x512.size (row_inb c))).emb x) = x := by
    funext a
    match a with
    | ⟨0, _⟩ => apply Fin.ext; show 0 = (x 0).val; have : (x 0).val < 1 := (x 0).isLt; omega
    | ⟨1, _⟩ => apply Fin.ext; show 0 + 1 * (x 1).val = (x 1).val; omega
  show _ = Spec.psum (xstg m ρ (Spec.rowOf _)) (Spec.colOf _)
  rw [hr, hc]
  rfl

end Cert.KernelIdeal.Xchg

end
-- ==== Proof.Steps.lean ====
/-
  The kernel body, one exchange step at a time, for a device `c` and another device `j` both symbolic.
-/
import proofs.«900941_g7700000000000942_dist_mean_ax0_shard0_i_m1024_n512_v7x_i8_f32_1_alg».proof.Proof.Sched
import proofs.«900941_g7700000000000942_dist_mean_ax0_shard0_i_m1024_n512_v7x_i8_f32_1_alg».proof.Proof.Rows
import proofs.«900941_g7700000000000942_dist_mean_ax0_shard0_i_m1024_n512_v7x_i8_f32_1_alg».proof.Proof.Gen.KernelIdeal.Skeleton

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem inv_at (K : Dev nD × CI → ℕ) (ck : Dev nD × CI) : records m ρ K ⊢ cellInv ER (Rd m ρ) (K ck) (kcell ck) := by
  unfold records
  iintro ⟨#HI, -⟩
  iapply (show (bigSep Finset.univ fun ck : Dev nD × CI => (cellInv ER (Rd m ρ) (K ck) (kcell ck) : sProp 𝕄)) ⊢ cellInv ER (Rd m ρ) (K ck) (kcell ck)
    from bigSep_elim (Finset.mem_univ ck)); iexact HI
theorem reached_at (K : Dev nD × CI → ℕ) (ck : Dev nD × CI) : records m ρ K ⊢ reached ER (kcell ck) 0 := by
  unfold records
  iintro ⟨-, #HR⟩
  iapply (show (bigSep Finset.univ fun ck : Dev nD × CI => (reached ER (kcell ck) 0 : sProp 𝕄)) ⊢ reached ER (kcell ck) 0
    from bigSep_elim (Finset.mem_univ ck)); iexact HR

/-! ## The entry signals -/

/-- Before the signal to `j`: what `c` still owes, and for every device of `R` still to be signalled the token of its
    barrier unit and the row it is handed. -/
def SigSt (c : Dev nD) (R : Finset (Dev nD)) (W : Waits sig Unit) : sProp 𝕄 :=
  iprop(owes (c : Thread nD τ) (Orecv c (others c) + Obar R) W
    ∗ bigSep R fun k => iprop(dutyTok ER (barCell k) 0 c ∗ ∃ f, rowPts (F := F) c k fullShare f))

theorem bigSep_take {I : Type} [DecidableEq I] {R : Finset I} {j : I} (hj : j ∈ R) (Φ : I → sProp 𝕄) :
    bigSep R Φ = iprop(Φ j ∗ bigSep (R.erase j) Φ) := by
  conv_lhs => rw [← Finset.insert_erase hj]
  exact bigSep_insert (Finset.notMem_erase _ _)

set_option maxHeartbeats 800000 in
theorem sig_step (K : Dev nD × CI → ℕ) (c j : Dev nD) (cond : BitVec 1) (hcond : cond = 1#1 ↔ c ≠ j) (dv : ℕ) (hdv : dv = j.val)
    (hlt : cond = 1#1 → dv < nD) (hamt : (1#32 : BitVec 32).msb = false) (R : Finset (Dev nD)) (hj : c ≠ j → j ∈ R) (hc : c ∉ R)
    (W : Waits sig Unit) {α : Type} (k : Prog (TpuEff nD τ sig (Elt F) Λ₀ .tc) α) (Q : α → sProp 𝕄) :
    iprop(records m ρ K ∗ SigSt (F := F) c R W ∗ (SigSt (F := F) c (R.erase j) W -∗ wp frame (wpE (defs₀ (F := F)) 𝒱₀ c none) Set.univ k Q))
      ⊢ wp frame (wpE (defs₀ (F := F)) 𝒱₀ c none) Set.univ
          (if h : cond = 1#1 then (do semSignalWord (⟨dv, hlt h⟩ : Dev nD) barS 1#32 hamt; k) else k) Q := by
  by_cases h : cond = 1#1
  · rw [dif_pos h]
    have hcj := hcond.mp h
    have hjR := hj hcj
    subst hdv
    simp only [semSignalWord, Prog.lift, Prog.bind_op, Prog.bind_ret]
    unfold SigSt
    rw [bigSep_take hjR]
    iintro ⟨#Hrec, ⟨HO, ⟨Htok, Hrow⟩, Hb⟩, Hk⟩
    have hO : Orecv c (others c) + Obar R = Orecv c (others c) + Obar (R.erase j) + tallyAt (barCell j) () 1 := by
      unfold Obar; rw [← Finset.sum_erase_add _ _ hjR, add_assoc]
    iapply (Rounds.wp_signal 𝒱₀ ER (Rd m ρ) (c : Thread nD τ) none (dst := (j : Thread nD τ)) (κ := K (j, none))
        (d := c) (by rw [duties_bar]; exact Finset.mem_erase.mpr ⟨hcj, Finset.mem_univ _⟩) ((amount_bar m ρ j c).trans (by decide)) ()
        (O₀ := Orecv c (others c) + Obar R) (Orecv c (others c) + Obar (R.erase j)) hO) $$ [HO Htok Hrow]
    · isplitr; · iapply (inv_at m ρ K (j, none)); iexact Hrec
      isplitl [HO]; · iexact HO
      isplitl [Htok]; · iexact Htok
      isplitl [Hrow]
      · rw [payload_bar]; unfold barPay
        isplitl [Hrow]; · iexact Hrow
        iapply (reached_at m ρ K (c, some (true, j))); iexact Hrec
      · iapply (reached_at m ρ K (j, none)); iexact Hrec
    iintro HO
    iapply Hk
    isplitl [HO]; · iexact HO
    iexact Hb
  · rw [dif_neg h]
    have hcj : c = j := by by_contra hne; exact h (hcond.mpr hne)
    rw [Finset.erase_eq_of_notMem (hcj ▸ hc)]
    iintro ⟨-, HS, Hk⟩
    iapply Hk; iexact HS

theorem bigSep_put {I : Type} [DecidableEq I] {S : Finset I} {j : I} (hj : j ∉ S) (Φ : I → sProp 𝕄) :
    bigSep (insert j S) Φ = iprop(Φ j ∗ bigSep S Φ) := bigSep_insert hj

theorem sdiff_erase_insert {I : Type} [DecidableEq I] {S R : Finset I} {j : I} (hjo : j ∈ S) : S \ R.erase j = insert j (S \ R) := by
  ext x
  rw [Finset.mem_sdiff, Finset.mem_insert, Finset.mem_sdiff, Finset.mem_erase]
  constructor
  · rintro ⟨hx, hn⟩
    by_cases hxj : x = j
    · exact .inl hxj
    · exact .inr ⟨hx, fun hxR => hn ⟨hxj, hxR⟩⟩
  · rintro (rfl | ⟨hx, hxR⟩)
    · exact ⟨hjo, fun hh => hh.1 rfl⟩
    · exact ⟨hx, fun hh => hxR hh.2⟩

/-! ## The copies -/

/-- Before the copy to `j`: the receive credit `c` still owes; for every device of `R` still to be sent to, the two tokens of
    the copy, the share of row `c` it will read through and that device's row `c`; the departure credit of the copies made. -/
def SendSt (c : Dev nD) (R : Finset (Dev nD)) (W : Waits sig Unit) : sProp 𝕄 :=
  iprop(owes (c : Thread nD τ) (Orecv c R) W
    ∗ (bigSep R fun k => iprop(dutyTok ER (recvCell k c) 0 c ∗ dutyTok ER (sendCell c k) 0 k
        ∗ rowPts (F := F) c c (pieceShare k.val) (accAll m ρ) ∗ ∃ f, rowPts (F := F) k c fullShare f))
    ∗ bigSep (others c \ R) fun k => cred (tallyAt (sendCell c k) () N))

set_option maxHeartbeats 1600000 in
theorem send_step (K : Dev nD × CI → ℕ) (c j : Dev nD) (cond : BitVec 1) (hcond : cond = 1#1 ↔ c ≠ j)
    (e : cond = 1#1 → TpuEff nD τ sig (Elt F) Λ₀ .tc PUnit)
    (he : ∀ h, ∃ hsc hsrc hdst hsem, e h = TpuEff.enqueueDma (rowM c : Memref sig .tc .vmem S1x512 .f32)
      (.remote (Dev.tc j : Thread nD τ) (rowM c : Memref sig .tc .vmem S1x512 .f32) (.dma (sendS j)) hsc) (.dma (recvS c)) hsrc hdst hsem)
    (R : Finset (Dev nD)) (hR : R ⊆ others c) (hj : c ≠ j → j ∈ R)
    (W : Waits sig Unit) {α : Type} (k : Prog (TpuEff nD τ sig (Elt F) Λ₀ .tc) α) (Q : α → sProp 𝕄) :
    iprop(records m ρ K ∗ SendSt m ρ c R W ∗ (SendSt m ρ c (R.erase j) W -∗ wp frame (wpE (defs₀ (F := F)) 𝒱₀ c none) Set.univ k Q))
      ⊢ wp frame (wpE (defs₀ (F := F)) 𝒱₀ c none) Set.univ
          (if h : cond = 1#1 then (do Prog.lift (e h); k) else k) Q := by
  by_cases h : cond = 1#1
  · rw [dif_pos h]
    have hcj := hcond.mp h
    have hjR := hj hcj
    obtain ⟨hsc, hsrc, hdst, hsem, heq⟩ := he h
    rw [heq]
    simp only [Prog.lift, Prog.bind_op, Prog.bind_ret]
    unfold SendSt
    rw [bigSep_take hjR]
    have hjo : j ∈ others c := hR hjR
    have hnot : j ∉ others c \ R := fun hh => (Finset.mem_sdiff.mp hh).2 hjR
    have hsd := sdiff_erase_insert hjo (R := R)
    rw [hsd, bigSep_put hnot]
    have hO : Orecv c R = Orecv c (R.erase j) + tallyAt (recvCell j c) () N := by
      unfold Orecv; rw [← Finset.sum_erase_add _ _ hjR]
    iintro ⟨#Hrec, ⟨HO, ⟨⟨HtR, HtS, Hsrc, ⟨%fj, Hdst⟩⟩, Hb⟩, Hcr⟩, Hk⟩
    unfold rowPts
    iapply (Rounds.wp_send_pointsTo 𝒱₀ ER (Rd m ρ) (c : Thread nD τ) none (κ₁ := K (c, some (false, j))) (κ₂ := K (j, some (true, c)))
        (r₁ := 0) (r₂ := 0) (d₁ := j) (d₂ := c) (fd := fj)
        (by rw [duties_send m ρ c j (Ne.symm hcj)]; exact Finset.mem_singleton_self _)
        (by rw [duties_recv m ρ j c hcj]; exact Finset.mem_singleton_self _)
        () () N rfl (amount_send m ρ c j j) (amount_recv m ρ j c c) (O₀ := Orecv c R) (Orecv c (R.erase j)) hO (W := W)
        (Entails.of_eq (payload_send m ρ c j).symm)
        (Entails.of_eq ((pointsTo_congr (row_copy_congr_from c j c fj (accAll m ρ))).trans (payload_recv m ρ j c).symm))) $$ [HO HtR HtS Hsrc Hdst]
    · isplitr; · iapply (inv_at m ρ K (c, some (false, j))); iexact Hrec
      isplitr; · iapply (inv_at m ρ K (j, some (true, c))); iexact Hrec
      isplitl [Hsrc]; · iexact Hsrc
      isplitl [Hdst]; · iexact Hdst
      isplitl [HO]; · iexact HO
      isplitl [HtS]; · iexact HtS
      isplitr; · iapply (reached_at m ρ K (c, some (false, j))); iexact Hrec
      isplitl [HtR]; · iexact HtR
      iapply (reached_at m ρ K (j, some (true, c))); iexact Hrec
    iintro ⟨Hc, HO⟩
    iapply Hk
    isplitl [HO]; · iexact HO
    isplitl [Hb]; · iexact Hb
    isplitl [Hc]; · iexact Hc
    iexact Hcr
  · rw [dif_neg h]
    have hcj : c = j := by by_contra hne; exact h (hcond.mpr hne)
    have hjn : j ∉ R := fun hjR => (Finset.mem_erase.mp (hR hjR)).1 hcj.symm
    rw [Finset.erase_eq_of_notMem hjn]
    iintro ⟨-, HS, Hk⟩
    iapply Hk; iexact HS

/-! ## The waits -/

/-- Before the two waits for `j`: nothing owed any more; for every device of `R` still to be waited for, the credit of both
    cells and the positions at their start; for the others, the share of row `c` back, their row filled, both cells closed. -/
def WaitSt (c : Dev nD) (R : Finset (Dev nD)) : sProp 𝕄 :=
  iprop((∃ W, owes (c : Thread nD τ) 0 W)
    ∗ (bigSep R fun k => iprop(cred (tallyAt (sendCell c k) () N) ∗ cred (tallyAt (recvCell c k) () N)
        ∗ atPos ER (sendCell c k) 0 ∅ 0 ∗ atPos ER (recvCell c k) 0 ∅ 0))
    ∗ bigSep (others c \ R) fun k => iprop(rowPts (F := F) c c (pieceShare k.val) (accAll m ρ) ∗ rowPts (F := F) c k fullShare (accAll m ρ)
        ∗ semVal (sendCell c k) 0 ∗ semVal (recvCell c k) 0))

set_option maxHeartbeats 1600000 in
theorem wait_step (K : Dev nD × CI → ℕ) (c j : Dev nD) (cond : BitVec 1) (hcond : cond = 1#1 ↔ c ≠ j)
    (e₁ e₂ : cond = 1#1 → TpuEff nD τ sig (Elt F) Λ₀ .tc PUnit)
    (he₁ : ∀ h, ∃ hsrc hdst, e₁ h = TpuEff.waitDma2 (p := Proc.tc) (sendS j) (rowM j : Memref sig .tc .vmem S1x512 .f32) (rowM j : Memref sig .tc .vmem S1x512 .f32) hsrc hdst)
    (he₂ : ∀ h, ∃ hsrc hdst, e₂ h = TpuEff.waitDma2 (p := Proc.tc) (recvS j) (rowM j : Memref sig .tc .vmem S1x512 .f32) (rowM j : Memref sig .tc .vmem S1x512 .f32) hsrc hdst)
    (R : Finset (Dev nD)) (hR : R ⊆ others c) (hj : c ≠ j → j ∈ R)
    {α : Type} (k : Prog (TpuEff nD τ sig (Elt F) Λ₀ .tc) α) (Q : α → sProp 𝕄) :
    iprop(records m ρ K ∗ WaitSt m ρ c R ∗ (WaitSt m ρ c (R.erase j) -∗ wp frame (wpE (defs₀ (F := F)) 𝒱₀ c none) Set.univ k Q))
      ⊢ wp frame (wpE (defs₀ (F := F)) 𝒱₀ c none) Set.univ
          (if h : cond = 1#1 then (do Prog.lift (e₁ h); Prog.lift (e₂ h); k) else k) Q := by
  by_cases h : cond = 1#1
  · rw [dif_pos h]
    have hcj := hcond.mp h
    have hjc : j ≠ c := Ne.symm hcj
    have hjR := hj hcj
    obtain ⟨hsrc₁, hdst₁, heq₁⟩ := he₁ h
    obtain ⟨hsrc₂, hdst₂, heq₂⟩ := he₂ h
    rw [heq₁, heq₂]
    simp only [Prog.lift, Prog.bind_op, Prog.bind_ret]
    unfold WaitSt
    rw [bigSep_take hjR]
    have hjo : j ∈ others c := hR hjR
    have hnot : j ∉ others c \ R := fun hh => (Finset.mem_sdiff.mp hh).2 hjR
    rw [sdiff_erase_insert hjo (R := R), bigSep_put hnot]
    iintro ⟨#Hrec, ⟨⟨%W, HO⟩, ⟨⟨HcS, HcR, HaS, HaR⟩, Hb⟩, Hdone⟩, Hk⟩
    -- the departure: the share of the source row comes back
    iapply (Rounds.wp_wait_rest_token 𝒱₀ ER (Rd m ρ) (c : Thread nD τ) none (κ := K (c, some (false, j)))
        (wpE_waitDma2_eq 𝒱₀ (c : Thread nD τ) none Set.univ) (Set.mem_univ _) () (O := 0) (W := W) (R := 0) (m := 0) (T := ∅)
        (by rw [Nat.zero_add, expect_send m ρ c j hjc])) $$ [HcS HO HaS]
    · isplitr; · iapply (inv_at m ρ K (c, some (false, j))); iexact Hrec
      isplitl [HcS]; · iexact HcS
      isplitl [HO]; · iexact HO
      isplitr; · rw [MayWait_zero]; iempintro
      iexact HaS
    iintro ⟨HO, HaS, -, Hpay⟩
    ihave Hsrc := (Entails.of_eq (rest_send m ρ c j hjc)) $$ Hpay
    -- the arrival: row `j`, filled
    iapply (Rounds.wp_wait_rest_token 𝒱₀ ER (Rd m ρ) (c : Thread nD τ) none (κ := K (c, some (true, j)))
        (wpE_waitDma2_eq 𝒱₀ (c : Thread nD τ) none Set.univ) (Set.mem_univ _) () (O := 0) (W := insert (SemLoc.dma (sendS j), ()) W) (R := 0) (m := 0) (T := ∅)
        (by rw [Nat.zero_add, expect_recv m ρ c j hjc])) $$ [HcR HO HaR]
    · isplitr; · iapply (inv_at m ρ K (c, some (true, j))); iexact Hrec
      isplitl [HcR]; · iexact HcR
      isplitl [HO]; · iexact HO
      isplitr; · rw [MayWait_zero]; iempintro
      iexact HaR
    iintro ⟨HO, HaR, -, Hpay⟩
    ihave Hrow := (Entails.of_eq (rest_recv m ρ c j hjc)) $$ Hpay
    -- both cells close
    imod (Rounds.cell_close ER (Rd m ρ) (Set.mem_univ (K (c, some (false, j)))) (fun hh => hh) (R := 0 + 1) (duties_later m ρ (sendCell c j))) $$ [HaS] with HzS
    · isplitr; · iapply (inv_at m ρ K (c, some (false, j))); iexact Hrec
      iexact HaS
    imod (Rounds.cell_close ER (Rd m ρ) (Set.mem_univ (K (c, some (true, j)))) (fun hh => hh) (R := 0 + 1) (duties_later m ρ (recvCell c j))) $$ [HaR] with HzR
    · isplitr; · iapply (inv_at m ρ K (c, some (true, j))); iexact Hrec
      iexact HaR
    iapply Hk
    isplitl [HO]; · iexists _; iexact HO
    isplitl [Hb]; · iexact Hb
    isplitr [Hdone]
    · unfold sendPay recvPay
      isplitl [Hsrc]; · iexact Hsrc
      isplitl [Hrow]; · iexact Hrow
      isplitl [HzS]; · iexact HzS
      iexact HzR
    · iexact Hdone
  · rw [dif_neg h]
    have hcj : c = j := by by_contra hne; exact h (hcond.mpr hne)
    have hjn : j ∉ R := fun hjR => (Finset.mem_erase.mp (hR hjR)).1 hcj.symm
    rw [Finset.erase_eq_of_notMem hjn]
    iintro ⟨-, HS, Hk⟩
    iapply Hk; iexact HS

/-! ## The printed operations, respelt over the rows and semaphores by device -/

theorem enq_eq (c j : Dev nD) (off3 : Fin 2 → ℕ) (ho3 : off3 = ![c.val, 0]) (p3 : ∀ a, off3 a + S1x512.size a ≤ S8x512.size a)
    (off2 : Fin 1 → ℕ) (ho2 : off2 = ![c.val]) (p2 : ∀ a, off2 a + S1.size a ≤ S8.size a)
    (dv : ℕ) (hdv : dv = j.val) (hlt : dv < nD) (offj : Fin 1 → ℕ) (hoj : offj = ![j.val]) (pj : ∀ a, offj a + S1.size a ≤ S8.size a)
    (hsc) (hsrc) (hdst) (hsem) :
    ∃ hsc' hsrc' hdst' hsem',
      (TpuEff.enqueueDma (aM.slice (Rect.unit (s := S8x512) off3 S1x512.size p3) (fun _ => rfl))
          (.remote (Dev.tc (⟨dv, hlt⟩ : Dev nD)) (aM.slice (Rect.unit (s := S8x512) off3 S1x512.size p3) (fun _ => rfl))
            (.dma ((cc0_scratch1.slice (Rect.unit (s := S8) offj S1.size pj)).squeeze S_ squeezes_S1_S_).sem) hsc)
          (.dma ((cc0_scratch2.slice (Rect.unit (s := S8) off2 S1.size p2)).squeeze S_ squeezes_S1_S_).sem) hsrc hdst hsem
        : TpuEff nD τ sig (Elt F) Λ₀ .tc PUnit)
      = TpuEff.enqueueDma (rowM c : Memref sig .tc .vmem S1x512 .f32)
          (.remote (Dev.tc j : Thread nD τ) (rowM c : Memref sig .tc .vmem S1x512 .f32) (.dma (sendS j)) hsc') (.dma (recvS c)) hsrc' hdst' hsem' := by
  subst ho3 ho2 hdv hoj
  exact ⟨_, _, _, _, rfl⟩

theorem waitS_eq (j : Dev nD) (offj : Fin 1 → ℕ) (hoj : offj = ![j.val]) (pj : ∀ a, offj a + S1.size a ≤ S8.size a)
    (offr : Fin 2 → ℕ) (hr : offr = ![j.val, 0]) (pr : ∀ a, offr a + S1x512.size a ≤ S8x512.size a) (hsrc) (hdst) :
    ∃ hsrc' hdst',
      (TpuEff.waitDma2 (p := Proc.tc) ((cc0_scratch1.slice (Rect.unit (s := S8) offj S1.size pj)).squeeze S_ squeezes_S1_S_).sem
          (aM.slice (Rect.unit (s := S8x512) offr S1x512.size pr) (fun _ => rfl)) (aM.slice (Rect.unit (s := S8x512) offr S1x512.size pr) (fun _ => rfl)) hsrc hdst
        : TpuEff nD τ sig (Elt F) Λ₀ .tc PUnit)
      = TpuEff.waitDma2 (p := Proc.tc) (sendS j) (rowM j : Memref sig .tc .vmem S1x512 .f32) (rowM j : Memref sig .tc .vmem S1x512 .f32) hsrc' hdst' := by
  subst hoj hr
  exact ⟨_, _, rfl⟩

theorem waitR_eq (j : Dev nD) (offj : Fin 1 → ℕ) (hoj : offj = ![j.val]) (pj : ∀ a, offj a + S1.size a ≤ S8.size a)
    (offr : Fin 2 → ℕ) (hr : offr = ![j.val, 0]) (pr : ∀ a, offr a + S1x512.size a ≤ S8x512.size a) (hsrc) (hdst) :
    ∃ hsrc' hdst',
      (TpuEff.waitDma2 (p := Proc.tc) ((cc0_scratch2.slice (Rect.unit (s := S8) offj S1.size pj)).squeeze S_ squeezes_S1_S_).sem
          (aM.slice (Rect.unit (s := S8x512) offr S1x512.size pr) (fun _ => rfl)) (aM.slice (Rect.unit (s := S8x512) offr S1x512.size pr) (fun _ => rfl)) hsrc hdst
        : TpuEff nD τ sig (Elt F) Λ₀ .tc PUnit)
      = TpuEff.waitDma2 (p := Proc.tc) (recvS j) (rowM j : Memref sig .tc .vmem S1x512 .f32) (rowM j : Memref sig .tc .vmem S1x512 .f32) hsrc' hdst' := by
  subst hoj hr
  exact ⟨_, _, rfl⟩

end Cert.KernelIdeal.Xchg

end
-- ==== Proof.Regroup.lean ====
/-
  Regroupings of what a device starts from.

  A device's cells are indexed by nothing (its barrier cell) or by a flag and another device (a send or a receive
  cell). A conjunction over all of them is therefore the barrier cell's conjunct, the eight send cells' and the
  eight receive cells'; the sixteen semaphores of the kernel's own two arrays are the eight send and the eight
  receive semaphores; and a conjunction of triples over the other seven devices is three conjunctions.
-/
import proofs.«900941_g7700000000000942_dist_mean_ax0_shard0_i_m1024_n512_v7x_i8_f32_1_alg».proof.Proof.Sched

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over an optional index, and over a flag and a device -/

/-- A conjunction over `Option X`: the conjunct at `none`, and the conjunction over `X`. -/
theorem bigSep_univ_option {M : Type} [URA M] {X : Type} [Fintype X] (Φ : Option X → sProp M) :
    bigSep Finset.univ Φ = iprop(Φ none ∗ bigSep Finset.univ fun x : X => Φ (some x)) := by
  classical
  have h : (Finset.univ : Finset (Option X)).erase none = Finset.univ.map Function.Embedding.some := by
    ext o
    cases o <;> simp
  rw [bigSep_univ_split none, h, bigSep_map]
  rfl

/-- A conjunction over a flag and a device: the devices' conjunction at `false`, and at `true`. -/
theorem bigSep_univ_flag {M : Type} [URA M] (Φ : Bool × Dev nD → sProp M) :
    bigSep Finset.univ Φ
      = iprop((bigSep Finset.univ fun k : Dev nD => Φ (false, k)) ∗ bigSep Finset.univ fun k : Dev nD => Φ (true, k)) := by
  rw [bigSep_univ_prod, bigSep_univ_eq_bigSepL [false, true] (by decide) (by decide)]
  rfl

/-! ## The three regroupings -/

omit [FloatOps F] in
/-- A device at the start of every one of its cells: of its barrier cell, its send cells, its receive cells. -/
theorem positions_split (c : Dev nD) :
    positions (F := F) c
      = iprop(atPos ER (barCell c) 0 ∅ 0
          ∗ (bigSep Finset.univ fun k : Dev nD => atPos ER (sendCell c k) 0 ∅ 0)
          ∗ (bigSep Finset.univ fun k : Dev nD => atPos ER (recvCell c k) 0 ∅ 0)) := by
  unfold positions
  rw [bigSep_univ_option, bigSep_univ_flag]

omit [FloatOps F] in
/-- The kernel's sixteen own semaphores at zero: the eight send and the eight receive semaphores. -/
theorem ownSems_join (c : Dev nD) :
    iprop((bigSep Finset.univ fun k : Dev nD => semVal (sendCell c k) 0)
        ∗ (bigSep Finset.univ fun k : Dev nD => semVal (recvCell c k) 0))
      = (Pipeline.ownSems0 (Ix := Unit) (Name := ℕ) (U := UU) (Lvl := ℕ) (Val := Elt F) (τ := τ) osem c : sProp 𝕄) := by
  unfold Pipeline.ownSems0
  rw [bigSep_univ_flag]

omit [FloatOps F] in
/-- The tokens a device pays with, kind by kind: the barrier units, the arrivals, the departures. -/
theorem payToks_split (c : Dev nD) :
    payToks (F := F) c
      = iprop((bigSep (others c) fun k => dutyTok ER (barCell k) 0 c)
          ∗ (bigSep (others c) fun k => dutyTok ER (recvCell k c) 0 c)
          ∗ (bigSep (others c) fun k => dutyTok ER (sendCell c k) 0 k)) := by
  unfold payToks
  rw [bigSep_sep', bigSep_sep']

end Cert.KernelIdeal.Xchg

end
-- ==== Proof.Facts.lean ====
/-
  Decided facts about the integer conditions the kernel computes from a device's number, and about the set of the
  other devices with every device taken out.
-/
import proofs.«900941_g7700000000000942_dist_mean_ax0_shard0_i_m1024_n512_v7x_i8_f32_1_alg».proof.Proof.Sched

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The signalling conditions: device c signals device j, and copies to it, exactly when c is not j -/

theorem cond1_iff (c : Dev nD) : k0_cond1 c = 1#1 ↔ c ≠ (0 : Dev nD) := by revert c; decide
theorem cond2_iff (c : Dev nD) : k0_cond2 c = 1#1 ↔ c ≠ (1 : Dev nD) := by revert c; decide
theorem cond3_iff (c : Dev nD) : k0_cond3 c = 1#1 ↔ c ≠ (2 : Dev nD) := by revert c; decide
theorem cond4_iff (c : Dev nD) : k0_cond4 c = 1#1 ↔ c ≠ (3 : Dev nD) := by revert c; decide
theorem cond5_iff (c : Dev nD) : k0_cond5 c = 1#1 ↔ c ≠ (4 : Dev nD) := by revert c; decide
theorem cond6_iff (c : Dev nD) : k0_cond6 c = 1#1 ↔ c ≠ (5 : Dev nD) := by revert c; decide
theorem cond7_iff (c : Dev nD) : k0_cond7 c = 1#1 ↔ c ≠ (6 : Dev nD) := by revert c; decide
theorem cond8_iff (c : Dev nD) : k0_cond8 c = 1#1 ↔ c ≠ (7 : Dev nD) := by revert c; decide
theorem cond9_iff (c : Dev nD) : k0_cond9 c = 1#1 ↔ c ≠ (0 : Dev nD) := by revert c; decide
theorem cond10_iff (c : Dev nD) : k0_cond10 c = 1#1 ↔ c ≠ (1 : Dev nD) := by revert c; decide
theorem cond11_iff (c : Dev nD) : k0_cond11 c = 1#1 ↔ c ≠ (2 : Dev nD) := by revert c; decide
theorem cond12_iff (c : Dev nD) : k0_cond12 c = 1#1 ↔ c ≠ (3 : Dev nD) := by revert c; decide
theorem cond13_iff (c : Dev nD) : k0_cond13 c = 1#1 ↔ c ≠ (4 : Dev nD) := by revert c; decide
theorem cond14_iff (c : Dev nD) : k0_cond14 c = 1#1 ↔ c ≠ (5 : Dev nD) := by revert c; decide
theorem cond15_iff (c : Dev nD) : k0_cond15 c = 1#1 ↔ c ≠ (6 : Dev nD) := by revert c; decide
theorem cond16_iff (c : Dev nD) : k0_cond16 c = 1#1 ↔ c ≠ (7 : Dev nD) := by revert c; decide

/-! ## The waiting conditions: device c waits for device j's copy exactly when c is not j -/

theorem wcond0_iff (c : Dev nD) :
    Scalar.cmpi .ne (Scalar.extui (Scalar.cmpi .ne (Scalar.remsi (Scalar.divsi (Dev.word c) 1#32) 8#32) 0#32)) 0#32 = 1#1 ↔ c ≠ (0 : Dev nD) := by
  revert c; decide
theorem wcond1_iff (c : Dev nD) :
    Scalar.cmpi .ne (Scalar.extui (Scalar.cmpi .ne (Scalar.remsi (Scalar.divsi (Dev.word c) 1#32) 8#32) 1#32)) 0#32 = 1#1 ↔ c ≠ (1 : Dev nD) := by
  revert c; decide
theorem wcond2_iff (c : Dev nD) :
    Scalar.cmpi .ne (Scalar.extui (Scalar.cmpi .ne (Scalar.remsi (Scalar.divsi (Dev.word c) 1#32) 8#32) 2#32)) 0#32 = 1#1 ↔ c ≠ (2 : Dev nD) := by
  revert c; decide
theorem wcond3_iff (c : Dev nD) :
    Scalar.cmpi .ne (Scalar.extui (Scalar.cmpi .ne (Scalar.remsi (Scalar.divsi (Dev.word c) 1#32) 8#32) 3#32)) 0#32 = 1#1 ↔ c ≠ (3 : Dev nD) := by
  revert c; decide
theorem wcond4_iff (c : Dev nD) :
    Scalar.cmpi .ne (Scalar.extui (Scalar.cmpi .ne (Scalar.remsi (Scalar.divsi (Dev.word c) 1#32) 8#32) 4#32)) 0#32 = 1#1 ↔ c ≠ (4 : Dev nD) := by
  revert c; decide
theorem wcond5_iff (c : Dev nD) :
    Scalar.cmpi .ne (Scalar.extui (Scalar.cmpi .ne (Scalar.remsi (Scalar.divsi (Dev.word c) 1#32) 8#32) 5#32)) 0#32 = 1#1 ↔ c ≠ (5 : Dev nD) := by
  revert c; decide
theorem wcond6_iff (c : Dev nD) :
    Scalar.cmpi .ne (Scalar.extui (Scalar.cmpi .ne (Scalar.remsi (Scalar.divsi (Dev.word c) 1#32) 8#32) 6#32)) 0#32 = 1#1 ↔ c ≠ (6 : Dev nD) := by
  revert c; decide
theorem wcond7_iff (c : Dev nD) :
    Scalar.cmpi .ne (Scalar.extui (Scalar.cmpi .ne (Scalar.remsi (Scalar.divsi (Dev.word c) 1#32) 8#32) 7#32)) 0#32 = 1#1 ↔ c ≠ (7 : Dev nD) := by
  revert c; decide

/-! ## The other devices, taken out one by one -/

/-- Taking every device out of the set of the other devices leaves nothing. -/
theorem others_erase_all (c : Dev nD) :
    ((((((((others c).erase 0).erase 1).erase 2).erase 3).erase 4).erase 5).erase 6).erase 7 = ∅ := by
  revert c; decide

theorem others_sub (c : Dev nD) : others c ⊆ others c := Finset.Subset.refl _

/-- Taking a device out of a subset leaves a subset. -/
theorem erase_sub {S R : Finset (Dev nD)} (h : R ⊆ S) (j : Dev nD) : R.erase j ⊆ S := (Finset.erase_subset _ _).trans h

end Cert.KernelIdeal.Xchg

end
-- ==== Proof.Body.lean ====
/-
  One device's kernel body, from what the launch hands it to what it hands back: the seven entry signals, the
  device's own partial sums, the wait for the other seven devices, the seven copies, the fourteen waits, and the
  reduction of the gathered rows.
-/
import proofs.«900941_g7700000000000942_dist_mean_ax0_shard0_i_m1024_n512_v7x_i8_f32_1_alg».proof.Proof.Steps
import proofs.«900941_g7700000000000942_dist_mean_ax0_shard0_i_m1024_n512_v7x_i8_f32_1_alg».proof.Proof.Regroup
import proofs.«900941_g7700000000000942_dist_mean_ax0_shard0_i_m1024_n512_v7x_i8_f32_1_alg».proof.Proof.Facts

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem memE0 (c : Dev nD) : c ≠ (0 : Dev nD) → (0 : Dev nD) ∈ (others c) := by revert c; decide
theorem notE0 (c : Dev nD) : c ∉ (others c) := by revert c; decide
theorem subE0 (c : Dev nD) : (others c) ⊆ others c := by revert c; decide
theorem memE1 (c : Dev nD) : c ≠ (1 : Dev nD) → (1 : Dev nD) ∈ ((others c).erase 0) := by revert c; decide
theorem notE1 (c : Dev nD) : c ∉ ((others c).erase 0) := by revert c; decide
theorem subE1 (c : Dev nD) : ((others c).erase 0) ⊆ others c := by revert c; decide
theorem memE2 (c : Dev nD) : c ≠ (2 : Dev nD) → (2 : Dev nD) ∈ (((others c).erase 0).erase 1) := by revert c; decide
theorem notE2 (c : Dev nD) : c ∉ (((others c).erase 0).erase 1) := by revert c; decide
theorem subE2 (c : Dev nD) : (((others c).erase 0).erase 1) ⊆ others c := by revert c; decide
theorem memE3 (c : Dev nD) : c ≠ (3 : Dev nD) → (3 : Dev nD) ∈ ((((others c).erase 0).erase 1).erase 2) := by revert c; decide
theorem notE3 (c : Dev nD) : c ∉ ((((others c).erase 0).erase 1).erase 2) := by revert c; decide
theorem subE3 (c : Dev nD) : ((((others c).erase 0).erase 1).erase 2) ⊆ others c := by revert c; decide
theorem memE4 (c : Dev nD) : c ≠ (4 : Dev nD) → (4 : Dev nD) ∈ (((((others c).erase 0).erase 1).erase 2).erase 3) := by revert c; decide
theorem notE4 (c : Dev nD) : c ∉ (((((others c).erase 0).erase 1).erase 2).erase 3) := by revert c; decide
theorem subE4 (c : Dev nD) : (((((others c).erase 0).erase 1).erase 2).erase 3) ⊆ others c := by revert c; decide
theorem memE5 (c : Dev nD) : c ≠ (5 : Dev nD) → (5 : Dev nD) ∈ ((((((others c).erase 0).erase 1).erase 2).erase 3).erase 4) := by revert c; decide
theorem notE5 (c : Dev nD) : c ∉ ((((((others c).erase 0).erase 1).erase 2).erase 3).erase 4) := by revert c; decide
theorem subE5 (c : Dev nD) : ((((((others c).erase 0).erase 1).erase 2).erase 3).erase 4) ⊆ others c := by revert c; decide
theorem memE6 (c : Dev nD) : c ≠ (6 : Dev nD) → (6 : Dev nD) ∈ (((((((others c).erase 0).erase 1).erase 2).erase 3).erase 4).erase 5) := by revert c; decide
theorem notE6 (c : Dev nD) : c ∉ (((((((others c).erase 0).erase 1).erase 2).erase 3).erase 4).erase 5) := by revert c; decide
theorem subE6 (c : Dev nD) : (((((((others c).erase 0).erase 1).erase 2).erase 3).erase 4).erase 5) ⊆ others c := by revert c; decide
theorem memE7 (c : Dev nD) : c ≠ (7 : Dev nD) → (7 : Dev nD) ∈ ((((((((others c).erase 0).erase 1).erase 2).erase 3).erase 4).erase 5).erase 6) := by revert c; decide
theorem notE7 (c : Dev nD) : c ∉ ((((((((others c).erase 0).erase 1).erase 2).erase 3).erase 4).erase 5).erase 6) := by revert c; decide
theorem subE7 (c : Dev nD) : ((((((((others c).erase 0).erase 1).erase 2).erase 3).erase 4).erase 5).erase 6) ⊆ others c := by revert c; decide

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f

theorem fetch_0 (t : Fin cfg0.N) : (cfg0.win (0 : Fin 2)).fetch t = true := by rw [fin_N t]; rfl

/-- The entry signals start from what the launch dealt. -/
theorem SigSt_intro (c : Dev nD) (W : Waits sig Unit) (f0 : Buf (Elt F) ((c : Thread nD τ).loc cc0_scratch0)) :
    iprop(owes (c : Thread nD τ) (O₀ c) W ∗ (bigSep (others c) fun k => dutyTok ER (barCell k) 0 c)
        ∗ bigSep (others c) fun k => rowPts (F := F) c k fullShare f0)
      ⊢ SigSt (F := F) c (others c) W := by
  unfold SigSt O₀
  rw [bigSep_sep']
  iintro ⟨HO, Ht, Hr⟩
  isplitl [HO]; · iexact HO
  isplitl [Ht]; · iexact Ht
  iapply (show bigSep (others c) (fun k => rowPts (F := F) c k fullShare f0) ⊢ bigSep (others c) (fun k => iprop(∃ f, rowPts (F := F) c k fullShare f))
    from bigSep_mono fun k _ => exists_intro (Φ := fun f => rowPts (F := F) c k fullShare f) f0)
  iexact Hr

/-- The device reads row `c` of its gather buffer and overwrites it with its partial sums. -/
theorem store_row (c : Dev nD) (off : Fin 2 → ℕ) (hoff : off = ![c.val, 0]) (p : ∀ a, off a + S1x512.size a ≤ S8x512.size a)
    (f0 : Buf (Elt F) ((c : Thread nD τ).loc cc0_scratch0)) (w : Vec F S1x512 .f32) {hl} {hx} {hm} (Q : PUnit → sProp 𝕄) :
    iprop(rowPts (F := F) c c fullShare f0
        ∗ (rowPts (F := F) c c fullShare ((rowM c : Memref sig .tc .vmem S1x512 .f32).view.write (Elt F) f0 w Finset.univ) -∗ Q ⟨⟩))
      ⊢ wp frame (wpE (defs₀ (F := F)) 𝒱₀ c none) Set.univ
          (Prog.op (TpuEff.load (aM : Memref sig .tc .vmem S8x512 .f32) (Rect.unit (s := S8x512) off S1x512.size p).toLoadRect hl) Prog.ret)
          fun _ => wp frame (wpE (defs₀ (F := F)) 𝒱₀ c none) Set.univ
            (Prog.op (TpuEff.store (aM : Memref sig .tc .vmem S8x512 .f32) (Rect.unit (s := S8x512) off S1x512.size p) w Finset.univ hx hm) Prog.ret) Q := by
  subst hoff
  unfold rowPts
  iintro ⟨Hrow, Hk⟩
  iapply (wp_load_rect 𝒱₀ (c : Thread nD τ) none Set.univ (m := aM) (r := Rect.unit (s := S8x512) ![c.val, 0] S1x512.size p)
    (Finset.Subset.refl _)) $$ Hrow
  iintro Hrow
  rw [wp_ret]; imodintro
  iapply (wp_store 𝒱₀ (c : Thread nD τ) none Set.univ (m := aM) (r := Rect.unit (s := S8x512) ![c.val, 0] S1x512.size p) (Mk := Finset.univ)
    (S := ((aM : Memref sig .tc .vmem S8x512 .f32).access (Rect.unit (s := S8x512) ![c.val, 0] S1x512.size p)).set) (Finset.Subset.refl _)) $$ Hrow
  iintro Hrow
  rw [wp_ret]; imodintro
  iapply Hk; iexact Hrow

/-- The wait for the other seven devices' units. -/
theorem bar_wait (K : Dev nD × CI → ℕ) (c : Dev nD) (W : Waits sig Unit) (hamt : (7#32 : BitVec 32).msb = false) (Q : PUnit → sProp 𝕄) :
    iprop(records m ρ K ∗ levAts L lv ∗ cred (tallyAt (barCell c) () 7) ∗ owes (c : Thread nD τ) (Orecv c (others c)) W ∗ atPos ER (barCell c) 0 ∅ 0
        ∗ ((owes (c : Thread nD τ) (Orecv c (others c)) (insert (SemLoc.reg barS, ()) W) ∗ bigSep (others c) (fun d => barPay (F := F) c d)) -∗ Q ⟨⟩))
      ⊢ wp frame (wpE (defs₀ (F := F)) 𝒱₀ c none) Set.univ (semWaitWord barS 7#32 hamt) Q := by
  simp only [semWaitWord, Prog.lift]
  iintro ⟨#Hrec, #Hlev, Hc, HO, Hat, Hk⟩
  iapply (Rounds.wp_wait_rest_token 𝒱₀ ER (Rd m ρ) (c : Thread nD τ) none (κ := K (c, none))
      (wpE_semWait_eq 𝒱₀ (c : Thread nD τ) none Set.univ) (Set.mem_univ _) () (O := Orecv c (others c)) (W := W) (R := 0) (m := 0) (T := ∅)
      (by rw [expect_bar]; decide)) $$ [Hc HO Hat]
  · isplitr; · iapply (inv_at m ρ K (c, none)); iexact Hrec
    isplitl [Hc]; · iexact Hc
    isplitl [HO]; · iexact HO
    isplitr; · iapply (mayWait_bar c (others c)); iexact Hlev
    iexact Hat
  iintro ⟨HO, -, -, Hpay⟩
  ihave Hp := (Entails.of_eq (rest_bar m ρ c)) $$ Hpay
  rw [wp_ret]; imodintro
  iapply Hk
  isplitl [HO]; · iexact HO
  iexact Hp

theorem barPay_row (c d : Dev nD) : barPay (F := F) c d ⊢ iprop(∃ f, rowPts (F := F) d c fullShare f) := by
  unfold barPay; iintro ⟨H, -⟩; iexact H

/-- Row `c` after the store holds what the gathered buffer holds there. -/
theorem rowc_acc (c : Dev nD) (f0 : Buf (Elt F) ((c : Thread nD τ).loc cc0_scratch0)) :
    rowPts (F := F) c c fullShare ((rowM c : Memref sig .tc .vmem S1x512 .f32).view.write (Elt F) f0 (Spec.psum (xstg m ρ c)) Finset.univ)
      = rowPts (F := F) c c fullShare (accAll m ρ) := by
  unfold rowPts
  exact pointsTo_congr fun i hi => row_store_acc m ρ c f0 i (rowM_set c ▸ hi)

/-- The copies start from the tokens, the shares of row `c` and the rows the other devices handed over. -/
theorem SendSt_intro (c : Dev nD) (W : Waits sig Unit) :
    iprop(owes (c : Thread nD τ) (Orecv c (others c)) W ∗ (bigSep (others c) fun k => dutyTok ER (recvCell k c) 0 c)
        ∗ (bigSep (others c) fun k => dutyTok ER (sendCell c k) 0 k)
        ∗ (bigSep (others c) fun k => rowPts (F := F) c c (pieceShare k.val) (accAll m ρ))
        ∗ bigSep (others c) (fun d => barPay (F := F) c d))
      ⊢ SendSt m ρ c (others c) W := by
  unfold SendSt
  rw [Finset.sdiff_self, bigSep_empty, bigSep_sep', bigSep_sep', bigSep_sep']
  iintro ⟨HO, H1, H2, H3, H4⟩
  isplitl [HO]; · iexact HO
  isplitl [H1 H2 H3 H4]
  · isplitl [H1]; · iexact H1
    isplitl [H2]; · iexact H2
    isplitl [H3]; · iexact H3
    iapply (show bigSep (others c) (fun d => barPay (F := F) c d) ⊢ bigSep (others c) (fun k => iprop(∃ f, rowPts (F := F) k c fullShare f))
      from bigSep_mono fun k _ => barPay_row c k)
    iexact H4
  · iempintro

/-- The waits start from the credit of both cells of every other device and the positions at their start. -/
theorem WaitSt_intro (c : Dev nD) (W : Waits sig Unit) :
    iprop(owes (c : Thread nD τ) 0 W ∗ (bigSep (others c) fun k => cred (tallyAt (sendCell c k) () N))
        ∗ (bigSep (others c) fun k => cred (tallyAt (recvCell c k) () N))
        ∗ (bigSep (others c) fun k => atPos ER (sendCell c k) 0 ∅ 0)
        ∗ (bigSep (others c) fun k => atPos ER (recvCell c k) 0 ∅ 0))
      ⊢ WaitSt m ρ c (others c) := by
  unfold WaitSt
  rw [Finset.sdiff_self, bigSep_empty, bigSep_sep', bigSep_sep', bigSep_sep']
  iintro ⟨HO, H1, H2, H3, H4⟩
  isplitl [HO]; · iexists W; iexact HO
  isplitl [H1 H2 H3 H4]
  · isplitl [H1]; · iexact H1
    isplitl [H2]; · iexact H2
    isplitl [H3]; · iexact H3
    iexact H4
  · iempintro

omit [FloatOps F] in
theorem read_acc (f : (cc0_scratch0 : Ref sig .tc).ty.Contents (Elt F)) :
    (aM : Memref sig .tc .vmem S8x512 .f32).view.readAt (Elt F) (Rect.unit (s := S8x512) ![0, 0] S8x512.size inb_S8x512_S8x512_0_0).toLoadRect f = f :=
  Memref.readAt_unit_zero (Elt F) cc0_scratch0 hz2 _ f
omit [FloatOps F] in
theorem write_out (f w : (cc0_stg1_0 : Ref sig .tc).ty.Contents (Elt F)) :
    ((oM : Memref sig .tc .vmem S1x512 .f32).access (Rect.unit (s := S1x512) ![0, 0] S1x512.size inb_S1x512_S1x512_0_0) : View sig .tc _ _ _).write (Elt F) f w Finset.univ = w :=
  Memref.write_access_unit_zero_univ (Elt F) cc0_stg1_0 hz2 _ f w

set_option maxHeartbeats 3200000 in
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  rw [wp_bind]; delta k0_part1; rw [wp_bind]
  simp only [Prog.lift, wp_deviceId, wp_ret]
  unfold bodyPre ghost launchCreds
  rw [positions_split, payToks_split]
  iintro ⟨⟨⟨⟨#Hrec, ⟨HaB, HaS, HaR⟩, ⟨HtB, HtR, HtS⟩⟩, ⟨HcB, HcR⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  imodintro
  ihave Hrows := (Entails.of_eq (scr_rows c f0)) $$ Hscr
  ihave Hrows := (Entails.of_eq (bigSep_univ_others c _)) $$ Hrows
  icases Hrows with ⟨Hrowc, Hrows⟩
  ihave HS := (SigSt_intro c W f0) $$ [HO HtB Hrows]
  · isplitl [HO]; · iexact HO
    isplitl [HtB]; · iexact HtB
    iexact Hrows
  iapply (sig_step m ρ K c 0 (k0_cond1 c) (cond1_iff c) k0_dev1 k0_dev1_eq (k0_dev1_lt c) hamt_1 _ (memE0 c) (notE0 c) W)
  isplitr; · iexact Hrec
  isplitl [HS]; · iexact HS
  iintro HS
  iapply (sig_step m ρ K c 1 (k0_cond2 c) (cond2_iff c) k0_dev2 k0_dev2_eq (k0_dev2_lt c) hamt_1 _ (memE1 c) (notE1 c) W)
  isplitr; · iexact Hrec
  isplitl [HS]; · iexact HS
  iintro HS
  iapply (sig_step m ρ K c 2 (k0_cond3 c) (cond3_iff c) k0_dev3 k0_dev3_eq (k0_dev3_lt c) hamt_1 _ (memE2 c) (notE2 c) W)
  isplitr; · iexact Hrec
  isplitl [HS]; · iexact HS
  iintro HS
  iapply (sig_step m ρ K c 3 (k0_cond4 c) (cond4_iff c) k0_dev4 k0_dev4_eq (k0_dev4_lt c) hamt_1 _ (memE3 c) (notE3 c) W)
  isplitr; · iexact Hrec
  isplitl [HS]; · iexact HS
  iintro HS
  iapply (sig_step m ρ K c 4 (k0_cond5 c) (cond5_iff c) k0_dev5 k0_dev5_eq (k0_dev5_lt c) hamt_1 _ (memE4 c) (notE4 c) W)
  isplitr; · iexact Hrec
  isplitl [HS]; · iexact HS
  iintro HS
  iapply (sig_step m ρ K c 5 (k0_cond6 c) (cond6_iff c) k0_dev6 k0_dev6_eq (k0_dev6_lt c) hamt_1 _ (memE5 c) (notE5 c) W)
  isplitr; · iexact Hrec
  isplitl [HS]; · iexact HS
  iintro HS
  iapply (sig_step m ρ K c 6 (k0_cond7 c) (cond7_iff c) k0_dev7 k0_dev7_eq (k0_dev7_lt c) hamt_1 _ (memE6 c) (notE6 c) W)
  isplitr; · iexact Hrec
  isplitl [HS]; · iexact HS
  iintro HS
  iapply (sig_step m ρ K c 7 (k0_cond8 c) (cond8_iff c) k0_dev8 k0_dev8_eq (k0_dev8_lt c) hamt_1 _ (memE7 c) (notE7 c) W)
  isplitr; · iexact Hrec
  isplitl [HS]; · iexact HS
  iintro HS
  rw [others_erase_all]
  unfold SigSt Obar
  rw [Finset.sum_empty, add_zero, bigSep_empty]
  icases HS with ⟨HO, -⟩
  -- the device's own block: its column sums
  simp only [Prog.bind_op, Prog.bind_ret, Prog.pure_eq_ret]
  iapply (wp_load 𝒱₀ (c : Thread nD τ) none Set.univ (m := xM) (Finset.subset_univ _)) $$ Hx; iintro Hx
  rw [read_x, wp_ret]
  imodintro
  dsimp only
  rw [wp_bind]; delta k0_part2; simp only [wp_bind, Prog.lift]
  iapply (store_row c (k0_off1 c) (k0_off1_eq c) (k0_off1_inb c) f0 (Spec.psum (xstg m ρ c)))
  isplitl [Hrowc]; · iexact Hrowc
  iintro Hrowc
  iapply (bar_wait m ρ K c W hamt_7)
  isplitr; · iexact Hrec
  isplitr; · iexact Hlev
  isplitl [HcB]; · iexact HcB
  isplitl [HO]; · iexact HO
  isplitl [HaB]; · iexact HaB
  iintro ⟨HO, Hbar⟩
  -- row `c` holds the partial sums; its share is dealt to the seven copies
  ihave Hrowc := (Entails.of_eq (rowc_acc m ρ c f0)) $$ Hrowc
  ihave Hsh := (Entails.of_eq (row_shares c c (accAll m ρ))) $$ Hrowc
  icases Hsh with ⟨Hpieces, Hrest⟩
  ihave Hpieces := (Entails.of_eq (bigSep_univ_others c _)) $$ Hpieces
  icases Hpieces with ⟨Hpc, Hpieces⟩
  ihave HS := (SendSt_intro m ρ c _) $$ [HO HtR HtS Hpieces Hbar]
  · isplitl [HO]; · iexact HO
    isplitl [HtR]; · iexact HtR
    isplitl [HtS]; · iexact HtS
    isplitl [Hpieces]; · iexact Hpieces
    iexact Hbar
  iapply (send_step m ρ K c 0 (k0_cond9 c) (cond9_iff c) _
    (fun h => enq_eq c 0 (k0_off3 c) (k0_off3_eq c) (k0_off3_inb c h) (k0_off2 c) (k0_off2_eq c) (k0_off2_inb c h)
      k0_dev9 k0_dev9_eq (k0_dev9_lt c h) ![0] rfl inb_S8_S1_0 _ _ _ _) _ (subE0 c) (memE0 c) _)
  isplitr; · iexact Hrec
  isplitl [HS]; · iexact HS
  iintro HS
  iapply (send_step m ρ K c 1 (k0_cond10 c) (cond10_iff c) _
    (fun h => enq_eq c 1 (k0_off5 c) (k0_off5_eq c) (k0_off5_inb c h) (k0_off4 c) (k0_off4_eq c) (k0_off4_inb c h)
      k0_dev10 k0_dev10_eq (k0_dev10_lt c h) ![1] rfl inb_S8_S1_1 _ _ _ _) _ (subE1 c) (memE1 c) _)
  isplitr; · iexact Hrec
  isplitl [HS]; · iexact HS
  iintro HS
  iapply (send_step m ρ K c 2 (k0_cond11 c) (cond11_iff c) _
    (fun h => enq_eq c 2 (k0_off7 c) (k0_off7_eq c) (k0_off7_inb c h) (k0_off6 c) (k0_off6_eq c) (k0_off6_inb c h)
      k0_dev11 k0_dev11_eq (k0_dev11_lt c h) ![2] rfl inb_S8_S1_2 _ _ _ _) _ (subE2 c) (memE2 c) _)
  isplitr; · iexact Hrec
  isplitl [HS]; · iexact HS
  iintro HS
  iapply (send_step m ρ K c 3 (k0_cond12 c) (cond12_iff c) _
    (fun h => enq_eq c 3 (k0_off9 c) (k0_off9_eq c) (k0_off9_inb c h) (k0_off8 c) (k0_off8_eq c) (k0_off8_inb c h)
      k0_dev12 k0_dev12_eq (k0_dev12_lt c h) ![3] rfl inb_S8_S1_3 _ _ _ _) _ (subE3 c) (memE3 c) _)
  isplitr; · iexact Hrec
  isplitl [HS]; · iexact HS
  iintro HS
  iapply (send_step m ρ K c 4 (k0_cond13 c) (cond13_iff c) _
    (fun h => enq_eq c 4 (k0_off11 c) (k0_off11_eq c) (k0_off11_inb c h) (k0_off10 c) (k0_off10_eq c) (k0_off10_inb c h)
      k0_dev13 k0_dev13_eq (k0_dev13_lt c h) ![4] rfl inb_S8_S1_4 _ _ _ _) _ (subE4 c) (memE4 c) _)
  isplitr; · iexact Hrec
  isplitl [HS]; · iexact HS
  iintro HS
  iapply (send_step m ρ K c 5 (k0_cond14 c) (cond14_iff c) _
    (fun h => enq_eq c 5 (k0_off13 c) (k0_off13_eq c) (k0_off13_inb c h) (k0_off12 c) (k0_off12_eq c) (k0_off12_inb c h)
      k0_dev14 k0_dev14_eq (k0_dev14_lt c h) ![5] rfl inb_S8_S1_5 _ _ _ _) _ (subE5 c) (memE5 c) _)
  isplitr; · iexact Hrec
  isplitl [HS]; · iexact HS
  iintro HS
  iapply (send_step m ρ K c 6 (k0_cond15 c) (cond15_iff c) _
    (fun h => enq_eq c 6 (k0_off15 c) (k0_off15_eq c) (k0_off15_inb c h) (k0_off14 c) (k0_off14_eq c) (k0_off14_inb c h)
      k0_dev15 k0_dev15_eq (k0_dev15_lt c h) ![6] rfl inb_S8_S1_6 _ _ _ _) _ (subE6 c) (memE6 c) _)
  isplitr; · iexact Hrec
  isplitl [HS]; · iexact HS
  iintro HS
  iapply (send_step m ρ K c 7 (k0_cond16 c) (cond16_iff c) _
    (fun h => enq_eq c 7 (k0_off17 c) (k0_off17_eq c) (k0_off17_inb c h) (k0_off16 c) (k0_off16_eq c) (k0_off16_inb c h)
      k0_dev16 k0_dev16_eq (k0_dev16_lt c h) ![7] rfl inb_S8_S1_7 _ _ _ _) _ (subE7 c) (memE7 c) _)
  isplitr; · iexact Hrec
  isplitl [HS]; · iexact HS
  iintro HS
  rw [others_erase_all]
  unfold SendSt Orecv
  rw [Finset.sum_empty, bigSep_empty, Finset.sdiff_empty]
  icases HS with ⟨HO, -, HcS⟩
  simp only [Prog.pure_eq_ret, wp_ret]
  imodintro
  delta k0_part3; simp only [wp_bind, Prog.lift]
  -- the fourteen waits
  ihave HaS := (Entails.of_eq (bigSep_univ_others c _)) $$ HaS
  icases HaS with ⟨HaSc, HaS⟩
  ihave HaR := (Entails.of_eq (bigSep_univ_others c _)) $$ HaR
  icases HaR with ⟨HaRc, HaR⟩
  ihave HS := (WaitSt_intro m ρ c _) $$ [HO HcS HcR HaS HaR]
  · isplitl [HO]; · iexact HO
    isplitl [HcS]; · iexact HcS
    isplitl [HcR]; · iexact HcR
    isplitl [HaS]; · iexact HaS
    iexact HaR
  iapply (wait_step m ρ K c 0 _ (wcond0_iff c) _ _
    (fun h => waitS_eq 0 ![0] rfl inb_S8_S1_0 ![0, 0] rfl inb_S8x512_S1x512_0_0 _ _)
    (fun h => waitR_eq 0 ![0] rfl inb_S8_S1_0 ![0, 0] rfl inb_S8x512_S1x512_0_0 _ _) _ (subE0 c) (memE0 c))
  isplitr; · iexact Hrec
  isplitl [HS]; · iexact HS
  iintro HS
  iapply (wait_step m ρ K c 1 _ (wcond1_iff c) _ _
    (fun h => waitS_eq 1 ![1] rfl inb_S8_S1_1 ![1, 0] rfl inb_S8x512_S1x512_1_0 _ _)
    (fun h => waitR_eq 1 ![1] rfl inb_S8_S1_1 ![1, 0] rfl inb_S8x512_S1x512_1_0 _ _) _ (subE1 c) (memE1 c))
  isplitr; · iexact Hrec
  isplitl [HS]; · iexact HS
  iintro HS
  iapply (wait_step m ρ K c 2 _ (wcond2_iff c) _ _
    (fun h => waitS_eq 2 ![2] rfl inb_S8_S1_2 ![2, 0] rfl inb_S8x512_S1x512_2_0 _ _)
    (fun h => waitR_eq 2 ![2] rfl inb_S8_S1_2 ![2, 0] rfl inb_S8x512_S1x512_2_0 _ _) _ (subE2 c) (memE2 c))
  isplitr; · iexact Hrec
  isplitl [HS]; · iexact HS
  iintro HS
  iapply (wait_step m ρ K c 3 _ (wcond3_iff c) _ _
    (fun h => waitS_eq 3 ![3] rfl inb_S8_S1_3 ![3, 0] rfl inb_S8x512_S1x512_3_0 _ _)
    (fun h => waitR_eq 3 ![3] rfl inb_S8_S1_3 ![3, 0] rfl inb_S8x512_S1x512_3_0 _ _) _ (subE3 c) (memE3 c))
  isplitr; · iexact Hrec
  isplitl [HS]; · iexact HS
  iintro HS
  iapply (wait_step m ρ K c 4 _ (wcond4_iff c) _ _
    (fun h => waitS_eq 4 ![4] rfl inb_S8_S1_4 ![4, 0] rfl inb_S8x512_S1x512_4_0 _ _)
    (fun h => waitR_eq 4 ![4] rfl inb_S8_S1_4 ![4, 0] rfl inb_S8x512_S1x512_4_0 _ _) _ (subE4 c) (memE4 c))
  isplitr; · iexact Hrec
  isplitl [HS]; · iexact HS
  iintro HS
  iapply (wait_step m ρ K c 5 _ (wcond5_iff c) _ _
    (fun h => waitS_eq 5 ![5] rfl inb_S8_S1_5 ![5, 0] rfl inb_S8x512_S1x512_5_0 _ _)
    (fun h => waitR_eq 5 ![5] rfl inb_S8_S1_5 ![5, 0] rfl inb_S8x512_S1x512_5_0 _ _) _ (subE5 c) (memE5 c))
  isplitr; · iexact Hrec
  isplitl [HS]; · iexact HS
  iintro HS
  iapply (wait_step m ρ K c 6 _ (wcond6_iff c) _ _
    (fun h => waitS_eq 6 ![6] rfl inb_S8_S1_6 ![6, 0] rfl inb_S8x512_S1x512_6_0 _ _)
    (fun h => waitR_eq 6 ![6] rfl inb_S8_S1_6 ![6, 0] rfl inb_S8x512_S1x512_6_0 _ _) _ (subE6 c) (memE6 c))
  isplitr; · iexact Hrec
  isplitl [HS]; · iexact HS
  iintro HS
  iapply (wait_step m ρ K c 7 _ (wcond7_iff c) _ _
    (fun h => waitS_eq 7 ![7] rfl inb_S8_S1_7 ![7, 0] rfl inb_S8x512_S1x512_7_0 _ _)
    (fun h => waitR_eq 7 ![7] rfl inb_S8_S1_7 ![7, 0] rfl inb_S8x512_S1x512_7_0 _ _) _ (subE7 c) (memE7 c))
  isplitr; · iexact Hrec
  isplitl [HS]; · iexact HS
  iintro HS
  rw [others_erase_all]
  unfold WaitSt
  rw [bigSep_empty, Finset.sdiff_empty, bigSep_sep', bigSep_sep', bigSep_sep']
  icases HS with ⟨⟨%W', HO⟩, -, Hps, Hrows, HzS, HzR⟩
  -- the two cells no copy uses close as they stand
  imod (Rounds.cell_close ER (Rd m ρ) (Set.mem_univ (K (c, some (false, c)))) (fun hh => hh) (R := 0) (fun r _ => duties_send_self m ρ c r)) $$ [HaSc] with HzSc
  · isplitr; · iapply (inv_at m ρ K (c, some (false, c))); iexact Hrec
    iexact HaSc
  imod (Rounds.cell_close ER (Rd m ρ) (Set.mem_univ (K (c, some (true, c)))) (fun hh => hh) (R := 0) (fun r _ => duties_recv_self m ρ c r)) $$ [HaRc] with HzRc
  · isplitr; · iapply (inv_at m ρ K (c, some (true, c))); iexact Hrec
    iexact HaRc
  -- the sixteen own semaphores, the shares of row `c` and the eight rows are put back together
  ihave HzS := (Entails.of_eq (bigSep_univ_others c (fun k => semVal (sendCell c k) 0)).symm) $$ [HzSc HzS]
  · isplitl [HzSc]; · iexact HzSc
    iexact HzS
  ihave HzR := (Entails.of_eq (bigSep_univ_others c (fun k => semVal (recvCell c k) 0)).symm) $$ [HzRc HzR]
  · isplitl [HzRc]; · iexact HzRc
    iexact HzR
  ihave Hown := (Entails.of_eq (ownSems_join (F := F) c)) $$ [HzS HzR]
  · isplitl [HzS]; · iexact HzS
    iexact HzR
  ihave Hpieces := (Entails.of_eq (bigSep_univ_others c (fun j => rowPts (F := F) c c (pieceShare j.val) (accAll m ρ))).symm) $$ [Hpc Hps]
  · isplitl [Hpc]; · iexact Hpc
    iexact Hps
  ihave Hrowc := (Entails.of_eq (row_shares c c (accAll m ρ)).symm) $$ [Hpieces Hrest]
  · isplitl [Hpieces]; · iexact Hpieces
    iexact Hrest
  ihave Hrows := (Entails.of_eq (bigSep_univ_others c (fun k => rowPts (F := F) c k fullShare (accAll m ρ))).symm) $$ [Hrowc Hrows]
  · isplitl [Hrowc]; · iexact Hrowc
    iexact Hrows
  ihave Hscr := (Entails.of_eq (scr_rows c (accAll m ρ)).symm) $$ Hrows
  unfold scrPts
  -- the gathered rows are reduced and scaled into the result
  simp only [Prog.bind_op, Prog.bind_ret, Prog.pure_eq_ret]
  iapply (wp_load 𝒱₀ (c : Thread nD τ) none Set.univ (m := aM) (View.setOn_subset_set _ _)) $$ Hscr; iintro Hscr
  rw [read_acc]
  iapply (wp_load 𝒱₀ (c : Thread nD τ) none Set.univ (m := oM) (Finset.subset_univ _)) $$ Hout; iintro Hout
  iapply (wp_store 𝒱₀ (c : Thread nD τ) none Set.univ (m := oM) (r := Rect.unit (s := S1x512) ![0, 0] S1x512.size inb_S1x512_S1x512_0_0)
    (Mk := Finset.univ) (Finset.subset_univ _)) $$ Hout; iintro Hout
  rw [write_out, wp_ret]; imodintro; imodintro
  iapply Hk
  unfold bodyPost Φ₁ Dat.owesAt Pipeline.owesWithin
  rw [show (dats m ρ 0 c).owed t₀.succ = 0 from rfl]
  isplitl [Hscr Hown]
  · isplitl [Hscr]; · unfold scrPts; iexact Hscr
    iexact Hown
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Xchg

end
-- ==== Proof.RowsK.lean ====
/-
  The gather buffer by rows and by shares.

  The 8 × 512 buffer is the disjoint union of its eight rows, so owning it whole is owning the eight rows.
  A row held at the full share is held, after eight successive halvings, as eight pieces and a remainder:
  the pieces are what the seven copies reading one source row at once take with them.
  Copying row `k` of contents `f` over row `k` of any contents gives `f` on row `k`; storing device `c`'s
  partial sums through the rectangle of row `c` gives, on row `c`, the final contents.
-/
import proofs.«900941_g7700000000000942_dist_mean_ax0_shard0_i_m1024_n512_v7x_i8_f32_1_alg».proof.Proof.SchedK
import Idealize.ShloMosaic.Lib.Pipeline.Value
import Idealize.ShloMosaic.Lib.ValueIdx
import Idealize.ShloMosaic.Rules.PointsTo

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffer is its eight rows -/

omit [FloatOps F] in
/-- Owning the whole buffer at the full share is owning each of its eight rows at the full share. -/
theorem scr_rows (c : Dev nD) (f : Buf (Elt F) ((aM : Memref sig .tc .vmem S8x512 .f32).view.loc (c : Thread nD τ))) :
    scrPts (F := F) c f = bigSep Finset.univ (fun k : Dev nD => rowPts (F := F) c k fullShare f) := by
  unfold scrPts rowPts
  have hs : (aM : Memref sig .tc .vmem S8x512 .f32).view.set = (Finset.univ : Finset (Dev nD)).biUnion rowSet := by
    rw [rowSet_cover]; exact View.set_whole _
  rw [hs, pointsTo_biUnion _ _ (fun t _ t' _ h => rowSet_disjoint h)]
  exact bigSep_congr fun k _ => by rw [rowM_set]

/-! ## A full share as successive halvings -/

omit [FloatOps F] in
/-- After `n` halvings the full share of a set of elements is the `n` halves taken off and what is left. -/
theorem pointsTo_halvings (ℓ : Loc nD τ sig) (I : Finset (Idx ℓ)) (f : Buf (Elt F) ℓ) (n : ℕ) :
    (ℓ ↦[I]{fullShare} f : sProp 𝕄)
      = iprop((bigSep (Finset.range n) fun j => ℓ ↦[I]{pieceShare j} f) ∗ ℓ ↦[I]{restShare n} f) := by
  induction n with
  | zero =>
    rw [Finset.range_zero, bigSep_empty]
    exact (equiv_iff.mp emp_sep).symm
  | succ n ih =>
    have hs : (ℓ ↦[I]{restShare n} f : sProp 𝕄) = iprop((ℓ ↦[I]{pieceShare n} f) ∗ ℓ ↦[I]{restShare (n + 1)} f) :=
      by
      have h : (ℓ ↦[I]{restShare n} f : sProp 𝕄) ⊣⊢ iprop((ℓ ↦[I]{(restShare n).left} f) ∗ ℓ ↦[I]{(restShare n).right} f) :=
        pointsTo_share (PosShare.mem_left_op_right (restShare n))
      exact equiv_iff.mp ⟨h.1, h.2⟩
    rw [Finset.range_add_one, bigSep_insert Finset.notMem_range_self]
    refine ih.trans ?_
    rw [hs]
    have h : iprop((bigSep (Finset.range n) fun j => ℓ ↦[I]{pieceShare j} f) ∗ (ℓ ↦[I]{pieceShare n} f) ∗ ℓ ↦[I]{restShare (n + 1)} f)
        ⊣⊢ (iprop(((ℓ ↦[I]{pieceShare n} f) ∗ bigSep (Finset.range n) fun j => ℓ ↦[I]{pieceShare j} f) ∗ ℓ ↦[I]{restShare (n + 1)} f) : sProp 𝕄) :=
      sep_left_comm.trans sep_assoc.symm
    exact equiv_iff.mp ⟨h.1, h.2⟩

omit [FloatOps F] in
/-- The naturals below eight, as the eight devices. -/
theorem bigSep_range_dev (Φ : ℕ → sProp 𝕄) :
    bigSep (Finset.range 8) Φ = bigSep Finset.univ (fun j : Dev nD => Φ j.val) := by
  have h : (Finset.univ : Finset (Dev nD)).map Fin.valEmbedding = Finset.range 8 := by decide
  rw [← h, bigSep_map]
  rfl

omit [FloatOps F] in
/-- A row at the full share is its eight pieces and the remainder after eight halvings. -/
theorem row_shares (c k : Dev nD) (f : Buf (Elt F) ((rowM k : Memref sig .tc .vmem S1x512 .f32).view.loc (c : Thread nD τ))) :
    rowPts (F := F) c k fullShare f
      = iprop((bigSep Finset.univ fun j : Dev nD => rowPts (F := F) c k (pieceShare j.val) f) ∗ rowPts (F := F) c k (restShare 8) f) := by
  unfold rowPts
  rw [pointsTo_halvings _ _ f 8, bigSep_range_dev]

/-! ## One device and the other seven -/

omit [FloatOps F] in
theorem bigSep_univ_others (c : Dev nD) (Φ : Dev nD → sProp 𝕄) :
    bigSep Finset.univ Φ = iprop(Φ c ∗ bigSep (others c) Φ) :=
  bigSep_univ_split c

/-! ## Contents of a row after a copy and after a store -/

omit [FloatOps F] in
/-- Row `k` of `f`, copied over row `k` of any contents `fd`, gives `f` on row `k`. The contents are those of the
    buffer, whichever device's; the source may be another device's buffer than the destination. -/
theorem row_copy (k : Dev nD) (fd f : (rowM k : Memref sig .tc .vmem S1x512 .f32).view.ty.Contents (Elt F)) :
    ∀ i ∈ (rowM k : Memref sig .tc .vmem S1x512 .f32).view.set,
      (rowM k : Memref sig .tc .vmem S1x512 .f32).view.write (Elt F) fd
        ((rowM k : Memref sig .tc .vmem S1x512 .f32).view.read (Elt F) f) Finset.univ i = f i := by
  intro i hi
  obtain ⟨x, rfl⟩ := View.exists_emb_of_mem_set _ hi
  rw [View.write_emb_of_mem _ _ (Finset.mem_univ x), View.read_apply]
  rfl

omit [FloatOps F] in
/-- The same, source and destination in one device's buffer. -/
theorem row_copy_congr (k : Dev nD) (c' : Dev nD)
    (fd f : Buf (Elt F) ((rowM k : Memref sig .tc .vmem S1x512 .f32).view.loc (c' : Thread nD τ))) :
    ∀ i ∈ (rowM k : Memref sig .tc .vmem S1x512 .f32).view.set,
      (rowM k : Memref sig .tc .vmem S1x512 .f32).view.write (Elt F) fd
        ((rowM k : Memref sig .tc .vmem S1x512 .f32).view.read (Elt F) f) Finset.univ i = f i :=
  row_copy k fd f

omit [FloatOps F] in
/-- The same, the source row read off device `c''`'s buffer and written into device `c'`'s. -/
theorem row_copy_congr_from (k : Dev nD) (c' c'' : Dev nD)
    (fd : Buf (Elt F) ((rowM k : Memref sig .tc .vmem S1x512 .f32).view.loc (c' : Thread nD τ)))
    (f' : Buf (Elt F) ((rowM k : Memref sig .tc .vmem S1x512 .f32).view.loc (c'' : Thread nD τ))) :
    ∀ i ∈ (rowM k : Memref sig .tc .vmem S1x512 .f32).view.set,
      (rowM k : Memref sig .tc .vmem S1x512 .f32).view.write (Elt F) fd
        ((rowM k : Memref sig .tc .vmem S1x512 .f32).view.read (Elt F) f') Finset.univ i = f' i :=
  row_copy k fd f'

/-- Device `c`'s partial sums, stored through the rectangle of row `c`, make row `c` what the final contents say:
    the element at column `x` of that rectangle sits at row `c`, column `x` of the buffer. -/
theorem row_store_acc (c : Dev nD) (f0 : Buf (Elt F) ((c : Thread nD τ).loc cc0_scratch0)) :
    ∀ i ∈ rowSet c,
      ((aM : Memref sig .tc .vmem S8x512 .f32).access (Rect.unit (s := S8x512) ![c.val, 0] S1x512.size (row_inb c))).write (Elt F) f0
        (Spec.psum (xstg m ρ c)) Finset.univ i = accAll m ρ i := by
  intro i hi
  have hi' : i ∈ ((aM : Memref sig .tc .vmem S8x512 .f32).access (Rect.unit (s := S8x512) ![c.val, 0] S1x512.size (row_inb c))).set := by
    rw [View.set_slice_whole]; exact hi
  obtain ⟨x, rfl⟩ := View.exists_emb_of_mem_set _ hi'
  rw [View.write_emb_of_mem _ _ (Finset.mem_univ x)]
  have hr : Spec.rowOf (((aM : Memref sig .tc .vmem S8x512 .f32).access (Rect.unit (s := S8x512) ![c.val, 0] S1x512.size (row_inb c))).emb x) = c := by
    apply Fin.ext
    show c.val + 1 * (x 0).val = c.val
    have : (x 0).val < 1 := (x 0).isLt
    omega
  have hc : Spec.colOf (((aM : Memref sig .tc .vmem S8x512 .f32).access (Rect.unit (s := S8x512) ![c.val, 0] S1x512.size (row_inb c))).emb x) = x := by
    funext a
    match a with
    | ⟨0, _⟩ => apply Fin.ext; show 0 = (x 0).val; have : (x 0).val < 1 := (x 0).isLt; omega
    | ⟨1, _⟩ => apply Fin.ext; show 0 + 1 * (x 1).val = (x 1).val; omega
  show _ = Spec.psum (xstg m ρ (Spec.rowOf _)) (Spec.colOf _)
  rw [hr, hc]
  rfl

end Cert.Kernel.Xchg

end
-- ==== Proof.StepsK.lean ====
/-
  The kernel body, one exchange step at a time, for a device `c` and another device `j` both symbolic.
-/
import proofs.«900941_g7700000000000942_dist_mean_ax0_shard0_i_m1024_n512_v7x_i8_f32_1_alg».proof.Proof.SchedK
import proofs.«900941_g7700000000000942_dist_mean_ax0_shard0_i_m1024_n512_v7x_i8_f32_1_alg».proof.Proof.RowsK
import proofs.«900941_g7700000000000942_dist_mean_ax0_shard0_i_m1024_n512_v7x_i8_f32_1_alg».proof.Proof.Gen.Kernel.Skeleton

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem inv_at (K : Dev nD × CI → ℕ) (ck : Dev nD × CI) : records m ρ K ⊢ cellInv ER (Rd m ρ) (K ck) (kcell ck) := by
  unfold records
  iintro ⟨#HI, -⟩
  iapply (show (bigSep Finset.univ fun ck : Dev nD × CI => (cellInv ER (Rd m ρ) (K ck) (kcell ck) : sProp 𝕄)) ⊢ cellInv ER (Rd m ρ) (K ck) (kcell ck)
    from bigSep_elim (Finset.mem_univ ck)); iexact HI
theorem reached_at (K : Dev nD × CI → ℕ) (ck : Dev nD × CI) : records m ρ K ⊢ reached ER (kcell ck) 0 := by
  unfold records
  iintro ⟨-, #HR⟩
  iapply (show (bigSep Finset.univ fun ck : Dev nD × CI => (reached ER (kcell ck) 0 : sProp 𝕄)) ⊢ reached ER (kcell ck) 0
    from bigSep_elim (Finset.mem_univ ck)); iexact HR

/-! ## The entry signals -/

/-- Before the signal to `j`: what `c` still owes, and for every device of `R` still to be signalled the token of its
    barrier unit and the row it is handed. -/
def SigSt (c : Dev nD) (R : Finset (Dev nD)) (W : Waits sig Unit) : sProp 𝕄 :=
  iprop(owes (c : Thread nD τ) (Orecv c (others c) + Obar R) W
    ∗ bigSep R fun k => iprop(dutyTok ER (barCell k) 0 c ∗ ∃ f, rowPts (F := F) c k fullShare f))

theorem bigSep_take {I : Type} [DecidableEq I] {R : Finset I} {j : I} (hj : j ∈ R) (Φ : I → sProp 𝕄) :
    bigSep R Φ = iprop(Φ j ∗ bigSep (R.erase j) Φ) := by
  conv_lhs => rw [← Finset.insert_erase hj]
  exact bigSep_insert (Finset.notMem_erase _ _)

set_option maxHeartbeats 800000 in
theorem sig_step (K : Dev nD × CI → ℕ) (c j : Dev nD) (cond : BitVec 1) (hcond : cond = 1#1 ↔ c ≠ j) (dv : ℕ) (hdv : dv = j.val)
    (hlt : cond = 1#1 → dv < nD) (hamt : (1#32 : BitVec 32).msb = false) (R : Finset (Dev nD)) (hj : c ≠ j → j ∈ R) (hc : c ∉ R)
    (W : Waits sig Unit) {α : Type} (k : Prog (TpuEff nD τ sig (Elt F) Λ₀ .tc) α) (Q : α → sProp 𝕄) :
    iprop(records m ρ K ∗ SigSt (F := F) c R W ∗ (SigSt (F := F) c (R.erase j) W -∗ wp frame (wpE (defs₀ (F := F)) 𝒱₀ c none) Set.univ k Q))
      ⊢ wp frame (wpE (defs₀ (F := F)) 𝒱₀ c none) Set.univ
          (if h : cond = 1#1 then (do semSignalWord (⟨dv, hlt h⟩ : Dev nD) barS 1#32 hamt; k) else k) Q := by
  by_cases h : cond = 1#1
  · rw [dif_pos h]
    have hcj := hcond.mp h
    have hjR := hj hcj
    subst hdv
    simp only [semSignalWord, Prog.lift, Prog.bind_op, Prog.bind_ret]
    unfold SigSt
    rw [bigSep_take hjR]
    iintro ⟨#Hrec, ⟨HO, ⟨Htok, Hrow⟩, Hb⟩, Hk⟩
    have hO : Orecv c (others c) + Obar R = Orecv c (others c) + Obar (R.erase j) + tallyAt (barCell j) () 1 := by
      unfold Obar; rw [← Finset.sum_erase_add _ _ hjR, add_assoc]
    iapply (Rounds.wp_signal 𝒱₀ ER (Rd m ρ) (c : Thread nD τ) none (dst := (j : Thread nD τ)) (κ := K (j, none))
        (d := c) (by rw [duties_bar]; exact Finset.mem_erase.mpr ⟨hcj, Finset.mem_univ _⟩) ((amount_bar m ρ j c).trans (by decide)) ()
        (O₀ := Orecv c (others c) + Obar R) (Orecv c (others c) + Obar (R.erase j)) hO) $$ [HO Htok Hrow]
    · isplitr; · iapply (inv_at m ρ K (j, none)); iexact Hrec
      isplitl [HO]; · iexact HO
      isplitl [Htok]; · iexact Htok
      isplitl [Hrow]
      · rw [payload_bar]; unfold barPay
        isplitl [Hrow]; · iexact Hrow
        iapply (reached_at m ρ K (c, some (true, j))); iexact Hrec
      · iapply (reached_at m ρ K (j, none)); iexact Hrec
    iintro HO
    iapply Hk
    isplitl [HO]; · iexact HO
    iexact Hb
  · rw [dif_neg h]
    have hcj : c = j := by by_contra hne; exact h (hcond.mpr hne)
    rw [Finset.erase_eq_of_notMem (hcj ▸ hc)]
    iintro ⟨-, HS, Hk⟩
    iapply Hk; iexact HS

theorem bigSep_put {I : Type} [DecidableEq I] {S : Finset I} {j : I} (hj : j ∉ S) (Φ : I → sProp 𝕄) :
    bigSep (insert j S) Φ = iprop(Φ j ∗ bigSep S Φ) := bigSep_insert hj

theorem sdiff_erase_insert {I : Type} [DecidableEq I] {S R : Finset I} {j : I} (hjo : j ∈ S) : S \ R.erase j = insert j (S \ R) := by
  ext x
  rw [Finset.mem_sdiff, Finset.mem_insert, Finset.mem_sdiff, Finset.mem_erase]
  constructor
  · rintro ⟨hx, hn⟩
    by_cases hxj : x = j
    · exact .inl hxj
    · exact .inr ⟨hx, fun hxR => hn ⟨hxj, hxR⟩⟩
  · rintro (rfl | ⟨hx, hxR⟩)
    · exact ⟨hjo, fun hh => hh.1 rfl⟩
    · exact ⟨hx, fun hh => hxR hh.2⟩

/-! ## The copies -/

/-- Before the copy to `j`: the receive credit `c` still owes; for every device of `R` still to be sent to, the two tokens of
    the copy, the share of row `c` it will read through and that device's row `c`; the departure credit of the copies made. -/
def SendSt (c : Dev nD) (R : Finset (Dev nD)) (W : Waits sig Unit) : sProp 𝕄 :=
  iprop(owes (c : Thread nD τ) (Orecv c R) W
    ∗ (bigSep R fun k => iprop(dutyTok ER (recvCell k c) 0 c ∗ dutyTok ER (sendCell c k) 0 k
        ∗ rowPts (F := F) c c (pieceShare k.val) (accAll m ρ) ∗ ∃ f, rowPts (F := F) k c fullShare f))
    ∗ bigSep (others c \ R) fun k => cred (tallyAt (sendCell c k) () N))

set_option maxHeartbeats 1600000 in
theorem send_step (K : Dev nD × CI → ℕ) (c j : Dev nD) (cond : BitVec 1) (hcond : cond = 1#1 ↔ c ≠ j)
    (e : cond = 1#1 → TpuEff nD τ sig (Elt F) Λ₀ .tc PUnit)
    (he : ∀ h, ∃ hsc hsrc hdst hsem, e h = TpuEff.enqueueDma (rowM c : Memref sig .tc .vmem S1x512 .f32)
      (.remote (Dev.tc j : Thread nD τ) (rowM c : Memref sig .tc .vmem S1x512 .f32) (.dma (sendS j)) hsc) (.dma (recvS c)) hsrc hdst hsem)
    (R : Finset (Dev nD)) (hR : R ⊆ others c) (hj : c ≠ j → j ∈ R)
    (W : Waits sig Unit) {α : Type} (k : Prog (TpuEff nD τ sig (Elt F) Λ₀ .tc) α) (Q : α → sProp 𝕄) :
    iprop(records m ρ K ∗ SendSt m ρ c R W ∗ (SendSt m ρ c (R.erase j) W -∗ wp frame (wpE (defs₀ (F := F)) 𝒱₀ c none) Set.univ k Q))
      ⊢ wp frame (wpE (defs₀ (F := F)) 𝒱₀ c none) Set.univ
          (if h : cond = 1#1 then (do Prog.lift (e h); k) else k) Q := by
  by_cases h : cond = 1#1
  · rw [dif_pos h]
    have hcj := hcond.mp h
    have hjR := hj hcj
    obtain ⟨hsc, hsrc, hdst, hsem, heq⟩ := he h
    rw [heq]
    simp only [Prog.lift, Prog.bind_op, Prog.bind_ret]
    unfold SendSt
    rw [bigSep_take hjR]
    have hjo : j ∈ others c := hR hjR
    have hnot : j ∉ others c \ R := fun hh => (Finset.mem_sdiff.mp hh).2 hjR
    have hsd := sdiff_erase_insert hjo (R := R)
    rw [hsd, bigSep_put hnot]
    have hO : Orecv c R = Orecv c (R.erase j) + tallyAt (recvCell j c) () N := by
      unfold Orecv; rw [← Finset.sum_erase_add _ _ hjR]
    iintro ⟨#Hrec, ⟨HO, ⟨⟨HtR, HtS, Hsrc, ⟨%fj, Hdst⟩⟩, Hb⟩, Hcr⟩, Hk⟩
    unfold rowPts
    iapply (Rounds.wp_send_pointsTo 𝒱₀ ER (Rd m ρ) (c : Thread nD τ) none (κ₁ := K (c, some (false, j))) (κ₂ := K (j, some (true, c)))
        (r₁ := 0) (r₂ := 0) (d₁ := j) (d₂ := c) (fd := fj)
        (by rw [duties_send m ρ c j (Ne.symm hcj)]; exact Finset.mem_singleton_self _)
        (by rw [duties_recv m ρ j c hcj]; exact Finset.mem_singleton_self _)
        () () N rfl (amount_send m ρ c j j) (amount_recv m ρ j c c) (O₀ := Orecv c R) (Orecv c (R.erase j)) hO (W := W)
        (Entails.of_eq (payload_send m ρ c j).symm)
        (Entails.of_eq ((pointsTo_congr (row_copy_congr_from c j c fj (accAll m ρ))).trans (payload_recv m ρ j c).symm))) $$ [HO HtR HtS Hsrc Hdst]
    · isplitr; · iapply (inv_at m ρ K (c, some (false, j))); iexact Hrec
      isplitr; · iapply (inv_at m ρ K (j, some (true, c))); iexact Hrec
      isplitl [Hsrc]; · iexact Hsrc
      isplitl [Hdst]; · iexact Hdst
      isplitl [HO]; · iexact HO
      isplitl [HtS]; · iexact HtS
      isplitr; · iapply (reached_at m ρ K (c, some (false, j))); iexact Hrec
      isplitl [HtR]; · iexact HtR
      iapply (reached_at m ρ K (j, some (true, c))); iexact Hrec
    iintro ⟨Hc, HO⟩
    iapply Hk
    isplitl [HO]; · iexact HO
    isplitl [Hb]; · iexact Hb
    isplitl [Hc]; · iexact Hc
    iexact Hcr
  · rw [dif_neg h]
    have hcj : c = j := by by_contra hne; exact h (hcond.mpr hne)
    have hjn : j ∉ R := fun hjR => (Finset.mem_erase.mp (hR hjR)).1 hcj.symm
    rw [Finset.erase_eq_of_notMem hjn]
    iintro ⟨-, HS, Hk⟩
    iapply Hk; iexact HS

/-! ## The waits -/

/-- Before the two waits for `j`: nothing owed any more; for every device of `R` still to be waited for, the credit of both
    cells and the positions at their start; for the others, the share of row `c` back, their row filled, both cells closed. -/
def WaitSt (c : Dev nD) (R : Finset (Dev nD)) : sProp 𝕄 :=
  iprop((∃ W, owes (c : Thread nD τ) 0 W)
    ∗ (bigSep R fun k => iprop(cred (tallyAt (sendCell c k) () N) ∗ cred (tallyAt (recvCell c k) () N)
        ∗ atPos ER (sendCell c k) 0 ∅ 0 ∗ atPos ER (recvCell c k) 0 ∅ 0))
    ∗ bigSep (others c \ R) fun k => iprop(rowPts (F := F) c c (pieceShare k.val) (accAll m ρ) ∗ rowPts (F := F) c k fullShare (accAll m ρ)
        ∗ semVal (sendCell c k) 0 ∗ semVal (recvCell c k) 0))

set_option maxHeartbeats 1600000 in
theorem wait_step (K : Dev nD × CI → ℕ) (c j : Dev nD) (cond : BitVec 1) (hcond : cond = 1#1 ↔ c ≠ j)
    (e₁ e₂ : cond = 1#1 → TpuEff nD τ sig (Elt F) Λ₀ .tc PUnit)
    (he₁ : ∀ h, ∃ hsrc hdst, e₁ h = TpuEff.waitDma2 (p := Proc.tc) (sendS j) (rowM j : Memref sig .tc .vmem S1x512 .f32) (rowM j : Memref sig .tc .vmem S1x512 .f32) hsrc hdst)
    (he₂ : ∀ h, ∃ hsrc hdst, e₂ h = TpuEff.waitDma2 (p := Proc.tc) (recvS j) (rowM j : Memref sig .tc .vmem S1x512 .f32) (rowM j : Memref sig .tc .vmem S1x512 .f32) hsrc hdst)
    (R : Finset (Dev nD)) (hR : R ⊆ others c) (hj : c ≠ j → j ∈ R)
    {α : Type} (k : Prog (TpuEff nD τ sig (Elt F) Λ₀ .tc) α) (Q : α → sProp 𝕄) :
    iprop(records m ρ K ∗ WaitSt m ρ c R ∗ (WaitSt m ρ c (R.erase j) -∗ wp frame (wpE (defs₀ (F := F)) 𝒱₀ c none) Set.univ k Q))
      ⊢ wp frame (wpE (defs₀ (F := F)) 𝒱₀ c none) Set.univ
          (if h : cond = 1#1 then (do Prog.lift (e₁ h); Prog.lift (e₂ h); k) else k) Q := by
  by_cases h : cond = 1#1
  · rw [dif_pos h]
    have hcj := hcond.mp h
    have hjc : j ≠ c := Ne.symm hcj
    have hjR := hj hcj
    obtain ⟨hsrc₁, hdst₁, heq₁⟩ := he₁ h
    obtain ⟨hsrc₂, hdst₂, heq₂⟩ := he₂ h
    rw [heq₁, heq₂]
    simp only [Prog.lift, Prog.bind_op, Prog.bind_ret]
    unfold WaitSt
    rw [bigSep_take hjR]
    have hjo : j ∈ others c := hR hjR
    have hnot : j ∉ others c \ R := fun hh => (Finset.mem_sdiff.mp hh).2 hjR
    rw [sdiff_erase_insert hjo (R := R), bigSep_put hnot]
    iintro ⟨#Hrec, ⟨⟨%W, HO⟩, ⟨⟨HcS, HcR, HaS, HaR⟩, Hb⟩, Hdone⟩, Hk⟩
    -- the departure: the share of the source row comes back
    iapply (Rounds.wp_wait_rest_token 𝒱₀ ER (Rd m ρ) (c : Thread nD τ) none (κ := K (c, some (false, j)))
        (wpE_waitDma2_eq 𝒱₀ (c : Thread nD τ) none Set.univ) (Set.mem_univ _) () (O := 0) (W := W) (R := 0) (m := 0) (T := ∅)
        (by rw [Nat.zero_add, expect_send m ρ c j hjc])) $$ [HcS HO HaS]
    · isplitr; · iapply (inv_at m ρ K (c, some (false, j))); iexact Hrec
      isplitl [HcS]; · iexact HcS
      isplitl [HO]; · iexact HO
      isplitr; · rw [MayWait_zero]; iempintro
      iexact HaS
    iintro ⟨HO, HaS, -, Hpay⟩
    ihave Hsrc := (Entails.of_eq (rest_send m ρ c j hjc)) $$ Hpay
    -- the arrival: row `j`, filled
    iapply (Rounds.wp_wait_rest_token 𝒱₀ ER (Rd m ρ) (c : Thread nD τ) none (κ := K (c, some (true, j)))
        (wpE_waitDma2_eq 𝒱₀ (c : Thread nD τ) none Set.univ) (Set.mem_univ _) () (O := 0) (W := insert (SemLoc.dma (sendS j), ()) W) (R := 0) (m := 0) (T := ∅)
        (by rw [Nat.zero_add, expect_recv m ρ c j hjc])) $$ [HcR HO HaR]
    · isplitr; · iapply (inv_at m ρ K (c, some (true, j))); iexact Hrec
      isplitl [HcR]; · iexact HcR
      isplitl [HO]; · iexact HO
      isplitr; · rw [MayWait_zero]; iempintro
      iexact HaR
    iintro ⟨HO, HaR, -, Hpay⟩
    ihave Hrow := (Entails.of_eq (rest_recv m ρ c j hjc)) $$ Hpay
    -- both cells close
    imod (Rounds.cell_close ER (Rd m ρ) (Set.mem_univ (K (c, some (false, j)))) (fun hh => hh) (R := 0 + 1) (duties_later m ρ (sendCell c j))) $$ [HaS] with HzS
    · isplitr; · iapply (inv_at m ρ K (c, some (false, j))); iexact Hrec
      iexact HaS
    imod (Rounds.cell_close ER (Rd m ρ) (Set.mem_univ (K (c, some (true, j)))) (fun hh => hh) (R := 0 + 1) (duties_later m ρ (recvCell c j))) $$ [HaR] with HzR
    · isplitr; · iapply (inv_at m ρ K (c, some (true, j))); iexact Hrec
      iexact HaR
    iapply Hk
    isplitl [HO]; · iexists _; iexact HO
    isplitl [Hb]; · iexact Hb
    isplitr [Hdone]
    · unfold sendPay recvPay
      isplitl [Hsrc]; · iexact Hsrc
      isplitl [Hrow]; · iexact Hrow
      isplitl [HzS]; · iexact HzS
      iexact HzR
    · iexact Hdone
  · rw [dif_neg h]
    have hcj : c = j := by by_contra hne; exact h (hcond.mpr hne)
    have hjn : j ∉ R := fun hjR => (Finset.mem_erase.mp (hR hjR)).1 hcj.symm
    rw [Finset.erase_eq_of_notMem hjn]
    iintro ⟨-, HS, Hk⟩
    iapply Hk; iexact HS

/-! ## The printed operations, respelt over the rows and semaphores by device -/

theorem enq_eq (c j : Dev nD) (off3 : Fin 2 → ℕ) (ho3 : off3 = ![c.val, 0]) (p3 : ∀ a, off3 a + S1x512.size a ≤ S8x512.size a)
    (off2 : Fin 1 → ℕ) (ho2 : off2 = ![c.val]) (p2 : ∀ a, off2 a + S1.size a ≤ S8.size a)
    (dv : ℕ) (hdv : dv = j.val) (hlt : dv < nD) (offj : Fin 1 → ℕ) (hoj : offj = ![j.val]) (pj : ∀ a, offj a + S1.size a ≤ S8.size a)
    (hsc) (hsrc) (hdst) (hsem) :
    ∃ hsc' hsrc' hdst' hsem',
      (TpuEff.enqueueDma (aM.slice (Rect.unit (s := S8x512) off3 S1x512.size p3) (fun _ => rfl))
          (.remote (Dev.tc (⟨dv, hlt⟩ : Dev nD)) (aM.slice (Rect.unit (s := S8x512) off3 S1x512.size p3) (fun _ => rfl))
            (.dma ((cc0_scratch1.slice (Rect.unit (s := S8) offj S1.size pj)).squeeze S_ squeezes_S1_S_).sem) hsc)
          (.dma ((cc0_scratch2.slice (Rect.unit (s := S8) off2 S1.size p2)).squeeze S_ squeezes_S1_S_).sem) hsrc hdst hsem
        : TpuEff nD τ sig (Elt F) Λ₀ .tc PUnit)
      = TpuEff.enqueueDma (rowM c : Memref sig .tc .vmem S1x512 .f32)
          (.remote (Dev.tc j : Thread nD τ) (rowM c : Memref sig .tc .vmem S1x512 .f32) (.dma (sendS j)) hsc') (.dma (recvS c)) hsrc' hdst' hsem' := by
  subst ho3 ho2 hdv hoj
  exact ⟨_, _, _, _, rfl⟩

theorem waitS_eq (j : Dev nD) (offj : Fin 1 → ℕ) (hoj : offj = ![j.val]) (pj : ∀ a, offj a + S1.size a ≤ S8.size a)
    (offr : Fin 2 → ℕ) (hr : offr = ![j.val, 0]) (pr : ∀ a, offr a + S1x512.size a ≤ S8x512.size a) (hsrc) (hdst) :
    ∃ hsrc' hdst',
      (TpuEff.waitDma2 (p := Proc.tc) ((cc0_scratch1.slice (Rect.unit (s := S8) offj S1.size pj)).squeeze S_ squeezes_S1_S_).sem
          (aM.slice (Rect.unit (s := S8x512) offr S1x512.size pr) (fun _ => rfl)) (aM.slice (Rect.unit (s := S8x512) offr S1x512.size pr) (fun _ => rfl)) hsrc hdst
        : TpuEff nD τ sig (Elt F) Λ₀ .tc PUnit)
      = TpuEff.waitDma2 (p := Proc.tc) (sendS j) (rowM j : Memref sig .tc .vmem S1x512 .f32) (rowM j : Memref sig .tc .vmem S1x512 .f32) hsrc' hdst' := by
  subst hoj hr
  exact ⟨_, _, rfl⟩

theorem waitR_eq (j : Dev nD) (offj : Fin 1 → ℕ) (hoj : offj = ![j.val]) (pj : ∀ a, offj a + S1.size a ≤ S8.size a)
    (offr : Fin 2 → ℕ) (hr : offr = ![j.val, 0]) (pr : ∀ a, offr a + S1x512.size a ≤ S8x512.size a) (hsrc) (hdst) :
    ∃ hsrc' hdst',
      (TpuEff.waitDma2 (p := Proc.tc) ((cc0_scratch2.slice (Rect.unit (s := S8) offj S1.size pj)).squeeze S_ squeezes_S1_S_).sem
          (aM.slice (Rect.unit (s := S8x512) offr S1x512.size pr) (fun _ => rfl)) (aM.slice (Rect.unit (s := S8x512) offr S1x512.size pr) (fun _ => rfl)) hsrc hdst
        : TpuEff nD τ sig (Elt F) Λ₀ .tc PUnit)
      = TpuEff.waitDma2 (p := Proc.tc) (recvS j) (rowM j : Memref sig .tc .vmem S1x512 .f32) (rowM j : Memref sig .tc .vmem S1x512 .f32) hsrc' hdst' := by
  subst hoj hr
  exact ⟨_, _, rfl⟩

end Cert.Kernel.Xchg

end
-- ==== Proof.RegroupK.lean ====
/-
  Regroupings of what a device starts from.

  A device's cells are indexed by nothing (its barrier cell) or by a flag and another device (a send or a receive
  cell). A conjunction over all of them is therefore the barrier cell's conjunct, the eight send cells' and the
  eight receive cells'; the sixteen semaphores of the kernel's own two arrays are the eight send and the eight
  receive semaphores; and a conjunction of triples over the other seven devices is three conjunctions.
-/
import proofs.«900941_g7700000000000942_dist_mean_ax0_shard0_i_m1024_n512_v7x_i8_f32_1_alg».proof.Proof.SchedK

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over an optional index, and over a flag and a device -/

/-- A conjunction over `Option X`: the conjunct at `none`, and the conjunction over `X`. -/
theorem bigSep_univ_option {M : Type} [URA M] {X : Type} [Fintype X] (Φ : Option X → sProp M) :
    bigSep Finset.univ Φ = iprop(Φ none ∗ bigSep Finset.univ fun x : X => Φ (some x)) := by
  classical
  have h : (Finset.univ : Finset (Option X)).erase none = Finset.univ.map Function.Embedding.some := by
    ext o
    cases o <;> simp
  rw [bigSep_univ_split none, h, bigSep_map]
  rfl

/-- A conjunction over a flag and a device: the devices' conjunction at `false`, and at `true`. -/
theorem bigSep_univ_flag {M : Type} [URA M] (Φ : Bool × Dev nD → sProp M) :
    bigSep Finset.univ Φ
      = iprop((bigSep Finset.univ fun k : Dev nD => Φ (false, k)) ∗ bigSep Finset.univ fun k : Dev nD => Φ (true, k)) := by
  rw [bigSep_univ_prod, bigSep_univ_eq_bigSepL [false, true] (by decide) (by decide)]
  rfl

/-! ## The three regroupings -/

omit [FloatOps F] in
/-- A device at the start of every one of its cells: of its barrier cell, its send cells, its receive cells. -/
theorem positions_split (c : Dev nD) :
    positions (F := F) c
      = iprop(atPos ER (barCell c) 0 ∅ 0
          ∗ (bigSep Finset.univ fun k : Dev nD => atPos ER (sendCell c k) 0 ∅ 0)
          ∗ (bigSep Finset.univ fun k : Dev nD => atPos ER (recvCell c k) 0 ∅ 0)) := by
  unfold positions
  rw [bigSep_univ_option, bigSep_univ_flag]

omit [FloatOps F] in
/-- The kernel's sixteen own semaphores at zero: the eight send and the eight receive semaphores. -/
theorem ownSems_join (c : Dev nD) :
    iprop((bigSep Finset.univ fun k : Dev nD => semVal (sendCell c k) 0)
        ∗ (bigSep Finset.univ fun k : Dev nD => semVal (recvCell c k) 0))
      = (Pipeline.ownSems0 (Ix := Unit) (Name := ℕ) (U := UU) (Lvl := ℕ) (Val := Elt F) (τ := τ) osem c : sProp 𝕄) := by
  unfold Pipeline.ownSems0
  rw [bigSep_univ_flag]

omit [FloatOps F] in
/-- The tokens a device pays with, kind by kind: the barrier units, the arrivals, the departures. -/
theorem payToks_split (c : Dev nD) :
    payToks (F := F) c
      = iprop((bigSep (others c) fun k => dutyTok ER (barCell k) 0 c)
          ∗ (bigSep (others c) fun k => dutyTok ER (recvCell k c) 0 c)
          ∗ (bigSep (others c) fun k => dutyTok ER (sendCell c k) 0 k)) := by
  unfold payToks
  rw [bigSep_sep', bigSep_sep']

end Cert.Kernel.Xchg

end
-- ==== Proof.FactsK.lean ====
/-
  Decided facts about the integer conditions the kernel computes from a device's number, and about the set of the
  other devices with every device taken out.
-/
import proofs.«900941_g7700000000000942_dist_mean_ax0_shard0_i_m1024_n512_v7x_i8_f32_1_alg».proof.Proof.SchedK

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The signalling conditions: device c signals device j, and copies to it, exactly when c is not j -/

theorem cond1_iff (c : Dev nD) : k0_cond1 c = 1#1 ↔ c ≠ (0 : Dev nD) := by revert c; decide
theorem cond2_iff (c : Dev nD) : k0_cond2 c = 1#1 ↔ c ≠ (1 : Dev nD) := by revert c; decide
theorem cond3_iff (c : Dev nD) : k0_cond3 c = 1#1 ↔ c ≠ (2 : Dev nD) := by revert c; decide
theorem cond4_iff (c : Dev nD) : k0_cond4 c = 1#1 ↔ c ≠ (3 : Dev nD) := by revert c; decide
theorem cond5_iff (c : Dev nD) : k0_cond5 c = 1#1 ↔ c ≠ (4 : Dev nD) := by revert c; decide
theorem cond6_iff (c : Dev nD) : k0_cond6 c = 1#1 ↔ c ≠ (5 : Dev nD) := by revert c; decide
theorem cond7_iff (c : Dev nD) : k0_cond7 c = 1#1 ↔ c ≠ (6 : Dev nD) := by revert c; decide
theorem cond8_iff (c : Dev nD) : k0_cond8 c = 1#1 ↔ c ≠ (7 : Dev nD) := by revert c; decide
theorem cond9_iff (c : Dev nD) : k0_cond9 c = 1#1 ↔ c ≠ (0 : Dev nD) := by revert c; decide
theorem cond10_iff (c : Dev nD) : k0_cond10 c = 1#1 ↔ c ≠ (1 : Dev nD) := by revert c; decide
theorem cond11_iff (c : Dev nD) : k0_cond11 c = 1#1 ↔ c ≠ (2 : Dev nD) := by revert c; decide
theorem cond12_iff (c : Dev nD) : k0_cond12 c = 1#1 ↔ c ≠ (3 : Dev nD) := by revert c; decide
theorem cond13_iff (c : Dev nD) : k0_cond13 c = 1#1 ↔ c ≠ (4 : Dev nD) := by revert c; decide
theorem cond14_iff (c : Dev nD) : k0_cond14 c = 1#1 ↔ c ≠ (5 : Dev nD) := by revert c; decide
theorem cond15_iff (c : Dev nD) : k0_cond15 c = 1#1 ↔ c ≠ (6 : Dev nD) := by revert c; decide
theorem cond16_iff (c : Dev nD) : k0_cond16 c = 1#1 ↔ c ≠ (7 : Dev nD) := by revert c; decide

/-! ## The waiting conditions: device c waits for device j's copy exactly when c is not j -/

theorem wcond0_iff (c : Dev nD) :
    Scalar.cmpi .ne (Scalar.extui (Scalar.cmpi .ne (Scalar.remsi (Scalar.divsi (Dev.word c) 1#32) 8#32) 0#32)) 0#32 = 1#1 ↔ c ≠ (0 : Dev nD) := by
  revert c; decide
theorem wcond1_iff (c : Dev nD) :
    Scalar.cmpi .ne (Scalar.extui (Scalar.cmpi .ne (Scalar.remsi (Scalar.divsi (Dev.word c) 1#32) 8#32) 1#32)) 0#32 = 1#1 ↔ c ≠ (1 : Dev nD) := by
  revert c; decide
theorem wcond2_iff (c : Dev nD) :
    Scalar.cmpi .ne (Scalar.extui (Scalar.cmpi .ne (Scalar.remsi (Scalar.divsi (Dev.word c) 1#32) 8#32) 2#32)) 0#32 = 1#1 ↔ c ≠ (2 : Dev nD) := by
  revert c; decide
theorem wcond3_iff (c : Dev nD) :
    Scalar.cmpi .ne (Scalar.extui (Scalar.cmpi .ne (Scalar.remsi (Scalar.divsi (Dev.word c) 1#32) 8#32) 3#32)) 0#32 = 1#1 ↔ c ≠ (3 : Dev nD) := by
  revert c; decide
theorem wcond4_iff (c : Dev nD) :
    Scalar.cmpi .ne (Scalar.extui (Scalar.cmpi .ne (Scalar.remsi (Scalar.divsi (Dev.word c) 1#32) 8#32) 4#32)) 0#32 = 1#1 ↔ c ≠ (4 : Dev nD) := by
  revert c; decide
theorem wcond5_iff (c : Dev nD) :
    Scalar.cmpi .ne (Scalar.extui (Scalar.cmpi .ne (Scalar.remsi (Scalar.divsi (Dev.word c) 1#32) 8#32) 5#32)) 0#32 = 1#1 ↔ c ≠ (5 : Dev nD) := by
  revert c; decide
theorem wcond6_iff (c : Dev nD) :
    Scalar.cmpi .ne (Scalar.extui (Scalar.cmpi .ne (Scalar.remsi (Scalar.divsi (Dev.word c) 1#32) 8#32) 6#32)) 0#32 = 1#1 ↔ c ≠ (6 : Dev nD) := by
  revert c; decide
theorem wcond7_iff (c : Dev nD) :
    Scalar.cmpi .ne (Scalar.extui (Scalar.cmpi .ne (Scalar.remsi (Scalar.divsi (Dev.word c) 1#32) 8#32) 7#32)) 0#32 = 1#1 ↔ c ≠ (7 : Dev nD) := by
  revert c; decide

/-! ## The other devices, taken out one by one -/

/-- Taking every device out of the set of the other devices leaves nothing. -/
theorem others_erase_all (c : Dev nD) :
    ((((((((others c).erase 0).erase 1).erase 2).erase 3).erase 4).erase 5).erase 6).erase 7 = ∅ := by
  revert c; decide

theorem others_sub (c : Dev nD) : others c ⊆ others c := Finset.Subset.refl _

/-- Taking a device out of a subset leaves a subset. -/
theorem erase_sub {S R : Finset (Dev nD)} (h : R ⊆ S) (j : Dev nD) : R.erase j ⊆ S := (Finset.erase_subset _ _).trans h

end Cert.Kernel.Xchg

end
-- ==== Proof.BodyK.lean ====
/-
  One device's kernel body, from what the launch hands it to what it hands back: the seven entry signals, the
  device's own partial sums, the wait for the other seven devices, the seven copies, the fourteen waits, and the
  reduction of the gathered rows.
-/
import proofs.«900941_g7700000000000942_dist_mean_ax0_shard0_i_m1024_n512_v7x_i8_f32_1_alg».proof.Proof.StepsK
import proofs.«900941_g7700000000000942_dist_mean_ax0_shard0_i_m1024_n512_v7x_i8_f32_1_alg».proof.Proof.RegroupK
import proofs.«900941_g7700000000000942_dist_mean_ax0_shard0_i_m1024_n512_v7x_i8_f32_1_alg».proof.Proof.FactsK

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

theorem memE0 (c : Dev nD) : c ≠ (0 : Dev nD) → (0 : Dev nD) ∈ (others c) := by revert c; decide
theorem notE0 (c : Dev nD) : c ∉ (others c) := by revert c; decide
theorem subE0 (c : Dev nD) : (others c) ⊆ others c := by revert c; decide
theorem memE1 (c : Dev nD) : c ≠ (1 : Dev nD) → (1 : Dev nD) ∈ ((others c).erase 0) := by revert c; decide
theorem notE1 (c : Dev nD) : c ∉ ((others c).erase 0) := by revert c; decide
theorem subE1 (c : Dev nD) : ((others c).erase 0) ⊆ others c := by revert c; decide
theorem memE2 (c : Dev nD) : c ≠ (2 : Dev nD) → (2 : Dev nD) ∈ (((others c).erase 0).erase 1) := by revert c; decide
theorem notE2 (c : Dev nD) : c ∉ (((others c).erase 0).erase 1) := by revert c; decide
theorem subE2 (c : Dev nD) : (((others c).erase 0).erase 1) ⊆ others c := by revert c; decide
theorem memE3 (c : Dev nD) : c ≠ (3 : Dev nD) → (3 : Dev nD) ∈ ((((others c).erase 0).erase 1).erase 2) := by revert c; decide
theorem notE3 (c : Dev nD) : c ∉ ((((others c).erase 0).erase 1).erase 2) := by revert c; decide
theorem subE3 (c : Dev nD) : ((((others c).erase 0).erase 1).erase 2) ⊆ others c := by revert c; decide
theorem memE4 (c : Dev nD) : c ≠ (4 : Dev nD) → (4 : Dev nD) ∈ (((((others c).erase 0).erase 1).erase 2).erase 3) := by revert c; decide
theorem notE4 (c : Dev nD) : c ∉ (((((others c).erase 0).erase 1).erase 2).erase 3) := by revert c; decide
theorem subE4 (c : Dev nD) : (((((others c).erase 0).erase 1).erase 2).erase 3) ⊆ others c := by revert c; decide
theorem memE5 (c : Dev nD) : c ≠ (5 : Dev nD) → (5 : Dev nD) ∈ ((((((others c).erase 0).erase 1).erase 2).erase 3).erase 4) := by revert c; decide
theorem notE5 (c : Dev nD) : c ∉ ((((((others c).erase 0).erase 1).erase 2).erase 3).erase 4) := by revert c; decide
theorem subE5 (c : Dev nD) : ((((((others c).erase 0).erase 1).erase 2).erase 3).erase 4) ⊆ others c := by revert c; decide
theorem memE6 (c : Dev nD) : c ≠ (6 : Dev nD) → (6 : Dev nD) ∈ (((((((others c).erase 0).erase 1).erase 2).erase 3).erase 4).erase 5) := by revert c; decide
theorem notE6 (c : Dev nD) : c ∉ (((((((others c).erase 0).erase 1).erase 2).erase 3).erase 4).erase 5) := by revert c; decide
theorem subE6 (c : Dev nD) : (((((((others c).erase 0).erase 1).erase 2).erase 3).erase 4).erase 5) ⊆ others c := by revert c; decide
theorem memE7 (c : Dev nD) : c ≠ (7 : Dev nD) → (7 : Dev nD) ∈ ((((((((others c).erase 0).erase 1).erase 2).erase 3).erase 4).erase 5).erase 6) := by revert c; decide
theorem notE7 (c : Dev nD) : c ∉ ((((((((others c).erase 0).erase 1).erase 2).erase 3).erase 4).erase 5).erase 6) := by revert c; decide
theorem subE7 (c : Dev nD) : ((((((((others c).erase 0).erase 1).erase 2).erase 3).erase 4).erase 5).erase 6) ⊆ others c := by revert c; decide

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S1024x512 .f32).view.readAt (Elt F) (Rect.unit (s := S1024x512) ![0, 0] S1024x512.size inb_S1024x512_S1024x512_0_0).toLoadRect f = f :=
  Memref.readAt_unit_zero (Elt F) cc0_stg0_0 hz2 _ f

theorem fetch_0 (t : Fin cfg0.N) : (cfg0.win (0 : Fin 2)).fetch t = true := by rw [fin_N t]; rfl

/-- The entry signals start from what the launch dealt. -/
theorem SigSt_intro (c : Dev nD) (W : Waits sig Unit) (f0 : Buf (Elt F) ((c : Thread nD τ).loc cc0_scratch0)) :
    iprop(owes (c : Thread nD τ) (O₀ c) W ∗ (bigSep (others c) fun k => dutyTok ER (barCell k) 0 c)
        ∗ bigSep (others c) fun k => rowPts (F := F) c k fullShare f0)
      ⊢ SigSt (F := F) c (others c) W := by
  unfold SigSt O₀
  rw [bigSep_sep']
  iintro ⟨HO, Ht, Hr⟩
  isplitl [HO]; · iexact HO
  isplitl [Ht]; · iexact Ht
  iapply (show bigSep (others c) (fun k => rowPts (F := F) c k fullShare f0) ⊢ bigSep (others c) (fun k => iprop(∃ f, rowPts (F := F) c k fullShare f))
    from bigSep_mono fun k _ => exists_intro (Φ := fun f => rowPts (F := F) c k fullShare f) f0)
  iexact Hr

/-- The device reads row `c` of its gather buffer and overwrites it with its partial sums. -/
theorem store_row (c : Dev nD) (off : Fin 2 → ℕ) (hoff : off = ![c.val, 0]) (p : ∀ a, off a + S1x512.size a ≤ S8x512.size a)
    (f0 : Buf (Elt F) ((c : Thread nD τ).loc cc0_scratch0)) (w : Vec F S1x512 .f32) {hl} {hx} {hm} (Q : PUnit → sProp 𝕄) :
    iprop(rowPts (F := F) c c fullShare f0
        ∗ (rowPts (F := F) c c fullShare ((rowM c : Memref sig .tc .vmem S1x512 .f32).view.write (Elt F) f0 w Finset.univ) -∗ Q ⟨⟩))
      ⊢ wp frame (wpE (defs₀ (F := F)) 𝒱₀ c none) Set.univ
          (Prog.op (TpuEff.load (aM : Memref sig .tc .vmem S8x512 .f32) (Rect.unit (s := S8x512) off S1x512.size p).toLoadRect hl) Prog.ret)
          fun _ => wp frame (wpE (defs₀ (F := F)) 𝒱₀ c none) Set.univ
            (Prog.op (TpuEff.store (aM : Memref sig .tc .vmem S8x512 .f32) (Rect.unit (s := S8x512) off S1x512.size p) w Finset.univ hx hm) Prog.ret) Q := by
  subst hoff
  unfold rowPts
  iintro ⟨Hrow, Hk⟩
  iapply (wp_load_rect 𝒱₀ (c : Thread nD τ) none Set.univ (m := aM) (r := Rect.unit (s := S8x512) ![c.val, 0] S1x512.size p)
    (Finset.Subset.refl _)) $$ Hrow
  iintro Hrow
  rw [wp_ret]; imodintro
  iapply (wp_store 𝒱₀ (c : Thread nD τ) none Set.univ (m := aM) (r := Rect.unit (s := S8x512) ![c.val, 0] S1x512.size p) (Mk := Finset.univ)
    (S := ((aM : Memref sig .tc .vmem S8x512 .f32).access (Rect.unit (s := S8x512) ![c.val, 0] S1x512.size p)).set) (Finset.Subset.refl _)) $$ Hrow
  iintro Hrow
  rw [wp_ret]; imodintro
  iapply Hk; iexact Hrow

/-- The wait for the other seven devices' units. -/
theorem bar_wait (K : Dev nD × CI → ℕ) (c : Dev nD) (W : Waits sig Unit) (hamt : (7#32 : BitVec 32).msb = false) (Q : PUnit → sProp 𝕄) :
    iprop(records m ρ K ∗ levAts L lv ∗ cred (tallyAt (barCell c) () 7) ∗ owes (c : Thread nD τ) (Orecv c (others c)) W ∗ atPos ER (barCell c) 0 ∅ 0
        ∗ ((owes (c : Thread nD τ) (Orecv c (others c)) (insert (SemLoc.reg barS, ()) W) ∗ bigSep (others c) (fun d => barPay (F := F) c d)) -∗ Q ⟨⟩))
      ⊢ wp frame (wpE (defs₀ (F := F)) 𝒱₀ c none) Set.univ (semWaitWord barS 7#32 hamt) Q := by
  simp only [semWaitWord, Prog.lift]
  iintro ⟨#Hrec, #Hlev, Hc, HO, Hat, Hk⟩
  iapply (Rounds.wp_wait_rest_token 𝒱₀ ER (Rd m ρ) (c : Thread nD τ) none (κ := K (c, none))
      (wpE_semWait_eq 𝒱₀ (c : Thread nD τ) none Set.univ) (Set.mem_univ _) () (O := Orecv c (others c)) (W := W) (R := 0) (m := 0) (T := ∅)
      (by rw [expect_bar]; decide)) $$ [Hc HO Hat]
  · isplitr; · iapply (inv_at m ρ K (c, none)); iexact Hrec
    isplitl [Hc]; · iexact Hc
    isplitl [HO]; · iexact HO
    isplitr; · iapply (mayWait_bar c (others c)); iexact Hlev
    iexact Hat
  iintro ⟨HO, -, -, Hpay⟩
  ihave Hp := (Entails.of_eq (rest_bar m ρ c)) $$ Hpay
  rw [wp_ret]; imodintro
  iapply Hk
  isplitl [HO]; · iexact HO
  iexact Hp

theorem barPay_row (c d : Dev nD) : barPay (F := F) c d ⊢ iprop(∃ f, rowPts (F := F) d c fullShare f) := by
  unfold barPay; iintro ⟨H, -⟩; iexact H

/-- Row `c` after the store holds what the gathered buffer holds there. -/
theorem rowc_acc (c : Dev nD) (f0 : Buf (Elt F) ((c : Thread nD τ).loc cc0_scratch0)) :
    rowPts (F := F) c c fullShare ((rowM c : Memref sig .tc .vmem S1x512 .f32).view.write (Elt F) f0 (Spec.psum (xstg m ρ c)) Finset.univ)
      = rowPts (F := F) c c fullShare (accAll m ρ) := by
  unfold rowPts
  exact pointsTo_congr fun i hi => row_store_acc m ρ c f0 i (rowM_set c ▸ hi)

/-- The copies start from the tokens, the shares of row `c` and the rows the other devices handed over. -/
theorem SendSt_intro (c : Dev nD) (W : Waits sig Unit) :
    iprop(owes (c : Thread nD τ) (Orecv c (others c)) W ∗ (bigSep (others c) fun k => dutyTok ER (recvCell k c) 0 c)
        ∗ (bigSep (others c) fun k => dutyTok ER (sendCell c k) 0 k)
        ∗ (bigSep (others c) fun k => rowPts (F := F) c c (pieceShare k.val) (accAll m ρ))
        ∗ bigSep (others c) (fun d => barPay (F := F) c d))
      ⊢ SendSt m ρ c (others c) W := by
  unfold SendSt
  rw [Finset.sdiff_self, bigSep_empty, bigSep_sep', bigSep_sep', bigSep_sep']
  iintro ⟨HO, H1, H2, H3, H4⟩
  isplitl [HO]; · iexact HO
  isplitl [H1 H2 H3 H4]
  · isplitl [H1]; · iexact H1
    isplitl [H2]; · iexact H2
    isplitl [H3]; · iexact H3
    iapply (show bigSep (others c) (fun d => barPay (F := F) c d) ⊢ bigSep (others c) (fun k => iprop(∃ f, rowPts (F := F) k c fullShare f))
      from bigSep_mono fun k _ => barPay_row c k)
    iexact H4
  · iempintro

/-- The waits start from the credit of both cells of every other device and the positions at their start. -/
theorem WaitSt_intro (c : Dev nD) (W : Waits sig Unit) :
    iprop(owes (c : Thread nD τ) 0 W ∗ (bigSep (others c) fun k => cred (tallyAt (sendCell c k) () N))
        ∗ (bigSep (others c) fun k => cred (tallyAt (recvCell c k) () N))
        ∗ (bigSep (others c) fun k => atPos ER (sendCell c k) 0 ∅ 0)
        ∗ (bigSep (others c) fun k => atPos ER (recvCell c k) 0 ∅ 0))
      ⊢ WaitSt m ρ c (others c) := by
  unfold WaitSt
  rw [Finset.sdiff_self, bigSep_empty, bigSep_sep', bigSep_sep', bigSep_sep']
  iintro ⟨HO, H1, H2, H3, H4⟩
  isplitl [HO]; · iexists W; iexact HO
  isplitl [H1 H2 H3 H4]
  · isplitl [H1]; · iexact H1
    isplitl [H2]; · iexact H2
    isplitl [H3]; · iexact H3
    iexact H4
  · iempintro

omit [FloatOps F] in
theorem read_acc (f : (cc0_scratch0 : Ref sig .tc).ty.Contents (Elt F)) :
    (aM : Memref sig .tc .vmem S8x512 .f32).view.readAt (Elt F) (Rect.unit (s := S8x512) ![0, 0] S8x512.size inb_S8x512_S8x512_0_0).toLoadRect f = f :=
  Memref.readAt_unit_zero (Elt F) cc0_scratch0 hz2 _ f
omit [FloatOps F] in
theorem write_out (f w : (cc0_stg1_0 : Ref sig .tc).ty.Contents (Elt F)) :
    ((oM : Memref sig .tc .vmem S1x512 .f32).access (Rect.unit (s := S1x512) ![0, 0] S1x512.size inb_S1x512_S1x512_0_0) : View sig .tc _ _ _).write (Elt F) f w Finset.univ = w :=
  Memref.write_access_unit_zero_univ (Elt F) cc0_stg1_0 hz2 _ f w

set_option maxHeartbeats 3200000 in
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  rw [wp_bind]; delta k0_part1; rw [wp_bind]
  simp only [Prog.lift, wp_deviceId, wp_ret]
  unfold bodyPre ghost launchCreds
  rw [positions_split, payToks_split]
  iintro ⟨⟨⟨⟨#Hrec, ⟨HaB, HaS, HaR⟩, ⟨HtB, HtR, HtS⟩⟩, ⟨HcB, HcR⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  imodintro
  ihave Hrows := (Entails.of_eq (scr_rows c f0)) $$ Hscr
  ihave Hrows := (Entails.of_eq (bigSep_univ_others c _)) $$ Hrows
  icases Hrows with ⟨Hrowc, Hrows⟩
  ihave HS := (SigSt_intro c W f0) $$ [HO HtB Hrows]
  · isplitl [HO]; · iexact HO
    isplitl [HtB]; · iexact HtB
    iexact Hrows
  iapply (sig_step m ρ K c 0 (k0_cond1 c) (cond1_iff c) k0_dev1 k0_dev1_eq (k0_dev1_lt c) hamt_1 _ (memE0 c) (notE0 c) W)
  isplitr; · iexact Hrec
  isplitl [HS]; · iexact HS
  iintro HS
  iapply (sig_step m ρ K c 1 (k0_cond2 c) (cond2_iff c) k0_dev2 k0_dev2_eq (k0_dev2_lt c) hamt_1 _ (memE1 c) (notE1 c) W)
  isplitr; · iexact Hrec
  isplitl [HS]; · iexact HS
  iintro HS
  iapply (sig_step m ρ K c 2 (k0_cond3 c) (cond3_iff c) k0_dev3 k0_dev3_eq (k0_dev3_lt c) hamt_1 _ (memE2 c) (notE2 c) W)
  isplitr; · iexact Hrec
  isplitl [HS]; · iexact HS
  iintro HS
  iapply (sig_step m ρ K c 3 (k0_cond4 c) (cond4_iff c) k0_dev4 k0_dev4_eq (k0_dev4_lt c) hamt_1 _ (memE3 c) (notE3 c) W)
  isplitr; · iexact Hrec
  isplitl [HS]; · iexact HS
  iintro HS
  iapply (sig_step m ρ K c 4 (k0_cond5 c) (cond5_iff c) k0_dev5 k0_dev5_eq (k0_dev5_lt c) hamt_1 _ (memE4 c) (notE4 c) W)
  isplitr; · iexact Hrec
  isplitl [HS]; · iexact HS
  iintro HS
  iapply (sig_step m ρ K c 5 (k0_cond6 c) (cond6_iff c) k0_dev6 k0_dev6_eq (k0_dev6_lt c) hamt_1 _ (memE5 c) (notE5 c) W)
  isplitr; · iexact Hrec
  isplitl [HS]; · iexact HS
  iintro HS
  iapply (sig_step m ρ K c 6 (k0_cond7 c) (cond7_iff c) k0_dev7 k0_dev7_eq (k0_dev7_lt c) hamt_1 _ (memE6 c) (notE6 c) W)
  isplitr; · iexact Hrec
  isplitl [HS]; · iexact HS
  iintro HS
  iapply (sig_step m ρ K c 7 (k0_cond8 c) (cond8_iff c) k0_dev8 k0_dev8_eq (k0_dev8_lt c) hamt_1 _ (memE7 c) (notE7 c) W)
  isplitr; · iexact Hrec
  isplitl [HS]; · iexact HS
  iintro HS
  rw [others_erase_all]
  unfold SigSt Obar
  rw [Finset.sum_empty, add_zero, bigSep_empty]
  icases HS with ⟨HO, -⟩
  -- the device's own block: its column sums
  simp only [Prog.bind_op, Prog.bind_ret, Prog.pure_eq_ret]
  iapply (wp_load 𝒱₀ (c : Thread nD τ) none Set.univ (m := xM) (Finset.subset_univ _)) $$ Hx; iintro Hx
  rw [read_x, wp_ret]
  imodintro
  dsimp only
  rw [wp_bind]; delta k0_part2; simp only [wp_bind, Prog.lift]
  iapply (store_row c (k0_off1 c) (k0_off1_eq c) (k0_off1_inb c) f0 (Spec.psum (xstg m ρ c)))
  isplitl [Hrowc]; · iexact Hrowc
  iintro Hrowc
  iapply (bar_wait m ρ K c W hamt_7)
  isplitr; · iexact Hrec
  isplitr; · iexact Hlev
  isplitl [HcB]; · iexact HcB
  isplitl [HO]; · iexact HO
  isplitl [HaB]; · iexact HaB
  iintro ⟨HO, Hbar⟩
  -- row `c` holds the partial sums; its share is dealt to the seven copies
  ihave Hrowc := (Entails.of_eq (rowc_acc m ρ c f0)) $$ Hrowc
  ihave Hsh := (Entails.of_eq (row_shares c c (accAll m ρ))) $$ Hrowc
  icases Hsh with ⟨Hpieces, Hrest⟩
  ihave Hpieces := (Entails.of_eq (bigSep_univ_others c _)) $$ Hpieces
  icases Hpieces with ⟨Hpc, Hpieces⟩
  ihave HS := (SendSt_intro m ρ c _) $$ [HO HtR HtS Hpieces Hbar]
  · isplitl [HO]; · iexact HO
    isplitl [HtR]; · iexact HtR
    isplitl [HtS]; · iexact HtS
    isplitl [Hpieces]; · iexact Hpieces
    iexact Hbar
  iapply (send_step m ρ K c 0 (k0_cond9 c) (cond9_iff c) _
    (fun h => enq_eq c 0 (k0_off3 c) (k0_off3_eq c) (k0_off3_inb c h) (k0_off2 c) (k0_off2_eq c) (k0_off2_inb c h)
      k0_dev9 k0_dev9_eq (k0_dev9_lt c h) ![0] rfl inb_S8_S1_0 _ _ _ _) _ (subE0 c) (memE0 c) _)
  isplitr; · iexact Hrec
  isplitl [HS]; · iexact HS
  iintro HS
  iapply (send_step m ρ K c 1 (k0_cond10 c) (cond10_iff c) _
    (fun h => enq_eq c 1 (k0_off5 c) (k0_off5_eq c) (k0_off5_inb c h) (k0_off4 c) (k0_off4_eq c) (k0_off4_inb c h)
      k0_dev10 k0_dev10_eq (k0_dev10_lt c h) ![1] rfl inb_S8_S1_1 _ _ _ _) _ (subE1 c) (memE1 c) _)
  isplitr; · iexact Hrec
  isplitl [HS]; · iexact HS
  iintro HS
  iapply (send_step m ρ K c 2 (k0_cond11 c) (cond11_iff c) _
    (fun h => enq_eq c 2 (k0_off7 c) (k0_off7_eq c) (k0_off7_inb c h) (k0_off6 c) (k0_off6_eq c) (k0_off6_inb c h)
      k0_dev11 k0_dev11_eq (k0_dev11_lt c h) ![2] rfl inb_S8_S1_2 _ _ _ _) _ (subE2 c) (memE2 c) _)
  isplitr; · iexact Hrec
  isplitl [HS]; · iexact HS
  iintro HS
  iapply (send_step m ρ K c 3 (k0_cond12 c) (cond12_iff c) _
    (fun h => enq_eq c 3 (k0_off9 c) (k0_off9_eq c) (k0_off9_inb c h) (k0_off8 c) (k0_off8_eq c) (k0_off8_inb c h)
      k0_dev12 k0_dev12_eq (k0_dev12_lt c h) ![3] rfl inb_S8_S1_3 _ _ _ _) _ (subE3 c) (memE3 c) _)
  isplitr; · iexact Hrec
  isplitl [HS]; · iexact HS
  iintro HS
  iapply (send_step m ρ K c 4 (k0_cond13 c) (cond13_iff c) _
    (fun h => enq_eq c 4 (k0_off11 c) (k0_off11_eq c) (k0_off11_inb c h) (k0_off10 c) (k0_off10_eq c) (k0_off10_inb c h)
      k0_dev13 k0_dev13_eq (k0_dev13_lt c h) ![4] rfl inb_S8_S1_4 _ _ _ _) _ (subE4 c) (memE4 c) _)
  isplitr; · iexact Hrec
  isplitl [HS]; · iexact HS
  iintro HS
  iapply (send_step m ρ K c 5 (k0_cond14 c) (cond14_iff c) _
    (fun h => enq_eq c 5 (k0_off13 c) (k0_off13_eq c) (k0_off13_inb c h) (k0_off12 c) (k0_off12_eq c) (k0_off12_inb c h)
      k0_dev14 k0_dev14_eq (k0_dev14_lt c h) ![5] rfl inb_S8_S1_5 _ _ _ _) _ (subE5 c) (memE5 c) _)
  isplitr; · iexact Hrec
  isplitl [HS]; · iexact HS
  iintro HS
  iapply (send_step m ρ K c 6 (k0_cond15 c) (cond15_iff c) _
    (fun h => enq_eq c 6 (k0_off15 c) (k0_off15_eq c) (k0_off15_inb c h) (k0_off14 c) (k0_off14_eq c) (k0_off14_inb c h)
      k0_dev15 k0_dev15_eq (k0_dev15_lt c h) ![6] rfl inb_S8_S1_6 _ _ _ _) _ (subE6 c) (memE6 c) _)
  isplitr; · iexact Hrec
  isplitl [HS]; · iexact HS
  iintro HS
  iapply (send_step m ρ K c 7 (k0_cond16 c) (cond16_iff c) _
    (fun h => enq_eq c 7 (k0_off17 c) (k0_off17_eq c) (k0_off17_inb c h) (k0_off16 c) (k0_off16_eq c) (k0_off16_inb c h)
      k0_dev16 k0_dev16_eq (k0_dev16_lt c h) ![7] rfl inb_S8_S1_7 _ _ _ _) _ (subE7 c) (memE7 c) _)
  isplitr; · iexact Hrec
  isplitl [HS]; · iexact HS
  iintro HS
  rw [others_erase_all]
  unfold SendSt Orecv
  rw [Finset.sum_empty, bigSep_empty, Finset.sdiff_empty]
  icases HS with ⟨HO, -, HcS⟩
  simp only [Prog.pure_eq_ret, wp_ret]
  imodintro
  delta k0_part3; simp only [wp_bind, Prog.lift]
  -- the fourteen waits
  ihave HaS := (Entails.of_eq (bigSep_univ_others c _)) $$ HaS
  icases HaS with ⟨HaSc, HaS⟩
  ihave HaR := (Entails.of_eq (bigSep_univ_others c _)) $$ HaR
  icases HaR with ⟨HaRc, HaR⟩
  ihave HS := (WaitSt_intro m ρ c _) $$ [HO HcS HcR HaS HaR]
  · isplitl [HO]; · iexact HO
    isplitl [HcS]; · iexact HcS
    isplitl [HcR]; · iexact HcR
    isplitl [HaS]; · iexact HaS
    iexact HaR
  iapply (wait_step m ρ K c 0 _ (wcond0_iff c) _ _
    (fun h => waitS_eq 0 ![0] rfl inb_S8_S1_0 ![0, 0] rfl inb_S8x512_S1x512_0_0 _ _)
    (fun h => waitR_eq 0 ![0] rfl inb_S8_S1_0 ![0, 0] rfl inb_S8x512_S1x512_0_0 _ _) _ (subE0 c) (memE0 c))
  isplitr; · iexact Hrec
  isplitl [HS]; · iexact HS
  iintro HS
  iapply (wait_step m ρ K c 1 _ (wcond1_iff c) _ _
    (fun h => waitS_eq 1 ![1] rfl inb_S8_S1_1 ![1, 0] rfl inb_S8x512_S1x512_1_0 _ _)
    (fun h => waitR_eq 1 ![1] rfl inb_S8_S1_1 ![1, 0] rfl inb_S8x512_S1x512_1_0 _ _) _ (subE1 c) (memE1 c))
  isplitr; · iexact Hrec
  isplitl [HS]; · iexact HS
  iintro HS
  iapply (wait_step m ρ K c 2 _ (wcond2_iff c) _ _
    (fun h => waitS_eq 2 ![2] rfl inb_S8_S1_2 ![2, 0] rfl inb_S8x512_S1x512_2_0 _ _)
    (fun h => waitR_eq 2 ![2] rfl inb_S8_S1_2 ![2, 0] rfl inb_S8x512_S1x512_2_0 _ _) _ (subE2 c) (memE2 c))
  isplitr; · iexact Hrec
  isplitl [HS]; · iexact HS
  iintro HS
  iapply (wait_step m ρ K c 3 _ (wcond3_iff c) _ _
    (fun h => waitS_eq 3 ![3] rfl inb_S8_S1_3 ![3, 0] rfl inb_S8x512_S1x512_3_0 _ _)
    (fun h => waitR_eq 3 ![3] rfl inb_S8_S1_3 ![3, 0] rfl inb_S8x512_S1x512_3_0 _ _) _ (subE3 c) (memE3 c))
  isplitr; · iexact Hrec
  isplitl [HS]; · iexact HS
  iintro HS
  iapply (wait_step m ρ K c 4 _ (wcond4_iff c) _ _
    (fun h => waitS_eq 4 ![4] rfl inb_S8_S1_4 ![4, 0] rfl inb_S8x512_S1x512_4_0 _ _)
    (fun h => waitR_eq 4 ![4] rfl inb_S8_S1_4 ![4, 0] rfl inb_S8x512_S1x512_4_0 _ _) _ (subE4 c) (memE4 c))
  isplitr; · iexact Hrec
  isplitl [HS]; · iexact HS
  iintro HS
  iapply (wait_step m ρ K c 5 _ (wcond5_iff c) _ _
    (fun h => waitS_eq 5 ![5] rfl inb_S8_S1_5 ![5, 0] rfl inb_S8x512_S1x512_5_0 _ _)
    (fun h => waitR_eq 5 ![5] rfl inb_S8_S1_5 ![5, 0] rfl inb_S8x512_S1x512_5_0 _ _) _ (subE5 c) (memE5 c))
  isplitr; · iexact Hrec
  isplitl [HS]; · iexact HS
  iintro HS
  iapply (wait_step m ρ K c 6 _ (wcond6_iff c) _ _
    (fun h => waitS_eq 6 ![6] rfl inb_S8_S1_6 ![6, 0] rfl inb_S8x512_S1x512_6_0 _ _)
    (fun h => waitR_eq 6 ![6] rfl inb_S8_S1_6 ![6, 0] rfl inb_S8x512_S1x512_6_0 _ _) _ (subE6 c) (memE6 c))
  isplitr; · iexact Hrec
  isplitl [HS]; · iexact HS
  iintro HS
  iapply (wait_step m ρ K c 7 _ (wcond7_iff c) _ _
    (fun h => waitS_eq 7 ![7] rfl inb_S8_S1_7 ![7, 0] rfl inb_S8x512_S1x512_7_0 _ _)
    (fun h => waitR_eq 7 ![7] rfl inb_S8_S1_7 ![7, 0] rfl inb_S8x512_S1x512_7_0 _ _) _ (subE7 c) (memE7 c))
  isplitr; · iexact Hrec
  isplitl [HS]; · iexact HS
  iintro HS
  rw [others_erase_all]
  unfold WaitSt
  rw [bigSep_empty, Finset.sdiff_empty, bigSep_sep', bigSep_sep', bigSep_sep']
  icases HS with ⟨⟨%W', HO⟩, -, Hps, Hrows, HzS, HzR⟩
  -- the two cells no copy uses close as they stand
  imod (Rounds.cell_close ER (Rd m ρ) (Set.mem_univ (K (c, some (false, c)))) (fun hh => hh) (R := 0) (fun r _ => duties_send_self m ρ c r)) $$ [HaSc] with HzSc
  · isplitr; · iapply (inv_at m ρ K (c, some (false, c))); iexact Hrec
    iexact HaSc
  imod (Rounds.cell_close ER (Rd m ρ) (Set.mem_univ (K (c, some (true, c)))) (fun hh => hh) (R := 0) (fun r _ => duties_recv_self m ρ c r)) $$ [HaRc] with HzRc
  · isplitr; · iapply (inv_at m ρ K (c, some (true, c))); iexact Hrec
    iexact HaRc
  -- the sixteen own semaphores, the shares of row `c` and the eight rows are put back together
  ihave HzS := (Entails.of_eq (bigSep_univ_others c (fun k => semVal (sendCell c k) 0)).symm) $$ [HzSc HzS]
  · isplitl [HzSc]; · iexact HzSc
    iexact HzS
  ihave HzR := (Entails.of_eq (bigSep_univ_others c (fun k => semVal (recvCell c k) 0)).symm) $$ [HzRc HzR]
  · isplitl [HzRc]; · iexact HzRc
    iexact HzR
  ihave Hown := (Entails.of_eq (ownSems_join (F := F) c)) $$ [HzS HzR]
  · isplitl [HzS]; · iexact HzS
    iexact HzR
  ihave Hpieces := (Entails.of_eq (bigSep_univ_others c (fun j => rowPts (F := F) c c (pieceShare j.val) (accAll m ρ))).symm) $$ [Hpc Hps]
  · isplitl [Hpc]; · iexact Hpc
    iexact Hps
  ihave Hrowc := (Entails.of_eq (row_shares c c (accAll m ρ)).symm) $$ [Hpieces Hrest]
  · isplitl [Hpieces]; · iexact Hpieces
    iexact Hrest
  ihave Hrows := (Entails.of_eq (bigSep_univ_others c (fun k => rowPts (F := F) c k fullShare (accAll m ρ))).symm) $$ [Hrowc Hrows]
  · isplitl [Hrowc]; · iexact Hrowc
    iexact Hrows
  ihave Hscr := (Entails.of_eq (scr_rows c (accAll m ρ)).symm) $$ Hrows
  unfold scrPts
  -- the gathered rows are reduced and scaled into the result
  simp only [Prog.bind_op, Prog.bind_ret, Prog.pure_eq_ret]
  iapply (wp_load 𝒱₀ (c : Thread nD τ) none Set.univ (m := aM) (View.setOn_subset_set _ _)) $$ Hscr; iintro Hscr
  rw [read_acc]
  iapply (wp_load 𝒱₀ (c : Thread nD τ) none Set.univ (m := oM) (Finset.subset_univ _)) $$ Hout; iintro Hout
  iapply (wp_store 𝒱₀ (c : Thread nD τ) none Set.univ (m := oM) (r := Rect.unit (s := S1x512) ![0, 0] S1x512.size inb_S1x512_S1x512_0_0)
    (Mk := Finset.univ) (Finset.subset_univ _)) $$ Hout; iintro Hout
  rw [write_out, wp_ret]; imodintro; imodintro
  iapply Hk
  unfold bodyPost Φ₁ Dat.owesAt Pipeline.owesWithin
  rw [show (dats m ρ 0 c).owed t₀.succ = 0 from rfl]
  isplitl [Hscr Hown]
  · isplitl [Hscr]; · unfold scrPts; iexact Hscr
    iexact Hown
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Xchg

end
-- ==== Proof.lean ====
/-
  The column means of an 8192 × 512 array, on eight devices, against the one-device reference.

  The array is cut row-wise: device `c` holds rows 1024 c … 1024 c + 1023. Each device adds up its block's 512
  columns to one row of partial sums. The eight rows are exchanged, so that every device ends holding all eight in
  an 8 × 512 buffer, row `j` being device `j`'s: a device tells every other device it is inside the kernel, waits
  to hear the same from each, copies its row into row `c` of every other device's buffer, and waits for the seven
  rows copied into its own. Each device then adds up the eight rows column by column and scales by 2⁻¹³ = 1 / 8192.
  The reference adds up all 8192 rows of each column from zero and divides by 8192.

  On the extended reals a sum may be taken in any order and grouping, and the quotient by 8192 is the product with
  1 / 8192: the two results are one function of the whole array. Nothing else is used; in particular no finiteness
  of the inputs.

  The run of the eight devices is proved once, for any float values: every fair interleaving of the devices' threads
  terminates without fault, with each device's argument block untouched and its result at the scaled column sums of
  the eight staged blocks. Read at machine words it gives the word-level program's frame; read at the extended reals
  it gives the idealized program's frame and, with the identity above and the reference's own run, the comparison.
-/
import proofs.«900941_g7700000000000942_dist_mean_ax0_shard0_i_m1024_n512_v7x_i8_f32_1_alg».proof.Defs
import proofs.«900941_g7700000000000942_dist_mean_ax0_shard0_i_m1024_n512_v7x_i8_f32_1_alg».proof.Proof.Claims
import proofs.«900941_g7700000000000942_dist_mean_ax0_shard0_i_m1024_n512_v7x_i8_f32_1_alg».proof.Proof.ClaimsK
import proofs.«900941_g7700000000000942_dist_mean_ax0_shard0_i_m1024_n512_v7x_i8_f32_1_alg».proof.Proof.Launch
import proofs.«900941_g7700000000000942_dist_mean_ax0_shard0_i_m1024_n512_v7x_i8_f32_1_alg».proof.Proof.LaunchK
import proofs.«900941_g7700000000000942_dist_mean_ax0_shard0_i_m1024_n512_v7x_i8_f32_1_alg».proof.Proof.Oblig
import proofs.«900941_g7700000000000942_dist_mean_ax0_shard0_i_m1024_n512_v7x_i8_f32_1_alg».proof.Proof.ObligK
import proofs.«900941_g7700000000000942_dist_mean_ax0_shard0_i_m1024_n512_v7x_i8_f32_1_alg».proof.Proof.Body
import proofs.«900941_g7700000000000942_dist_mean_ax0_shard0_i_m1024_n512_v7x_i8_f32_1_alg».proof.Proof.BodyK

noncomputable section

namespace Cert.Proof

open Idealize.ShloMosaic Idealize.SL.Sem

/-- Every conjunct, under the facts the generated modules prove of the programs and predicates: the two kernels'
    frames from their runs, the reference's frame from its run, the idealization that rewrote nothing, and the
    comparison at the extended reals. -/
theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Proof.ClaimsK.frame_k_of
      (fun m ρ => Cert.Kernel.Xchg.run_main m ρ
        (Cert.Kernel.Xchg.body_obligation_of m ρ (Cert.Kernel.Xchg.sound_body m ρ)))
      (fun m ρ c => Cert.Kernel.Xchg.finalA_x m ρ c),
    Cert.Proof.Claims.frame_ki_of
      (fun m ρ => Cert.KernelIdeal.Xchg.run_main m ρ
        (Cert.KernelIdeal.Xchg.body_obligation_of m ρ (Cert.KernelIdeal.Xchg.sound_body m ρ)))
      (fun m ρ c => Cert.KernelIdeal.Xchg.finalA_x m ρ c),
    Cert.Proof.Claims.frame_ri,
    Cert.Proof.Claims.preserves,
    Cert.Proof.Claims.algebraic_of
      (fun m ρ => Cert.KernelIdeal.Xchg.run_main m ρ
        (Cert.KernelIdeal.Xchg.body_obligation_of m ρ (Cert.KernelIdeal.Xchg.sound_body m ρ)))
      (fun m ρ c => Cert.KernelIdeal.Xchg.finalA_x m ρ c)
      (fun m ρ c => Cert.KernelIdeal.Xchg.finalA_out m ρ c)⟩

end Cert.Proof

end
